-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S1024x512 : Shape := ⟨2, ![1024, 512]⟩
abbrev S1x512 : Shape := ⟨2, ![1, 512]⟩
abbrev S7x1x512 : Shape := ⟨3, ![7, 1, 512]⟩
abbrev S7 : Shape := ⟨1, ![7]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S1x512, .f32⟩
  | .local _ .vmem, ⟨3, _⟩ => ⟨S7x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v102 : BitVec 32 := Scalar.addi v2 c1_i32_67
  let c8_i32_68 : BitVec 32 := 8#32
  let c0_i32_69 : BitVec 32 := 0#32
  let v103 : BitVec 1 := Scalar.cmpi .eq c8_i32_68 c0_i32_69
  let c1_i32_70 : BitVec 32 := 1#32
  let v104 : BitVec 32 := Scalar.select v103 c1_i32_70 c8_i32_68
  let v105 : BitVec 32 := Scalar.remsi v102 v104
  let c0_i32_72 : BitVec 32 := 0#32
  let v107 : BitVec 1 := Scalar.cmpi .slt v105 c0_i32_72
  let c0_i32_73 : BitVec 32 := 0#32
  let v108 : BitVec 1 := Scalar.cmpi .slt v104 c0_i32_73
  let v109 : BitVec 1 := Scalar.xori v107 v108
  let c0_i32_71 : BitVec 32 := 0#32
  let v106 : BitVec 1 := Scalar.cmpi .ne v105 c0_i32_71
  let v110 : BitVec 1 := Scalar.andi v109 v106
  let v111 : BitVec 32 := Scalar.addi v105 v104
  let v112 : BitVec 32 := Scalar.select v110 v111 v105
  let c1_i32_77 : BitVec 32 := 1#32
  let v113 : BitVec 32 := Scalar.muli v112 c1_i32_77
  let v114 : BitVec 32 := Scalar.addi c0_i32_78 v113
  v114.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v121 : BitVec 32 := Scalar.addi v2 c2_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1_i32_91 : BitVec 32 := 1#32
  let v132 : BitVec 32 := Scalar.muli v131 c1_i32_91
  let v133 : BitVec 32 := Scalar.addi c0_i32_92 v132
  v133.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v140 : BitVec 32 := Scalar.addi v2 c3_i32_95
  let c8_i32_96 : BitVec 32 := 8#32
  let c0_i32_97 : BitVec 32 := 0#32
  let v141 : BitVec 1 := Scalar.cmpi .eq c8_i32_96 c0_i32_97
  let c1_i32_98 : BitVec 32 := 1#32
  let v142 : BitVec 32 := Scalar.select v141 c1_i32_98 c8_i32_96
  let v143 : BitVec 32 := Scalar.remsi v140 v142
  let c0_i32_100 : BitVec 32 := 0#32
  let v145 : BitVec 1 := Scalar.cmpi .slt v143 c0_i32_100
  let c0_i32_101 : BitVec 32 := 0#32
  let v146 : BitVec 1 := Scalar.cmpi .slt v142 c0_i32_101
  let v147 : BitVec 1 := Scalar.xori v145 v146
  let c0_i32_99 : BitVec 32 := 0#32
  let v144 : BitVec 1 := Scalar.cmpi .ne v143 c0_i32_99
  let v148 : BitVec 1 := Scalar.andi v147 v144
  let v149 : BitVec 32 := Scalar.addi v143 v142
  let v150 : BitVec 32 := Scalar.select v148 v149 v143
  let c1_i32_105 : BitVec 32 := 1#32
  let v151 : BitVec 32 := Scalar.muli v150 c1_i32_105
  let v152 : BitVec 32 := Scalar.addi c0_i32_106 v151
  v152.toNat
def k0_dev11 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v159 : BitVec 32 := Scalar.addi v2 c4_i32_109
  let c8_i32_110 : BitVec 32 := 8#32
  let c0_i32_111 : BitVec 32 := 0#32
  let v160 : BitVec 1 := Scalar.cmpi .eq c8_i32_110 c0_i32_111
  let c1_i32_112 : BitVec 32 := 1#32
  let v161 : BitVec 32 := Scalar.select v160 c1_i32_112 c8_i32_110
  let v162 : BitVec 32 := Scalar.remsi v159 v161
  let c0_i32_114 : BitVec 32 := 0#32
  let v164 : BitVec 1 := Scalar.cmpi .slt v162 c0_i32_114
  let c0_i32_115 : BitVec 32 := 0#32
  let v165 : BitVec 1 := Scalar.cmpi .slt v161 c0_i32_115
  let v166 : BitVec 1 := Scalar.xori v164 v165
  let c0_i32_113 : BitVec 32 := 0#32
  let v163 : BitVec 1 := Scalar.cmpi .ne v162 c0_i32_113
  let v167 : BitVec 1 := Scalar.andi v166 v163
  let v168 : BitVec 32 := Scalar.addi v162 v161
  let v169 : BitVec 32 := Scalar.select v167 v168 v162
  let c1_i32_119 : BitVec 32 := 1#32
  let v170 : BitVec 32 := Scalar.muli v169 c1_i32_119
  let v171 : BitVec 32 := Scalar.addi c0_i32_120 v170
  v171.toNat
def k0_dev12 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_123 : BitVec 32 := 5#32
  let v178 : BitVec 32 := Scalar.addi v2 c5_i32_123
  let c8_i32_124 : BitVec 32 := 8#32
  let c0_i32_125 : BitVec 32 := 0#32
  let v179 : BitVec 1 := Scalar.cmpi .eq c8_i32_124 c0_i32_125
  let c1_i32_126 : BitVec 32 := 1#32
  let v180 : BitVec 32 := Scalar.select v179 c1_i32_126 c8_i32_124
  let v181 : BitVec 32 := Scalar.remsi v178 v180
  let c0_i32_128 : BitVec 32 := 0#32
  let v183 : BitVec 1 := Scalar.cmpi .slt v181 c0_i32_128
  let c0_i32_129 : BitVec 32 := 0#32
  let v184 : BitVec 1 := Scalar.cmpi .slt v180 c0_i32_129
  let v185 : BitVec 1 := Scalar.xori v183 v184
  let c0_i32_127 : BitVec 32 := 0#32
  let v182 : BitVec 1 := Scalar.cmpi .ne v181 c0_i32_127
  let v186 : BitVec 1 := Scalar.andi v185 v182
  let v187 : BitVec 32 := Scalar.addi v181 v180
  let v188 : BitVec 32 := Scalar.select v186 v187 v181
  let c1_i32_133 : BitVec 32 := 1#32
  let v189 : BitVec 32 := Scalar.muli v188 c1_i32_133
  let v190 : BitVec 32 := Scalar.addi c0_i32_134 v189
  v190.toNat
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v197 : BitVec 32 := Scalar.addi v2 c6_i32_137
  let c8_i32_138 : BitVec 32 := 8#32
  let c0_i32_139 : BitVec 32 := 0#32
  let v198 : BitVec 1 := Scalar.cmpi .eq c8_i32_138 c0_i32_139
  let c1_i32_140 : BitVec 32 := 1#32
  let v199 : BitVec 32 := Scalar.select v198 c1_i32_140 c8_i32_138
  let v200 : BitVec 32 := Scalar.remsi v197 v199
  let c0_i32_142 : BitVec 32 := 0#32
  let v202 : BitVec 1 := Scalar.cmpi .slt v200 c0_i32_142
  let c0_i32_143 : BitVec 32 := 0#32
  let v203 : BitVec 1 := Scalar.cmpi .slt v199 c0_i32_143
  let v204 : BitVec 1 := Scalar.xori v202 v203
  let c0_i32_141 : BitVec 32 := 0#32
  let v201 : BitVec 1 := Scalar.cmpi .ne v200 c0_i32_141
  let v205 : BitVec 1 := Scalar.andi v204 v201
  let v206 : BitVec 32 := Scalar.addi v200 v199
  let v207 : BitVec 32 := Scalar.select v205 v206 v200
  let c1_i32_147 : BitVec 32 := 1#32
  let v208 : BitVec 32 := Scalar.muli v207 c1_i32_147
  let v209 : BitVec 32 := Scalar.addi c0_i32_148 v208
  v209.toNat
def k0_dev14 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_151 : BitVec 32 := 7#32
  let v216 : BitVec 32 := Scalar.addi v2 c7_i32_151
  let c8_i32_152 : BitVec 32 := 8#32
  let c0_i32_153 : BitVec 32 := 0#32
  let v217 : BitVec 1 := Scalar.cmpi .eq c8_i32_152 c0_i32_153
  let c1_i32_154 : BitVec 32 := 1#32
  let v218 : BitVec 32 := Scalar.select v217 c1_i32_154 c8_i32_152
  let v219 : BitVec 32 := Scalar.remsi v216 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let c1_i32_161 : BitVec 32 := 1#32
  let v227 : BitVec 32 := Scalar.muli v226 c1_i32_161
  let v228 : BitVec 32 := Scalar.addi c0_i32_162 v227
  v228.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hamt_7 : (7#32 : BitVec 32).msb = false
  inb_S7_S1_0 : ∀ a, (![0] : Fin 1 → Nat) a + S1.size a ≤ S7.size a
  squeezes_S1_S_ : S1.Squeezes S_
  inb_S7x1x512_S1x1x512_0_0_0 : ∀ a, (![0, 0, 0] : Fin 3 → Nat) a + S1x1x512.size a ≤ S7x1x512.size a
  squeezes_S1x1x512_S1x512 : S1x1x512.Squeezes S1x512
  inb_S7_S1_1 : ∀ a, (![1] : Fin 1 → Nat) a + S1.size a ≤ S7.size a
  inb_S7x1x512_S1x1x512_1_0_0 : ∀ a, (![1, 0, 0] : Fin 3 → Nat) a + S1x1x512.size a ≤ S7x1x512.size a
  inb_S7_S1_2 : ∀ a, (![2] : Fin 1 → Nat) a + S1.size a ≤ S7.size a
  inb_S7x1x512_S1x1x512_2_0_0 : ∀ a, (![2, 0, 0] : Fin 3 → Nat) a + S1x1x512.size a ≤ S7x1x512.size a
  inb_S7_S1_3 : ∀ a, (![3] : Fin 1 → Nat) a + S1.size a ≤ S7.size a
  inb_S7x1x512_S1x1x512_3_0_0 : ∀ a, (![3, 0, 0] : Fin 3 → Nat) a + S1x1x512.size a ≤ S7x1x512.size a
  inb_S7_S1_4 : ∀ a, (![4] : Fin 1 → Nat) a + S1.size a ≤ S7.size a
  inb_S7x1x512_S1x1x512_4_0_0 : ∀ a, (![4, 0, 0] : Fin 3 → Nat) a + S1x1x512.size a ≤ S7x1x512.size a
  inb_S7_S1_5 : ∀ a, (![5] : Fin 1 → Nat) a + S1.size a ≤ S7.size a
  inb_S7x1x512_S1x1x512_5_0_0 : ∀ a, (![5, 0, 0] : Fin 3 → Nat) a + S1x1x512.size a ≤ S7x1x512.size a
  inb_S7_S1_6 : ∀ a, (![6] : Fin 1 → Nat) a + S1.size a ≤ S7.size a
  inb_S7x1x512_S1x1x512_6_0_0 : ∀ a, (![6, 0, 0] : Fin 3 → Nat) a + S1x1x512.size a ≤ S7x1x512.size a
  inb_S7x1x512_S7x1x512_0_0_0 : ∀ a, (![0, 0, 0] : Fin 3 → Nat) a + S7x1x512.size a ≤ S7x1x512.size a
  h_S7x1x512 : 0 < S7x1x512.numel
  reduces_S7x1x512_S1x512 : S7x1x512.Reduces [0] S1x512
  hcc0_scratch2 : 2 + S7.numel ≤ 16
  hcc0_scratch3 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S7 := SemArray.consecutive 2 S7 hcc0_scratch2
abbrev cc0_scratch3 : DmaSems sig S7 := SemArray.consecutive 9 S7 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.BitsCells.lean ====
/-
  The all-to-all maximum over eight devices: names for the ring offsets, the buffers, the fifteen semaphore cells
  of a device, and the values that travel.

  Device c computes the column maxima of its own 1024 rows (a row vector of 512 entries), tells each of the other
  seven devices, by one unit on that device's barrier semaphore, that it has entered the kernel, waits for seven
  such units, and then copies its row vector into slot k of device (c + k + 1) mod 8 for k = 0 … 6. Slot k of a
  device therefore ends holding the row vector of the device k + 1 places before it, and the maximum of the own
  vector with the seven received ones is the column maximum over all 8192 rows, on every device.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the handshake's with seven duty names -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring offsets -/

/-- The device k + 1 places after c on the ring of eight. -/
def fwd (c : Dev nD) (k : Fin 7) : Dev nD := ⟨(c.val + k.val + 1) % 8, Nat.mod_lt _ (by decide)⟩

/-- Going k + 1 places on and then (6 - k) + 1 places on is a full turn. -/
theorem fwd_fwd_rev (c : Dev nD) (k : Fin 7) : fwd (fwd c k) k.rev = c := by revert c k; decide
theorem fwd_rev_fwd (c : Dev nD) (k : Fin 7) : fwd (fwd c k.rev) k = c := by revert c k; decide
theorem fwd_ne (c : Dev nD) (k : Fin 7) : fwd c k ≠ c := by revert c k; decide
theorem fwd_inj_right (c : Dev nD) {k k' : Fin 7} (h : fwd c k = fwd c k') : k = k' := by revert c k k'; decide

/-- Moving every device k + 1 places on is a permutation of the mesh. -/
def turn (k : Fin 7) : Dev nD ≃ Dev nD := ⟨fun c => fwd c k, fun c => fwd c k.rev, fun c => fwd_fwd_rev c k, fun c => fwd_rev_fwd c k⟩

/-- The printed device chains, decided over the mesh: the k-th signal and the k-th copy both address the device
    k + 1 places on. -/
theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
theorem dev8_eq (c : Dev nD) : (⟨k0_dev8 c, k0_dev8_lt c⟩ : Dev nD) = fwd c 0 := by revert c; decide +kernel
theorem dev9_eq (c : Dev nD) : (⟨k0_dev9 c, k0_dev9_lt c⟩ : Dev nD) = fwd c 1 := by revert c; decide +kernel
theorem dev10_eq (c : Dev nD) : (⟨k0_dev10 c, k0_dev10_lt c⟩ : Dev nD) = fwd c 2 := by revert c; decide +kernel
theorem dev11_eq (c : Dev nD) : (⟨k0_dev11 c, k0_dev11_lt c⟩ : Dev nD) = fwd c 3 := by revert c; decide +kernel
theorem dev12_eq (c : Dev nD) : (⟨k0_dev12 c, k0_dev12_lt c⟩ : Dev nD) = fwd c 4 := by revert c; decide +kernel
theorem dev13_eq (c : Dev nD) : (⟨k0_dev13 c, k0_dev13_lt c⟩ : Dev nD) = fwd c 5 := by revert c; decide +kernel
theorem dev14_eq (c : Dev nD) : (⟨k0_dev14 c, k0_dev14_lt c⟩ : Dev nD) = fwd c 6 := by revert c; decide +kernel

/-! ## The buffers -/

abbrev xM : Memref sig .tc .vmem S1024x512 .f32 := Memref.whole cc0_stg0_0
abbrev oM : Memref sig .tc .vmem S1x512 .f32 := Memref.whole cc0_stg1_0
/-- The device's own row of column maxima: the source of its seven copies. -/
abbrev ownM : Memref sig .tc .vmem S1x512 .f32 := Memref.whole cc0_scratch0
/-- The seven landing rows. -/
abbrev rcvM : Memref sig .tc .vmem S7x1x512 .f32 := Memref.whole cc0_scratch1

theorem slot_inb : ∀ (k : Fin 7) (a : Fin 3), (![k.val, 0, 0] : Fin 3 → Nat) a + S1x1x512.size a ≤ S7x1x512.size a := by decide

/-- Landing row k, as the kernel names it: row k of the landing buffer, its leading unit axis dropped. -/
abbrev slotM (k : Fin 7) : Memref sig .tc .vmem S1x512 .f32 :=
  (rcvM.slice (Rect.unit (s := S7x1x512) ![k.val, 0, 0] S1x1x512.size (slot_inb k)) (fun _ => rfl)).squeeze S1x512 squeezes_S1x1x512_S1x512

/-- The printed spelling of row 3 is this one (the in-bounds evidence is a proof, the offset a numeral). -/
example : slotM 3 = (rcvM.slice (Rect.unit (s := S7x1x512) ![3, 0, 0] S1x1x512.size inb_S7x1x512_S1x1x512_3_0_0) (fun _ => rfl)).squeeze S1x512 squeezes_S1x1x512_S1x512 := rfl

/-! ## The semaphores and their cells -/

/-- The runtime's barrier semaphore of collective id 0 (not scoped to the launch). -/
abbrev barS : Sem sig := (SemArray.scalar (sig.barrier 0 rfl) : Sems sig S_).sem
/-- Send semaphore k is DMA semaphore 2 + k, receive semaphore k is 9 + k. -/
abbrev sendS (k : Fin 7) : DmaSem sig := ⟨2 + k.val, by have := k.isLt; show 2 + k.val < 16; omega⟩
abbrev recvS (k : Fin 7) : DmaSem sig := ⟨9 + k.val, by have := k.isLt; show 9 + k.val < 16; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The kernel's own (scoped) semaphores as the launch indexes them: the seven send, then the seven receive. -/
abbrev osem : Fin 14 → SemLoc sig := fun i => .dma ⟨2 + i.val, by have := i.isLt; show 2 + i.val < 16; omega⟩
/-- All fifteen of a device: the barrier, then the fourteen own. -/
abbrev csem : Fin 15 → SemLoc sig := fun j => if j.val = 0 then .reg barS else .dma ⟨1 + j.val, by have := j.isLt; show 1 + j.val < 16; omega⟩
abbrev kcell (ck : Dev nD × Fin 15) : GSem nD τ sig := ((ck.1 : Thread nD τ), csem ck.2)

/-- Index of send cell k and of receive cell k among the fifteen. -/
abbrev iS (k : Fin 7) : Fin 15 := ⟨1 + k.val, by have := k.isLt; omega⟩
abbrev iR (k : Fin 7) : Fin 15 := ⟨8 + k.val, by have := k.isLt; omega⟩
theorem kcell_bar (c : Dev nD) : kcell (c, 0) = barCell c := rfl
theorem csem_iS : ∀ k : Fin 7, csem (iS k) = .dma (sendS k) := by decide
theorem csem_iR : ∀ k : Fin 7, csem (iR k) = .dma (recvS k) := by decide
theorem kcell_send (c : Dev nD) (k : Fin 7) : kcell (c, iS k) = sendCell c k := by
  show ((c : Thread nD τ), csem (iS k)) = _; rw [csem_iS]
theorem kcell_recv (c : Dev nD) (k : Fin 7) : kcell (c, iR k) = recvCell c k := by
  show ((c : Thread nD τ), csem (iR k)) = _; rw [csem_iR]
theorem csem_injective : Function.Injective csem := by decide

/-- The credit of one row's transfer. -/
abbrev N : ℕ := (ownM : Memref sig .tc .vmem S1x512 .f32).view.dmaCredit
theorem N_pos : 0 < N := View.dmaCredit_pos _ (by decide)

end Cert.Kernel.Prf

end
-- ==== Proof.BitsSched.lean ====
/-
  The handshake's schedule: per semaphore cell, who pays which duty, how much, and what each landing hands the
  cell's owner.

  Barrier cell of device t, duty k (one unit): paid by the device whose k-th signal addresses t; it hands t that
  device's landing row 6 - k — the row t's (6 - k)-th copy writes — and the knowledge that its receive cell is at
  round 0. Send cell k of device c (one row's credit): paid by c's own k-th copy; it hands back the share of the
  own row the copy read. Receive cell k of device c (one row's credit): paid by the copy of the device k + 1 places
  before c; it hands c its landing row k holding that device's row of maxima.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import Idealize.ShloMosaic.Lib.Transfers
import Idealize.ShloMosaic.Lib.ValueIdx
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold -/

/-- Device c's block of x as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column maxima over its own 1024 rows. -/
def ownV (c : Dev nD) : (cc0_scratch0 : Ref sig .tc).ty.Contents (Elt F) := k0_pay2 (k0_pay1 (xstg m ρ c))

/-- The landing buffer of device c once all seven rows have landed: row k is the row of maxima of the device
    k + 1 places before c. -/
def recvV (c : Dev nD) : (cc0_scratch1 : Ref sig .tc).ty.Contents (Elt F) :=
  fun i => ownV m ρ (fwd c (i 0 : Fin 7).rev) (ValueIdx.ix2 (0 : Fin 1) (i 2 : Fin 512))

/-- The kernel's result on device c: the larger of its own row and the seven landed ones, column by column. -/
def outAt (c : Dev nD) : (cc0_stg1_0 : Ref sig .tc).ty.Contents (Elt F) := k0_pay3 (ownV m ρ c) (recvV m ρ c)

/-! ## Points-to assertions -/

/-- The share of the own row lent to copy k, and the share kept for the body's own load. -/
abbrev qTok (k : Fin 7) : PosShare TreeShare := Transfers.shareTok fullShare 7 k
abbrev qKeep : PosShare TreeShare := Transfers.shareDrop fullShare 7

def slotPts (c : Dev nD) (k : Fin 7) (f : Buf (Elt F) ((slotM k).view.loc (c : Thread nD τ))) : sProp 𝕄 :=
  (slotM k).view.loc (c : Thread nD τ) ↦[(slotM k).view.set]{fullShare} f
def ownPts (c : Dev nD) (q : PosShare TreeShare) (f : Buf (Elt F) ((ownM : Memref sig .tc .vmem S1x512 .f32).view.loc (c : Thread nD τ))) : sProp 𝕄 :=
  (ownM : Memref sig .tc .vmem S1x512 .f32).view.loc (c : Thread nD τ) ↦[(ownM : Memref sig .tc .vmem S1x512 .f32).view.set]{q} f

omit [FloatOps F] in
instance slotPts_storable (c : Dev nD) (k : Fin 7) (f) : BI.Storable (upEmb : UEmb _ 𝕄) (slotPts (F := F) c k f) := by unfold slotPts; infer_instance
omit [FloatOps F] in
instance ownPts_storable (c : Dev nD) (q) (f) : BI.Storable (upEmb : UEmb _ 𝕄) (ownPts (F := F) c q f) := by unfold ownPts; infer_instance

/-! ## The schedule -/

/-- Which of the fourteen own semaphores a DMA cell is: (false, k) for send k, (true, k) for receive k. -/
def xferOf : SemLoc sig → Option (Bool × Fin 7)
  | .dma q => if h : 2 ≤ q.val ∧ q.val < 9 then some (false, ⟨q.val - 2, by omega⟩)
              else if h : 9 ≤ q.val ∧ q.val < 16 then some (true, ⟨q.val - 9, by omega⟩) else none
  | .reg _ => none

theorem xferOf_send : ∀ k : Fin 7, xferOf (.dma (sendS k)) = some (false, k) := by decide
theorem xferOf_recv : ∀ k : Fin 7, xferOf (.dma (recvS k)) = some (true, k) := by decide
theorem xferOf_bar : xferOf (.reg barS) = none := rfl

def barPay (t : Dev nD) (k : Fin 7) : sProp 𝕄 :=
  iprop((∃ f, slotPts (fwd t k.rev) k.rev f) ∗ reached ER (recvCell (fwd t k.rev) k.rev) 0)
def sendPay (c : Dev nD) (k : Fin 7) : sProp 𝕄 := ownPts c (qTok k) (ownV m ρ c)
def recvPay (c : Dev nD) (k : Fin 7) : sProp 𝕄 := slotPts c k (recvV m ρ c)

/-- One round, round 0: a barrier cell has seven unit duties, a send or receive cell the one duty 0 of a row's credit. -/
def Rd : Rounds.Schedule (GSem nD τ sig) (Fin 7) 𝕄 where
  duties g r := if r = 0 ∧ g.1.2 = .tc then (if g.2 = .reg barS then Finset.univ else if (xferOf g.2).isSome then {0} else ∅) else ∅
  unitless _ := False
  amount g _ _ := if g.2 = .reg barS then 1 else N
  payload g _ d :=
    if g.2 = .reg barS then barPay g.1.1 d
    else match xferOf g.2 with
      | some (false, k) => sendPay m ρ g.1.1 k
      | some (true, k) => recvPay m ρ g.1.1 k
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m ρ).payload g r d) := by
  show BI.Storable upEmb (if g.2 = .reg barS then barPay g.1.1 d
    else match xferOf g.2 with
      | some (false, k) => sendPay m ρ g.1.1 k
      | some (true, k) => recvPay m ρ g.1.1 k
      | none => iprop(emp))
  unfold barPay sendPay recvPay
  (repeat' split) <;> infer_instance

section Tables
variable (c : Dev nD) (k : Fin 7)

theorem send_ne_bar : (SemLoc.dma (sendS k) : SemLoc sig) ≠ .reg barS := fun h => by cases h
theorem recv_ne_bar : (SemLoc.dma (recvS k) : SemLoc sig) ≠ .reg barS := fun h => by cases h

theorem duties_bar : (Rd (F := F) m ρ).duties (barCell c) 0 = Finset.univ := by
  dsimp only [Rd]; rw [if_pos ⟨rfl, rfl⟩, if_pos rfl]
theorem duties_send : (Rd (F := F) m ρ).duties (sendCell c k) 0 = {0} := by
  dsimp only [Rd]; rw [if_pos ⟨rfl, rfl⟩, if_neg (send_ne_bar k), xferOf_send]; rfl
theorem duties_recv : (Rd (F := F) m ρ).duties (recvCell c k) 0 = {0} := by
  dsimp only [Rd]; rw [if_pos ⟨rfl, rfl⟩, if_neg (recv_ne_bar k), xferOf_recv]; rfl
theorem duties_later (g : GSem nD τ sig) : ∀ r, 1 ≤ r → (Rd (F := F) m ρ).duties g r = ∅ :=
  fun r hr => by dsimp only [Rd]; rw [if_neg fun h => by omega]

theorem amount_bar (d : Fin 7) : (Rd (F := F) m ρ).amount (barCell c) 0 d = 1 := by dsimp only [Rd]; exact if_pos rfl
theorem amount_send (d : Fin 7) : (Rd (F := F) m ρ).amount (sendCell c k) 0 d = N := by dsimp only [Rd]; exact if_neg (send_ne_bar k)
theorem amount_recv (d : Fin 7) : (Rd (F := F) m ρ).amount (recvCell c k) 0 d = N := by dsimp only [Rd]; exact if_neg (recv_ne_bar k)

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Fin 7) : (Rd (F := F) m ρ).payload (barCell c) 0 d = barPay c d := by dsimp only [Rd]; rw [if_pos rfl]
theorem payload_send (d : Fin 7) : (Rd (F := F) m ρ).payload (sendCell c k) 0 d = sendPay m ρ c k := by
  dsimp only [Rd]; rw [if_neg (send_ne_bar k)]; simp only [xferOf_send]
theorem payload_recv (d : Fin 7) : (Rd (F := F) m ρ).payload (recvCell c k) 0 d = recvPay m ρ c k := by
  dsimp only [Rd]; rw [if_neg (recv_ne_bar k)]; simp only [xferOf_recv]

/-- The whole of the barrier cell's round: the seven peers' landing rows. -/
theorem rest_bar : bigSep ((Rd (F := F) m ρ).duties (barCell c) 0 \ ∅) (fun d => (Rd (F := F) m ρ).payload (barCell c) 0 d)
    = bigSep Finset.univ (fun d : Fin 7 => barPay (F := F) c d) := by
  rw [Finset.sdiff_empty, duties_bar]; exact bigSep_congr fun d _ => payload_bar m ρ c d
theorem rest_send : bigSep ((Rd (F := F) m ρ).duties (sendCell c k) 0 \ ∅) (fun d => (Rd (F := F) m ρ).payload (sendCell c k) 0 d) = sendPay m ρ c k := by
  rw [Finset.sdiff_empty, duties_send, bigSep_singleton, payload_send]
theorem rest_recv : bigSep ((Rd (F := F) m ρ).duties (recvCell c k) 0 \ ∅) (fun d => (Rd (F := F) m ρ).payload (recvCell c k) 0 d) = recvPay m ρ c k := by
  rw [Finset.sdiff_empty, duties_recv, bigSep_singleton, payload_recv]

end Tables

end Cert.Kernel.Prf

end
-- ==== Proof.BitsState.lean ====
/-
  What a device owes at launch and after each of its signals and copies; the waiting levels; the ghost state a
  device's thread starts from; the pipeline's proof data; and the body's pre- and postcondition.

  A device owes each of the seven others one unit on their barrier cell and one row's credit on the receive cell
  its copy lands on. Barrier cells sit at level 1, receive cells at level 2, every other cell at 0: the only wait
  made while something is still owed is the barrier wait, and all that is owed then are receive credits, above it.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The receive credits of the copies not yet enqueued (copies e, …, 6). -/
def owedRcv (c : Dev nD) (e : ℕ) : CellTallies nD τ sig Unit :=
  ∑ k ∈ Finset.univ.filter (fun k : Fin 7 => e ≤ k.val), tallyAt (recvCell (fwd c k) k) () N
/-- The barrier units of the signals not yet sent (signals a, …, 6). -/
def owedSig (c : Dev nD) (a : ℕ) : CellTallies nD τ sig Unit :=
  ∑ k ∈ Finset.univ.filter (fun k : Fin 7 => a ≤ k.val), tallyAt (barCell (fwd c k)) () 1
def O₀ (c : Dev nD) : CellTallies nD τ sig Unit := owedRcv c 0 + owedSig c 0

theorem filter_peel : ∀ a : Fin 7, Finset.univ.filter (fun k : Fin 7 => a.val ≤ k.val) = insert a (Finset.univ.filter (fun k : Fin 7 => a.val + 1 ≤ k.val)) := by decide
theorem not_mem_filter_succ : ∀ a : Fin 7, a ∉ Finset.univ.filter (fun k : Fin 7 => a.val + 1 ≤ k.val) := by decide
theorem filter_seven : Finset.univ.filter (fun k : Fin 7 => 7 ≤ k.val) = ∅ := by decide
theorem filter_zero : Finset.univ.filter (fun k : Fin 7 => 0 ≤ k.val) = Finset.univ := by decide

theorem owedSig_peel (c : Dev nD) (a : Fin 7) : owedSig c a.val = owedSig c (a.val + 1) + tallyAt (barCell (fwd c a)) () 1 := by
  unfold owedSig; rw [filter_peel a, Finset.sum_insert (not_mem_filter_succ a), add_comm]
theorem owedRcv_peel (c : Dev nD) (e : Fin 7) : owedRcv c e.val = owedRcv c (e.val + 1) + tallyAt (recvCell (fwd c e) e) () N := by
  unfold owedRcv; rw [filter_peel e, Finset.sum_insert (not_mem_filter_succ e), add_comm]
theorem owedSig_seven (c : Dev nD) : owedSig c 7 = 0 := by unfold owedSig; rw [filter_seven, Finset.sum_empty]
theorem owedRcv_seven (c : Dev nD) : owedRcv c 7 = 0 := by unfold owedRcv; rw [filter_seven, Finset.sum_empty]
theorem O₀_eq (c : Dev nD) : O₀ c = (∑ k : Fin 7, tallyAt (recvCell (fwd c k) k) () N) + ∑ k : Fin 7, tallyAt (barCell (fwd c k)) () 1 := by
  unfold O₀ owedRcv owedSig; rw [filter_zero]

/-! ## The levels -/

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match xferOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by
  unfold lv; rw [if_neg (recv_ne_bar k)]; simp only [xferOf_recv]
theorem lv_send (c : Dev nD) (k : Fin 7) : lv (sendCell c k) () = 0 := by
  unfold lv; rw [if_neg (send_ne_bar k)]; simp only [xferOf_send]

/-! ## The ghost state -/

/-- Every cell's invariant under the names the launch allocated them at, and that every cell is at round 0:
    persistent, handed whole to every device. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem inv_at (K : Dev nD × Fin 15 → ℕ) (ck : Dev nD × Fin 15) : records m ρ K ⊢ cellInv ER (Rd m ρ) (K ck) (kcell ck) := by
  unfold records; iintro ⟨HI, -⟩
  iapply (show (bigSep Finset.univ fun ck : Dev nD × Fin 15 => (cellInv ER (Rd m ρ) (K ck) (kcell ck) : sProp 𝕄)) ⊢ cellInv ER (Rd m ρ) (K ck) (kcell ck)
    from bigSep_elim (Finset.mem_univ ck))
  iexact HI
theorem reached_at (K : Dev nD × Fin 15 → ℕ) (ck : Dev nD × Fin 15) : records m ρ K ⊢ reached ER (kcell ck) 0 := by
  unfold records; iintro ⟨-, HR⟩
  iapply (show (bigSep Finset.univ fun ck : Dev nD × Fin 15 => (reached ER (kcell ck) 0 : sProp 𝕄)) ⊢ reached ER (kcell ck) 0
    from bigSep_elim (Finset.mem_univ ck))
  iexact HR

theorem inv_bar (K : Dev nD × Fin 15 → ℕ) (c : Dev nD) : records m ρ K ⊢ cellInv ER (Rd m ρ) (K (c, 0)) (barCell c) := inv_at m ρ K (c, 0)
theorem inv_send (K : Dev nD × Fin 15 → ℕ) (c : Dev nD) (k : Fin 7) : records m ρ K ⊢ cellInv ER (Rd m ρ) (K (c, iS k)) (sendCell c k) := by
  have h := inv_at m ρ K (c, iS k); rw [kcell_send] at h; exact h
theorem inv_recv (K : Dev nD × Fin 15 → ℕ) (c : Dev nD) (k : Fin 7) : records m ρ K ⊢ cellInv ER (Rd m ρ) (K (c, iR k)) (recvCell c k) := by
  have h := inv_at m ρ K (c, iR k); rw [kcell_recv] at h; exact h
theorem reached_bar (K : Dev nD × Fin 15 → ℕ) (c : Dev nD) : records m ρ K ⊢ reached ER (barCell c) 0 := reached_at m ρ K (c, 0)
theorem reached_send (K : Dev nD × Fin 15 → ℕ) (c : Dev nD) (k : Fin 7) : records m ρ K ⊢ reached ER (sendCell c k) 0 := by
  have h := reached_at m ρ K (c, iS k); rw [kcell_send] at h; exact h
theorem reached_recv (K : Dev nD × Fin 15 → ℕ) (c : Dev nD) (k : Fin 7) : records m ρ K ⊢ reached ER (recvCell c k) 0 := by
  have h := reached_at m ρ K (c, iR k); rw [kcell_recv] at h; exact h

/-- The tokens of the duties device c pays: duty k of the barrier cell its k-th signal addresses, the one duty of
    the receive cell its k-th copy lands on, the one duty of its own send cell k. -/
def payToks (c : Dev nD) : sProp 𝕄 :=
  iprop((bigSep Finset.univ fun k : Fin 7 => dutyTok ER (barCell (fwd c k)) 0 k)
    ∗ (bigSep Finset.univ fun k : Fin 7 => dutyTok ER (recvCell (fwd c k) k) 0 (0 : Fin 7))
    ∗ (bigSep Finset.univ fun k : Fin 7 => dutyTok ER (sendCell c k) 0 (0 : Fin 7)))

/-- What stays with device c alone: its position at round 0 of each of its fifteen cells, and the tokens it pays with. -/
def linear (c : Dev nD) : sProp 𝕄 :=
  iprop(atPos ER (barCell c) 0 ∅ 0
    ∗ (bigSep Finset.univ fun k : Fin 7 => atPos ER (sendCell c k) 0 ∅ 0)
    ∗ (bigSep Finset.univ fun k : Fin 7 => atPos ER (recvCell c k) 0 ∅ 0)
    ∗ payToks c)

def ghost (K : Dev nD × Fin 15 → ℕ) (c : Dev nD) : sProp 𝕄 := iprop(records m ρ K ∗ linear c)

/-- What device c's thread starts from: the ghost state at some names; the credit of its barrier's seven units and of
    its seven receive cells; the level facts. -/
def start (c : Dev nD) : sProp 𝕄 :=
  iprop((∃ K, ghost m ρ K c) ∗ cred (tallyAt (barCell c) () 7)
    ∗ (bigSep Finset.univ fun k : Fin 7 => cred (tallyAt (recvCell c k) () N)) ∗ levAts L lv)

/-- Before the body: that, and the two scratch buffers at some contents. -/
def Φ₀ (c : Dev nD) : sProp 𝕄 :=
  iprop(start m ρ c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the two scratch buffers again, and the fourteen own semaphores at zero, their cells closed. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun k : Fin 7 => semVal (sendCell c k) 0)
    ∗ (bigSep Finset.univ fun k : Fin 7 => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem fetch_0 (t : Fin cfg0.N) : (cfg0.win (0 : Fin 2)).fetch t = true := by rw [fin_N t]; rfl

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 15 → ℕ) (c : Dev nD) : sProp 𝕄 :=
  iprop((ghost m ρ K c ∗ cred (tallyAt (barCell c) () 7)
      ∗ (bigSep Finset.univ fun k : Fin 7 => cred (tallyAt (recvCell c k) () N)) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.Prf

end
-- ==== Proof.BitsLevels.lean ====
/-
  The evidence a wait presents: the cell waited on sits strictly below every cell the device still owes.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import proofs.«900907_g7700000000000908_dist_max_ax0_shard0_i_m1024_n512_v7x_i8_f32_1_alg».proof.Proof.BitsState
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A staging cell (DMA semaphore 0 or 1) is neither the barrier cell nor one of the fourteen transfer cells: level 0. -/
theorem lv_stage (c : Dev nD) (q : DmaSem sig) (hq : q.val < 2) : lv ((c : Thread nD τ), .dma q) () = 0 := by
  have hx : xferOf (.dma q : SemLoc sig) = none := by
    unfold xferOf
    dsimp only
    rw [dif_neg (fun h => by omega), dif_neg (fun h => by omega)]
  unfold lv
  dsimp only
  rw [if_neg (fun h => by cases h), hx]

/-- Whatever is owed of the seven receive credits is owed to a receive cell. -/
theorem owedRcv_pos {c : Dev nD} {g : GSem nD τ sig} {u : Unit} (h : 0 < owedRcv c 0 g u) :
    ∃ k : Fin 7, g = recvCell (fwd c k) k := by
  unfold owedRcv at h
  rw [filter_zero] at h
  obtain ⟨k, -, hk⟩ := Pipeline.sum_pos_exists h
  rw [tallyAt_apply] at hk
  by_cases hh : g = recvCell (fwd c k) k ∧ u = ()
  · exact ⟨k, hh.1⟩
  · rw [if_neg hh] at hk; exact absurd hk (Nat.lt_irrefl 0)

/-- Whatever a device owes at launch is owed to a receive cell or to a barrier cell of another device's TensorCore. -/
theorem O₀_pos {c : Dev nD} {g : GSem nD τ sig} {u : Unit} (h : 0 < O₀ c g u) :
    (∃ k : Fin 7, g = recvCell (fwd c k) k) ∨ (∃ k : Fin 7, g = barCell (fwd c k)) := by
  rw [O₀_eq] at h
  rcases Pipeline.add_pos_cases h with h | h
  · obtain ⟨k, -, hk⟩ := Pipeline.sum_pos_exists h
    rw [tallyAt_apply] at hk
    by_cases hh : g = recvCell (fwd c k) k ∧ u = ()
    · exact Or.inl ⟨k, hh.1⟩
    · rw [if_neg hh] at hk; exact absurd hk (Nat.lt_irrefl 0)
  · obtain ⟨k, -, hk⟩ := Pipeline.sum_pos_exists h
    rw [tallyAt_apply] at hk
    by_cases hh : g = barCell (fwd c k) ∧ u = ()
    · exact Or.inr ⟨k, hh.1⟩
    · rw [if_neg hh] at hk; exact absurd hk (Nat.lt_irrefl 0)

omit [FloatOps F] in
/-- A wait of the pipeline on one of its two staging semaphores (DMA semaphores 0 and 1), made while the device owes
    all of its launch dues or nothing: staging cells are at level 0, below barrier and receive cells. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨k, rfl⟩ | ⟨k, rfl⟩ <;> (rw [L_tc]; exact Finset.mem_singleton_self _))
      (fun p hp => by rw [Finset.mem_singleton.mp hp]; exact le_of_eq (lv_stage c q hq))
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier wait a device owes the seven receive credits only: receive cells, above its barrier cell. -/
theorem mayWait_bar (c : Dev nD) :
    (levAts L lv : sProp 𝕄) ⊢ MayWait (c : Thread nD τ) (.reg barS) () (owedRcv c 0) := by
  refine MayOwe.of_cut (L := L) (lev := lv) 1
    (fun p hp => by rw [Finset.mem_singleton.mp hp, L_tc]; exact Finset.mem_singleton_self _)
    (fun g u hg => by obtain ⟨k, rfl⟩ := owedRcv_pos hg; rw [L_tc]; exact Finset.mem_singleton_self _)
    (fun p hp => by rw [Finset.mem_singleton.mp hp]; exact le_of_eq (lv_bar c))
    (fun g u hg => by obtain ⟨k, rfl⟩ := owedRcv_pos hg; rw [lv_recv]; decide)

end Cert.Kernel.Prf

end
-- ==== Proof.BitsGeom.lean ====
/-
  The landing buffer cut into its seven rows and put together again, what a landed row holds, and the own row's
  points-to cut into the share kept and the seven shares lent.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The seven rows of the landing buffer -/

/-- Row k's element set is the unit-stride box at offsets (k, 0, 0) of sizes (1, 1, 512). -/
theorem slot_set (k : Fin 7) :
    (slotM k).view.set = (Rect.unit (s := S7x1x512) ![k.val, 0, 0] S1x1x512.size (slot_inb k)).set := by
  show ((rcvM.view.slice _).reshape _ _).set = _
  rw [View.set_reshape, View.set_slice_whole]

/-- An element of the landing buffer is in row k exactly when its first coordinate is k. -/
theorem mem_slot_set (k : Fin 7) (i : S7x1x512.Idx) : i ∈ (slotM k).view.set ↔ (i 0).val = k.val := by
  rw [slot_set, Rect.mem_set_unit]
  refine ⟨fun h => ?_, fun h a => ?_⟩
  · have h0 := h 0
    change k.val ≤ (i 0).val ∧ (i 0).val < k.val + 1 at h0
    omega
  · match a with
    | ⟨0, _⟩ =>
      change k.val ≤ (i 0).val ∧ (i 0).val < k.val + 1
      omega
    | ⟨1, _⟩ =>
      have h1 : (i 1).val < 1 := (i 1).isLt
      change 0 ≤ (i 1).val ∧ (i 1).val < 0 + 1
      omega
    | ⟨2, _⟩ =>
      have h2 : (i 2).val < 512 := (i 2).isLt
      change 0 ≤ (i 2).val ∧ (i 2).val < 0 + 512
      omega

/-- Different rows share no element. -/
theorem slot_disjoint : ∀ k ∈ (Finset.univ : Finset (Fin 7)), ∀ k' ∈ (Finset.univ : Finset (Fin 7)), k ≠ k' →
    Disjoint (slotM k).view.set (slotM k').view.set := by
  intro k _ k' _ hne
  rw [Finset.disjoint_left]
  intro i hi hi'
  rw [mem_slot_set] at hi hi'
  exact hne (Fin.ext (hi.symm.trans hi'))

/-- The seven rows are the whole buffer. -/
theorem slot_cover : (Finset.univ : Finset S7x1x512.Idx) = Finset.univ.biUnion fun k : Fin 7 => (slotM k).view.set := by
  ext i
  simp only [Finset.mem_univ, Finset.mem_biUnion, true_and, true_iff]
  exact ⟨⟨(i 0).val, (i 0).isLt⟩, (mem_slot_set _ i).mpr rfl⟩

/-- Where row k's view puts its index (a, j): at (k, a, j). -/
theorem slot_emb (k : Fin 7) (x : S1x512.Idx) :
    (slotM k).view.emb x = ValueIdx.ix3 (⟨k.val, k.isLt⟩ : Fin 7) (x 0) (x 1) := by
  show (Rect.unit (s := S7x1x512) ![k.val, 0, 0] S1x1x512.size (slot_inb k)).emb
      (Shape.reshapeEquiv squeezes_S1x1x512_S1x512.numel_eq x) = _
  rw [Shape.reshapeEquiv_cons_one]
  funext a
  apply Fin.ext
  rw [Rect.emb_apply]
  match a with
  | ⟨0, _⟩ => show k.val + 1 * 0 = k.val; omega
  | ⟨1, _⟩ => show 0 + 1 * (x 0).val = (x 0).val; omega
  | ⟨2, _⟩ => show 0 + 1 * (x 1).val = (x 1).val; omega

/-- The whole landing buffer at some contents is its seven rows, each at some contents. -/
theorem rcv_split (c : Dev nD) :
    (iprop(∃ f : Buf (Elt F) ((c : Thread nD τ).loc cc0_scratch1), ((c : Thread nD τ).loc cc0_scratch1) ↦{fullShare} f) : sProp 𝕄)
      ⊢ bigSep Finset.univ fun k : Fin 7 => iprop(∃ f, slotPts (F := F) c k f) := by
  refine exists_elim fun f => ?_
  refine (Entails.of_eq ?_).trans (bigSep_mono fun k _ => exists_intro (Φ := fun f => slotPts (F := F) c k f) f)
  unfold slotPts
  exact (congrArg (fun S => (((c : Thread nD τ).loc cc0_scratch1) ↦[S]{fullShare} f : sProp 𝕄)) slot_cover).trans
    (pointsTo_biUnion (ℓ := (c : Thread nD τ).loc cc0_scratch1) Finset.univ (fun k : Fin 7 => (slotM k).view.set) slot_disjoint)

/-- The seven rows, each holding its part of the landed contents, are the whole landing buffer at them. -/
theorem rcv_join (c : Dev nD) :
    (bigSep Finset.univ fun k : Fin 7 => slotPts c k (recvV m ρ c) : sProp 𝕄)
      ⊢ (((c : Thread nD τ).loc cc0_scratch1) ↦{fullShare} recvV m ρ c) := by
  refine Entails.of_eq ?_
  unfold slotPts
  exact (pointsTo_biUnion (ℓ := (c : Thread nD τ).loc cc0_scratch1) Finset.univ (fun k : Fin 7 => (slotM k).view.set) slot_disjoint).symm.trans
    (congrArg (fun S => (((c : Thread nD τ).loc cc0_scratch1) ↦[S]{fullShare} recvV m ρ c : sProp 𝕄)) slot_cover).symm

/-- Row k of device t after the copy of the device s = fwd t (6 - k) has landed on it, whatever it held before: the
    row's elements hold s's row of maxima, which is what the landed contents say there. -/
theorem landed_slot (t s : Dev nD) (k : Fin 7) (hs : s = fwd t k.rev) (fd : Buf (Elt F) ((slotM k).view.loc (t : Thread nD τ))) :
    ((slotM k).view.loc (t : Thread nD τ) ↦[(slotM k).view.set]{fullShare}
        ((slotM k).view.write (Elt F) fd ((ownM : Memref sig .tc .vmem S1x512 .f32).view.read (Elt F) (ownV m ρ s)) Finset.univ) : sProp 𝕄)
      ⊢ recvPay m ρ t k := by
  unfold recvPay slotPts
  refine Entails.of_eq (pointsTo_congr fun i hi => ?_)
  obtain ⟨x, rfl⟩ := View.exists_emb_of_mem_set _ hi
  rw [View.write_emb_of_mem _ _ (Finset.mem_univ x)]
  have hx : x = ValueIdx.ix2 (0 : Fin 1) (x 1) := by
    funext a
    match a with
    | ⟨0, _⟩ =>
      have h0 : (x 0).val < 1 := (x 0).isLt
      exact Fin.ext (show (x 0).val = 0 by omega)
    | ⟨1, _⟩ => rfl
  subst hs
  unfold recvV
  generalize ownV m ρ = G
  rw [slot_emb, View.read_apply, cast_cast, cast_eq]
  show G (fwd t k.rev) x = G (fwd t k.rev) (ValueIdx.ix2 (0 : Fin 1) (x 1))
  exact congrArg (G (fwd t k.rev)) hx

/-- The own row, whole: the share kept for the body's load and the seven shares lent to the copies. -/
theorem own_split (c : Dev nD) (f : Buf (Elt F) ((c : Thread nD τ).loc cc0_scratch0)) :
    ((((c : Thread nD τ).loc cc0_scratch0) ↦{fullShare} f) : sProp 𝕄)
      ⊣⊢ iprop(ownPts c qKeep f ∗ bigSep Finset.univ fun k : Fin 7 => ownPts c (qTok k) f) := by
  unfold ownPts
  rw [View.set_whole]
  exact Transfers.pointsTo_toks fullShare 7

end Cert.Kernel.Prf

end
-- ==== Proof.BitsSteps.lean ====
/-
  Single steps of a device's thread and the bookkeeping between them: the k-th copy, what the barrier wait hands
  over read as the seven peers' landing rows, the own row as stored, its split into the share kept and the seven
  lent, and the receive credits still owed written out one by one.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import proofs.«900907_g7700000000000908_dist_max_ax0_shard0_i_m1024_n512_v7x_i8_f32_1_alg».proof.Proof.BitsState
import proofs.«900907_g7700000000000908_dist_max_ax0_shard0_i_m1024_n512_v7x_i8_f32_1_alg».proof.Proof.BitsLevels
import proofs.«900907_g7700000000000908_dist_max_ax0_shard0_i_m1024_n512_v7x_i8_f32_1_alg».proof.Proof.BitsGeom
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Reindexing a family over the seven offsets by k ↦ 6 - k. -/
theorem bigSep_rev (Φ : Fin 7 → sProp 𝕄) : bigSep Finset.univ (fun k : Fin 7 => Φ k.rev) = bigSep Finset.univ Φ :=
  (bigSep_univ_equiv Fin.revPerm Φ).symm

/-- What the k-th signal hands over, seen from the signaller: its own landing row 6 - k, and that its receive cell
    6 - k is at round 0. -/
theorem payload_bar_out (c : Dev nD) (k : Fin 7) :
    (Rd (F := F) m ρ).payload (barCell (fwd c k)) 0 k = iprop((∃ f, slotPts c k.rev f) ∗ reached ER (recvCell c k.rev) 0) := by
  rw [payload_bar]; unfold barPay; rw [fwd_fwd_rev]

/-- The whole of the barrier cell's round, read by the row each payload carries: for every j the landing row j of the
    device j + 1 places on, at some contents. -/
theorem bar_rows (c : Dev nD) :
    (bigSep Finset.univ (fun d : Fin 7 => (Rd (F := F) m ρ).payload (barCell c) 0 d) : sProp 𝕄)
      ⊢ bigSep Finset.univ fun j : Fin 7 => iprop(∃ f, slotPts (F := F) (fwd c j) j f) := by
  rw [show (fun d : Fin 7 => (Rd (F := F) m ρ).payload (barCell c) 0 d) = fun d : Fin 7 => barPay (F := F) c d from
    funext fun d => payload_bar m ρ c d]
  rw [← bigSep_rev (fun j : Fin 7 => iprop(∃ f, slotPts (F := F) (fwd c j) j f))]
  exact bigSep_mono fun d _ => by
    unfold barPay
    exact sep_elim_left (P := iprop(∃ f, slotPts (F := F) (fwd c d.rev) d.rev f)) (Q := reached ER (recvCell (fwd c d.rev) d.rev) 0)

/-! ## The buffers through their memrefs' views -/

omit [FloatOps F] in
theorem pts_x (c : Dev nD) (f : Buf (Elt F) ((c : Thread nD τ).loc cc0_stg0_0)) :
    ((((c : Thread nD τ).loc cc0_stg0_0) ↦{fullShare} f) : sProp 𝕄)
      = ((xM : Memref sig .tc .vmem S1024x512 .f32).view.loc (c : Thread nD τ) ↦[(xM : Memref sig .tc .vmem S1024x512 .f32).view.set]{fullShare} f) := by
  rw [View.set_whole]
omit [FloatOps F] in
theorem pts_o (c : Dev nD) (f : Buf (Elt F) ((c : Thread nD τ).loc cc0_stg1_0)) :
    ((((c : Thread nD τ).loc cc0_stg1_0) ↦{fullShare} f) : sProp 𝕄)
      = ((oM : Memref sig .tc .vmem S1x512 .f32).view.loc (c : Thread nD τ) ↦[(oM : Memref sig .tc .vmem S1x512 .f32).view.set]{fullShare} f) := by
  rw [View.set_whole]
omit [FloatOps F] in
theorem pts_own (c : Dev nD) (f : Buf (Elt F) ((c : Thread nD τ).loc cc0_scratch0)) :
    ((((c : Thread nD τ).loc cc0_scratch0) ↦{fullShare} f) : sProp 𝕄) = ownPts c fullShare f := by
  unfold ownPts; rw [View.set_whole]
omit [FloatOps F] in
theorem pts_rcv (c : Dev nD) (f : Buf (Elt F) ((c : Thread nD τ).loc cc0_scratch1)) :
    ((((c : Thread nD τ).loc cc0_scratch1) ↦{fullShare} f) : sProp 𝕄)
      = ((rcvM : Memref sig .tc .vmem S7x1x512 .f32).view.loc (c : Thread nD τ) ↦[(rcvM : Memref sig .tc .vmem S7x1x512 .f32).view.set]{fullShare} f) := by
  rw [View.set_whole]

omit [FloatOps F] in
/-- The own row, whole, is the share kept and the seven shares lent. -/
theorem own_shares (c : Dev nD) (f : Buf (Elt F) ((ownM : Memref sig .tc .vmem S1x512 .f32).view.loc (c : Thread nD τ))) :
    (ownPts c fullShare f : sProp 𝕄) ⊣⊢ iprop(ownPts c qKeep f ∗ bigSep Finset.univ fun k : Fin 7 => ownPts c (qTok k) f) := by
  unfold ownPts
  exact Transfers.pointsTo_toks fullShare 7

omit [FloatOps F] in
/-- The same with the whole row spelt through its memref's view, as a run of the body leaves it. -/
theorem own_shares' (c : Dev nD) (f : Buf (Elt F) ((ownM : Memref sig .tc .vmem S1x512 .f32).view.loc (c : Thread nD τ))) :
    (((ownM : Memref sig .tc .vmem S1x512 .f32).view.loc (c : Thread nD τ) ↦[(ownM : Memref sig .tc .vmem S1x512 .f32).view.set]{fullShare} f) : sProp 𝕄)
      ⊣⊢ iprop(ownPts c qKeep f ∗ bigSep Finset.univ fun k : Fin 7 => ownPts c (qTok k) f) := own_shares c f

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

set_option maxRecDepth 65536 in
/-- The own row after the store of the column maxima of the staged block, whatever it held before. -/
theorem own_stored (c : Dev nD) (fo : Buf (Elt F) ((c : Thread nD τ).loc cc0_scratch0)) :
    (ownM : Memref sig .tc .vmem S1x512 .f32).view.writes (Elt F) fo
      [⟨Rect.unit (s := S1x512) ![0, 0] S1x512.size inb_S1x512_S1x512_0_0,
        k0_pay2 (k0_pay1 (View.readAt (Elt F) (xM : Memref sig .tc .vmem S1024x512 .f32).view (Rect.unit (s := S1024x512) ![0, 0] S1024x512.size inb_S1024x512_S1024x512_0_0).toLoadRect (xstg m ρ c)))⟩]
      = ownV m ρ c := by
  have h1 : View.readAt (Elt F) (xM : Memref sig .tc .vmem S1024x512 .f32).view (Rect.unit (s := S1024x512) ![0, 0] S1024x512.size inb_S1024x512_S1024x512_0_0).toLoadRect (xstg m ρ c) = xstg m ρ c :=
    Memref.readAt_unit_zero (Elt F) cc0_stg0_0 hz2 _ (xstg m ρ c)
  rw [h1]
  unfold ownV
  rw [View.writes_singleton]
  exact Memref.write_access_unit_zero_univ (Elt F) cc0_scratch0 hz2 _ fo _

set_option maxRecDepth 65536 in
/-- The output block after the store of the larger of the own row and the seven landed ones, whatever it held before. -/
theorem out_stored (c : Dev nD) (g1 : Buf (Elt F) ((c : Thread nD τ).loc cc0_stg1_0)) :
    (oM : Memref sig .tc .vmem S1x512 .f32).view.writes (Elt F) g1
      [⟨Rect.unit (s := S1x512) ![0, 0] S1x512.size inb_S1x512_S1x512_0_0,
        k0_pay3
          (View.readAt (Elt F) (ownM : Memref sig .tc .vmem S1x512 .f32).view (Rect.unit (s := S1x512) ![0, 0] S1x512.size inb_S1x512_S1x512_0_0).toLoadRect (ownV m ρ c))
          (View.readAt (Elt F) (rcvM : Memref sig .tc .vmem S7x1x512 .f32).view (Rect.unit (s := S7x1x512) ![0, 0, 0] S7x1x512.size inb_S7x1x512_S7x1x512_0_0_0).toLoadRect (recvV m ρ c))⟩]
      = outAt m ρ c := by
  have h1 : View.readAt (Elt F) (ownM : Memref sig .tc .vmem S1x512 .f32).view (Rect.unit (s := S1x512) ![0, 0] S1x512.size inb_S1x512_S1x512_0_0).toLoadRect (ownV m ρ c) = ownV m ρ c :=
    Memref.readAt_unit_zero (Elt F) cc0_scratch0 hz2 _ (ownV m ρ c)
  have h2 : View.readAt (Elt F) (rcvM : Memref sig .tc .vmem S7x1x512 .f32).view (Rect.unit (s := S7x1x512) ![0, 0, 0] S7x1x512.size inb_S7x1x512_S7x1x512_0_0_0).toLoadRect (recvV m ρ c) = recvV m ρ c :=
    Memref.readAt_unit_zero (Elt F) cc0_scratch1 hz3 _ (recvV m ρ c)
  rw [h1, h2]
  unfold outAt
  rw [View.writes_singleton]
  exact Memref.write_access_unit_zero_univ (Elt F) cc0_stg1_0 hz2 _ g1 _

/-! ## The receive credits still owed, one by one -/

theorem owedRcv_all (c : Dev nD) :
    owedRcv c 0 = 0 + tallyAt (recvCell (fwd c 6) 6) () N + tallyAt (recvCell (fwd c 5) 5) () N + tallyAt (recvCell (fwd c 4) 4) () N
      + tallyAt (recvCell (fwd c 3) 3) () N + tallyAt (recvCell (fwd c 2) 2) () N + tallyAt (recvCell (fwd c 1) 1) () N
      + tallyAt (recvCell (fwd c 0) 0) () N := by
  rw [show owedRcv c 0 = owedRcv c 1 + tallyAt (recvCell (fwd c 0) 0) () N from owedRcv_peel c 0,
    show owedRcv c 1 = owedRcv c 2 + tallyAt (recvCell (fwd c 1) 1) () N from owedRcv_peel c 1,
    show owedRcv c 2 = owedRcv c 3 + tallyAt (recvCell (fwd c 2) 2) () N from owedRcv_peel c 2,
    show owedRcv c 3 = owedRcv c 4 + tallyAt (recvCell (fwd c 3) 3) () N from owedRcv_peel c 3,
    show owedRcv c 4 = owedRcv c 5 + tallyAt (recvCell (fwd c 4) 4) () N from owedRcv_peel c 4,
    show owedRcv c 5 = owedRcv c 6 + tallyAt (recvCell (fwd c 5) 5) () N from owedRcv_peel c 5,
    show owedRcv c 6 = owedRcv c 7 + tallyAt (recvCell (fwd c 6) 6) () N from owedRcv_peel c 6, owedRcv_seven]

theorem owedSig_all (c : Dev nD) :
    owedSig c 0 = tallyAt (barCell (fwd c 6)) () 1 + tallyAt (barCell (fwd c 5)) () 1 + tallyAt (barCell (fwd c 4)) () 1
      + tallyAt (barCell (fwd c 3)) () 1 + tallyAt (barCell (fwd c 2)) () 1 + tallyAt (barCell (fwd c 1)) () 1 + tallyAt (barCell (fwd c 0)) () 1 := by
  rw [show owedSig c 0 = owedSig c 1 + tallyAt (barCell (fwd c 0)) () 1 from owedSig_peel c 0,
    show owedSig c 1 = owedSig c 2 + tallyAt (barCell (fwd c 1)) () 1 from owedSig_peel c 1,
    show owedSig c 2 = owedSig c 3 + tallyAt (barCell (fwd c 2)) () 1 from owedSig_peel c 2,
    show owedSig c 3 = owedSig c 4 + tallyAt (barCell (fwd c 3)) () 1 from owedSig_peel c 3,
    show owedSig c 4 = owedSig c 5 + tallyAt (barCell (fwd c 4)) () 1 from owedSig_peel c 4,
    show owedSig c 5 = owedSig c 6 + tallyAt (barCell (fwd c 5)) () 1 from owedSig_peel c 5,
    show owedSig c 6 = owedSig c 7 + tallyAt (barCell (fwd c 6)) () 1 from owedSig_peel c 6, owedSig_seven, zero_add]

/-! ## The k-th copy -/

/-- The copy of the own row into landing row k of the device k + 1 places on: it lends the k-th share of the own row
    to the send cell, hands the receive cell of the target its row holding the own row's contents, and takes the
    row's credit off what the device owes. -/
theorem step_send (K : Dev nD × Fin 15 → ℕ) (c : Dev nD) (k : Fin 7) (n : Dev nD) (hn : n = fwd c k) (O : CellTallies nD τ sig Unit) (W : Waits sig Unit)
    {hsc : (slotM k : Memref sig (Dev.tc n : Thread nD τ).2.kind .vmem S1x512 .f32).view.ref.isScScratch = false}
    {hsrc : (ownM : Memref sig .tc .vmem S1x512 .f32).view.WordExact} {hdst : (slotM k : Memref sig .tc .vmem S1x512 .f32).view.WordExact}
    {hsem : DmaTarget.Typed .vmem (.dma (recvS k)) (.remote (Dev.tc n : Thread nD τ) (slotM k : Memref sig .tc .vmem S1x512 .f32) (.dma (sendS k)) hsc)}
    {α : Type} {Q : α → sProp 𝕄} {kont : PUnit → Prog (TpuEff nD τ sig (Elt F) Λ₀ .tc) α}
    (fn : Buf (Elt F) ((slotM k).view.loc (fwd c k : Thread nD τ))) :
    iprop(records m ρ K ∗ ownPts c (qTok k) (ownV m ρ c) ∗ slotPts (fwd c k) k fn
        ∗ owes (c : Thread nD τ) (O + tallyAt (recvCell (fwd c k) k) () N) W
        ∗ dutyTok ER (sendCell c k) 0 (0 : Fin 7) ∗ dutyTok ER (recvCell (fwd c k) k) 0 (0 : Fin 7))
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma ownM (.remote (Dev.tc n : Thread nD τ) (slotM k) (.dma (sendS k)) hsc) (.dma (recvS k)) hsrc hdst hsem) kont) Q) := by
  subst hn
  iintro ⟨#HR, Hown, Hslot, HO, HtS, HtV⟩
  unfold ownPts slotPts
  iapply (Rounds.wp_send_pointsTo 𝒱₀ ER (Rd m ρ) (c : Thread nD τ) none (κ₁ := K (c, iS k)) (κ₂ := K (fwd c k, iR k))
    (r₁ := 0) (r₂ := 0) (d₁ := (0 : Fin 7)) (d₂ := (0 : Fin 7)) (fd := fn) (q := qTok k) (fs := ownV m ρ c)
    (by rw [duties_send]; exact Finset.mem_singleton_self _) (by rw [duties_recv]; exact Finset.mem_singleton_self _)
    () () N rfl (amount_send m ρ c k 0) (amount_recv m ρ (fwd c k) k 0) O rfl (W := W)
    (by rw [payload_send]; unfold sendPay ownPts; exact BI.Entails.refl _)
    (by rw [payload_recv]; exact landed_slot m ρ (fwd c k) c k (fwd_fwd_rev c k).symm fn))
  isplitr; · iapply (inv_send m ρ K c k); iexact HR
  isplitr; · iapply (inv_recv m ρ K (fwd c k) k); iexact HR
  isplitl [Hown]; · iexact Hown
  isplitl [Hslot]; · iexact Hslot
  isplitl [HO]; · iexact HO
  isplitl [HtS]; · iexact HtS
  isplitr; · iapply (reached_send m ρ K c k); iexact HR
  isplitl [HtV]; · iexact HtV
  iapply (reached_recv m ρ K (fwd c k) k); iexact HR

end Cert.Kernel.Prf

end
-- ==== Proof.BitsFinish.lean ====
/-
  The end of a device's thread: its fourteen own cells, each one round past its only duty, closed with their counters
  at zero, and the own row's eight shares put back together.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import proofs.«900907_g7700000000000908_dist_max_ax0_shard0_i_m1024_n512_v7x_i8_f32_1_alg».proof.Proof.BitsState
import proofs.«900907_g7700000000000908_dist_max_ax0_shard0_i_m1024_n512_v7x_i8_f32_1_alg».proof.Proof.BitsLevels
import proofs.«900907_g7700000000000908_dist_max_ax0_shard0_i_m1024_n512_v7x_i8_f32_1_alg».proof.Proof.BitsGeom
import proofs.«900907_g7700000000000908_dist_max_ax0_shard0_i_m1024_n512_v7x_i8_f32_1_alg».proof.Proof.BitsSteps
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A send cell has no duty from round 1 on: its owner, at round 1 having taken nothing of it, closes it and keeps the
    counter at zero. -/
theorem close_send (K : Dev nD × Fin 15 → ℕ) (c : Dev nD) (k : Fin 7) :
    iprop(records m ρ K ∗ atPos ER (sendCell c k) 1 ∅ 0) ⊢ |={Set.univ}=> semVal (sendCell c k) 0 := by
  iintro ⟨#HR, Hat⟩
  iapply (Rounds.cell_close ER (Rd m ρ) (κ := K (c, iS k)) (Set.mem_univ _) (fun h => h) (R := 1) (duties_later m ρ _))
  isplitr
  · iapply (inv_send m ρ K c k); iexact HR
  · iexact Hat

/-- Likewise a receive cell. -/
theorem close_recv (K : Dev nD × Fin 15 → ℕ) (c : Dev nD) (k : Fin 7) :
    iprop(records m ρ K ∗ atPos ER (recvCell c k) 1 ∅ 0) ⊢ |={Set.univ}=> semVal (recvCell c k) 0 := by
  iintro ⟨#HR, Hat⟩
  iapply (Rounds.cell_close ER (Rd m ρ) (κ := K (c, iR k)) (Set.mem_univ _) (fun h => h) (R := 1) (duties_later m ρ _))
  isplitr
  · iapply (inv_recv m ρ K c k); iexact HR
  · iexact Hat

/-- The seven send cells at once: the records, being persistent, go to each. -/
theorem close_sends (K : Dev nD × Fin 15 → ℕ) (c : Dev nD) :
    iprop(records m ρ K ∗ bigSep Finset.univ fun k : Fin 7 => atPos ER (sendCell c k) 1 ∅ 0)
      ⊢ |={Set.univ}=> bigSep Finset.univ fun k : Fin 7 => semVal (sendCell c k) 0 :=
  ((sep_mono_left (BI.bigSep_of_persistent Finset.univ (records m ρ K))).trans
    (by rw [← bigSep_sep']; exact bigSep_mono fun k _ => close_send m ρ K c k)).trans (bigSep_fupd _ _)

/-- The seven receive cells at once. -/
theorem close_recvs (K : Dev nD × Fin 15 → ℕ) (c : Dev nD) :
    iprop(records m ρ K ∗ bigSep Finset.univ fun k : Fin 7 => atPos ER (recvCell c k) 1 ∅ 0)
      ⊢ |={Set.univ}=> bigSep Finset.univ fun k : Fin 7 => semVal (recvCell c k) 0 :=
  ((sep_mono_left (BI.bigSep_of_persistent Finset.univ (records m ρ K))).trans
    (by rw [← bigSep_sep']; exact bigSep_mono fun k _ => close_recv m ρ K c k)).trans (bigSep_fupd _ _)

/-- The share kept and the seven shares lent, all at one contents, are the own row whole again. -/
theorem own_back (c : Dev nD) (f : Buf (Elt F) ((ownM : Memref sig .tc .vmem S1x512 .f32).view.loc (c : Thread nD τ))) :
    iprop(ownPts c qKeep f ∗ bigSep Finset.univ fun k : Fin 7 => ownPts c (qTok k) f)
      ⊢ iprop(∃ f' : Buf (Elt F) ((c : Thread nD τ).loc cc0_scratch0), ((c : Thread nD τ).loc cc0_scratch0) ↦{fullShare} f') := by
  refine (own_shares c f).2.trans ?_
  refine (Entails.of_eq (pts_own c f).symm).trans ?_
  exact exists_intro (Φ := fun f' : Buf (Elt F) ((c : Thread nD τ).loc cc0_scratch0) => (((c : Thread nD τ).loc cc0_scratch0) ↦{fullShare} f' : sProp 𝕄)) f

end Cert.Kernel.Prf

end
-- ==== Proof.BitsBody.lean ====
/-
  One device's thread through the kernel body.

  The thread signals the seven other devices' barrier cells, handing each the landing row that device's copy will
  write; stores its row of column maxima; waits for seven units on its own barrier cell and so holds, for every k,
  landing row k of the device k + 1 places on; copies its row there, lending one share of it to each copy; waits its
  seven receive cells and so holds its landing buffer with row k the row of maxima of the device k + 1 places before;
  stores the larger of its own row and the seven; waits its seven send cells and has its row whole again. All it
  owes is paid by then, its fourteen own cells close at zero, and its two scratch buffers go back.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import proofs.«900907_g7700000000000908_dist_max_ax0_shard0_i_m1024_n512_v7x_i8_f32_1_alg».proof.Proof.BitsState
import proofs.«900907_g7700000000000908_dist_max_ax0_shard0_i_m1024_n512_v7x_i8_f32_1_alg».proof.Proof.BitsLevels
import proofs.«900907_g7700000000000908_dist_max_ax0_shard0_i_m1024_n512_v7x_i8_f32_1_alg».proof.Proof.BitsGeom
import proofs.«900907_g7700000000000908_dist_max_ax0_shard0_i_m1024_n512_v7x_i8_f32_1_alg».proof.Proof.BitsSteps
import proofs.«900907_g7700000000000908_dist_max_ax0_shard0_i_m1024_n512_v7x_i8_f32_1_alg».proof.Proof.BitsFinish
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
attribute [local sl_rounds] duties_bar duties_send duties_recv amount_bar amount_send amount_recv expect_bar expect_send expect_recv
  payload_bar_out payload_send payload_recv
attribute [local sl_canon] dev1_eq dev2_eq dev3_eq dev4_eq dev5_eq dev6_eq dev7_eq dev8_eq dev9_eq dev10_eq dev11_eq dev12_eq dev13_eq dev14_eq

set_option maxHeartbeats 6400000 in
set_option maxRecDepth 65536 in
/-- The body from its precondition to its postcondition, the continuation kept abstract. -/
theorem sound_body (K : Dev nD × Fin 15 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyPre ghost linear payToks
  iintro ⟨⟨⟨⟨#HR, HaB, HaS, HaV, HtB, HtV, HtS⟩, HcB, HcV, #Hlev, ⟨%fo, Hown⟩, ⟨%fr, Hrcv⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave HtB' := (Entails.of_eq (bigSep_fin7 _)) $$ HtB
  icases HtB' with ⟨HtB0, HtB1, HtB2, HtB3, HtB4, HtB5, HtB6⟩
  ihave HtV' := (Entails.of_eq (bigSep_fin7 _)) $$ HtV
  icases HtV' with ⟨HtV0, HtV1, HtV2, HtV3, HtV4, HtV5, HtV6⟩
  ihave HtS' := (Entails.of_eq (bigSep_fin7 _)) $$ HtS
  icases HtS' with ⟨HtS0, HtS1, HtS2, HtS3, HtS4, HtS5, HtS6⟩
  ihave HaS' := (Entails.of_eq (bigSep_fin7 _)) $$ HaS
  icases HaS' with ⟨HaS0, HaS1, HaS2, HaS3, HaS4, HaS5, HaS6⟩
  ihave HaV' := (Entails.of_eq (bigSep_fin7 _)) $$ HaV
  icases HaV' with ⟨HaV0, HaV1, HaV2, HaV3, HaV4, HaV5, HaV6⟩
  ihave HcV' := (Entails.of_eq (bigSep_fin7 _)) $$ HcV
  icases HcV' with ⟨HcV0, HcV1, HcV2, HcV3, HcV4, HcV5, HcV6⟩
  ihave Hsl := (rcv_split (F := F) c) $$ [Hrcv]
  · iexists fr; iexact Hrcv
  ihave Hsl' := (Entails.of_eq (bigSep_fin7 _)) $$ Hsl
  icases Hsl' with ⟨Hs0, Hs1, Hs2, Hs3, Hs4, Hs5, Hs6⟩
  ihave #HIbar := (inv_bar m ρ K c) $$ HR
  ihave #HIb0 := (inv_bar m ρ K (fwd c 0)) $$ HR
  ihave #Hrb0 := (reached_bar m ρ K (fwd c 0)) $$ HR
  ihave #Hrv0 := (reached_recv m ρ K c 0) $$ HR
  ihave #HIp0 := (inv_recv m ρ K (fwd c 0) 0) $$ HR
  ihave #Hrp0 := (reached_recv m ρ K (fwd c 0) 0) $$ HR
  ihave #HIs0 := (inv_send m ρ K c 0) $$ HR
  ihave #Hrs0 := (reached_send m ρ K c 0) $$ HR
  ihave #HIr0 := (inv_recv m ρ K c 0) $$ HR
  ihave #HIb1 := (inv_bar m ρ K (fwd c 1)) $$ HR
  ihave #Hrb1 := (reached_bar m ρ K (fwd c 1)) $$ HR
  ihave #Hrv1 := (reached_recv m ρ K c 1) $$ HR
  ihave #HIp1 := (inv_recv m ρ K (fwd c 1) 1) $$ HR
  ihave #Hrp1 := (reached_recv m ρ K (fwd c 1) 1) $$ HR
  ihave #HIs1 := (inv_send m ρ K c 1) $$ HR
  ihave #Hrs1 := (reached_send m ρ K c 1) $$ HR
  ihave #HIr1 := (inv_recv m ρ K c 1) $$ HR
  ihave #HIb2 := (inv_bar m ρ K (fwd c 2)) $$ HR
  ihave #Hrb2 := (reached_bar m ρ K (fwd c 2)) $$ HR
  ihave #Hrv2 := (reached_recv m ρ K c 2) $$ HR
  ihave #HIp2 := (inv_recv m ρ K (fwd c 2) 2) $$ HR
  ihave #Hrp2 := (reached_recv m ρ K (fwd c 2) 2) $$ HR
  ihave #HIs2 := (inv_send m ρ K c 2) $$ HR
  ihave #Hrs2 := (reached_send m ρ K c 2) $$ HR
  ihave #HIr2 := (inv_recv m ρ K c 2) $$ HR
  ihave #HIb3 := (inv_bar m ρ K (fwd c 3)) $$ HR
  ihave #Hrb3 := (reached_bar m ρ K (fwd c 3)) $$ HR
  ihave #Hrv3 := (reached_recv m ρ K c 3) $$ HR
  ihave #HIp3 := (inv_recv m ρ K (fwd c 3) 3) $$ HR
  ihave #Hrp3 := (reached_recv m ρ K (fwd c 3) 3) $$ HR
  ihave #HIs3 := (inv_send m ρ K c 3) $$ HR
  ihave #Hrs3 := (reached_send m ρ K c 3) $$ HR
  ihave #HIr3 := (inv_recv m ρ K c 3) $$ HR
  ihave #HIb4 := (inv_bar m ρ K (fwd c 4)) $$ HR
  ihave #Hrb4 := (reached_bar m ρ K (fwd c 4)) $$ HR
  ihave #Hrv4 := (reached_recv m ρ K c 4) $$ HR
  ihave #HIp4 := (inv_recv m ρ K (fwd c 4) 4) $$ HR
  ihave #Hrp4 := (reached_recv m ρ K (fwd c 4) 4) $$ HR
  ihave #HIs4 := (inv_send m ρ K c 4) $$ HR
  ihave #Hrs4 := (reached_send m ρ K c 4) $$ HR
  ihave #HIr4 := (inv_recv m ρ K c 4) $$ HR
  ihave #HIb5 := (inv_bar m ρ K (fwd c 5)) $$ HR
  ihave #Hrb5 := (reached_bar m ρ K (fwd c 5)) $$ HR
  ihave #Hrv5 := (reached_recv m ρ K c 5) $$ HR
  ihave #HIp5 := (inv_recv m ρ K (fwd c 5) 5) $$ HR
  ihave #Hrp5 := (reached_recv m ρ K (fwd c 5) 5) $$ HR
  ihave #HIs5 := (inv_send m ρ K c 5) $$ HR
  ihave #Hrs5 := (reached_send m ρ K c 5) $$ HR
  ihave #HIr5 := (inv_recv m ρ K c 5) $$ HR
  ihave #HIb6 := (inv_bar m ρ K (fwd c 6)) $$ HR
  ihave #Hrb6 := (reached_bar m ρ K (fwd c 6)) $$ HR
  ihave #Hrv6 := (reached_recv m ρ K c 6) $$ HR
  ihave #HIp6 := (inv_recv m ρ K (fwd c 6) 6) $$ HR
  ihave #Hrp6 := (reached_recv m ρ K (fwd c 6) 6) $$ HR
  ihave #HIs6 := (inv_send m ρ K c 6) $$ HR
  ihave #Hrs6 := (reached_send m ρ K c 6) $$ HR
  ihave #HIr6 := (inv_recv m ρ K c 6) $$ HR

  ihave Hx := (Entails.of_eq (pts_x (F := F) c _)) $$ Hx
  ihave Hout := (Entails.of_eq (pts_o (F := F) c _)) $$ Hout
  ihave Hown := (Entails.of_eq (pts_own (F := F) c _)) $$ Hown
  unfold ownPts
  have hmw := mayWait_bar (F := F) c
  unfold O₀
  rw [owedSig_all c]
  sl_exec

  -- the own row as stored is the row of column maxima
  rw [own_stored m ρ c fo]
  -- its share kept and the seven lent
  ihave Hsh := ((own_shares' (F := F) c _).1) $$ Hown
  icases Hsh with ⟨Hkeep, Htoks⟩
  ihave Htoks' := (Entails.of_eq (bigSep_fin7 _)) $$ Htoks
  icases Htoks' with ⟨Hq0, Hq1, Hq2, Hq3, Hq4, Hq5, Hq6⟩
  -- the peers' landing rows the barrier round handed over
  ihave Hrows := (bar_rows m ρ c) $$ HaB_pay1
  ihave Hrows' := (Entails.of_eq (bigSep_fin7 _)) $$ Hrows
  icases Hrows' with ⟨⟨%fp0, Hp0⟩, ⟨%fp1, Hp1⟩, ⟨%fp2, Hp2⟩, ⟨%fp3, Hp3⟩, ⟨%fp4, Hp4⟩, ⟨%fp5, Hp5⟩, ⟨%fp6, Hp6⟩⟩
  rw [owedRcv_all c]
  -- copy 0
  iapply (step_send m ρ K c 0 _ (dev8_eq c) (0 + tallyAt (recvCell (fwd c 6) 6) () N + tallyAt (recvCell (fwd c 5) 5) () N + tallyAt (recvCell (fwd c 4) 4) () N + tallyAt (recvCell (fwd c 3) 3) () N + tallyAt (recvCell (fwd c 2) 2) () N + tallyAt (recvCell (fwd c 1) 1) () N) _ fp0) $$ [Hq0 Hp0 HO HtS0 HtV0]
  · isplitr; · iexact HR
    isplitl [Hq0]; · iexact Hq0
    isplitl [Hp0]; · iexact Hp0
    isplitl [HO]; · iexact HO
    isplitl [HtS0]; · iexact HtS0
    iexact HtV0
  iintro ⟨Hcs0, HO⟩
  -- copy 1
  iapply (step_send m ρ K c 1 _ (dev9_eq c) (0 + tallyAt (recvCell (fwd c 6) 6) () N + tallyAt (recvCell (fwd c 5) 5) () N + tallyAt (recvCell (fwd c 4) 4) () N + tallyAt (recvCell (fwd c 3) 3) () N + tallyAt (recvCell (fwd c 2) 2) () N) _ fp1) $$ [Hq1 Hp1 HO HtS1 HtV1]
  · isplitr; · iexact HR
    isplitl [Hq1]; · iexact Hq1
    isplitl [Hp1]; · iexact Hp1
    isplitl [HO]; · iexact HO
    isplitl [HtS1]; · iexact HtS1
    iexact HtV1
  iintro ⟨Hcs1, HO⟩
  -- copy 2
  iapply (step_send m ρ K c 2 _ (dev10_eq c) (0 + tallyAt (recvCell (fwd c 6) 6) () N + tallyAt (recvCell (fwd c 5) 5) () N + tallyAt (recvCell (fwd c 4) 4) () N + tallyAt (recvCell (fwd c 3) 3) () N) _ fp2) $$ [Hq2 Hp2 HO HtS2 HtV2]
  · isplitr; · iexact HR
    isplitl [Hq2]; · iexact Hq2
    isplitl [Hp2]; · iexact Hp2
    isplitl [HO]; · iexact HO
    isplitl [HtS2]; · iexact HtS2
    iexact HtV2
  iintro ⟨Hcs2, HO⟩
  -- copy 3
  iapply (step_send m ρ K c 3 _ (dev11_eq c) (0 + tallyAt (recvCell (fwd c 6) 6) () N + tallyAt (recvCell (fwd c 5) 5) () N + tallyAt (recvCell (fwd c 4) 4) () N) _ fp3) $$ [Hq3 Hp3 HO HtS3 HtV3]
  · isplitr; · iexact HR
    isplitl [Hq3]; · iexact Hq3
    isplitl [Hp3]; · iexact Hp3
    isplitl [HO]; · iexact HO
    isplitl [HtS3]; · iexact HtS3
    iexact HtV3
  iintro ⟨Hcs3, HO⟩
  -- copy 4
  iapply (step_send m ρ K c 4 _ (dev12_eq c) (0 + tallyAt (recvCell (fwd c 6) 6) () N + tallyAt (recvCell (fwd c 5) 5) () N) _ fp4) $$ [Hq4 Hp4 HO HtS4 HtV4]
  · isplitr; · iexact HR
    isplitl [Hq4]; · iexact Hq4
    isplitl [Hp4]; · iexact Hp4
    isplitl [HO]; · iexact HO
    isplitl [HtS4]; · iexact HtS4
    iexact HtV4
  iintro ⟨Hcs4, HO⟩
  -- copy 5
  iapply (step_send m ρ K c 5 _ (dev13_eq c) (0 + tallyAt (recvCell (fwd c 6) 6) () N) _ fp5) $$ [Hq5 Hp5 HO HtS5 HtV5]
  · isplitr; · iexact HR
    isplitl [Hq5]; · iexact Hq5
    isplitl [Hp5]; · iexact Hp5
    isplitl [HO]; · iexact HO
    isplitl [HtS5]; · iexact HtS5
    iexact HtV5
  iintro ⟨Hcs5, HO⟩
  -- copy 6
  iapply (step_send m ρ K c 6 _ (dev14_eq c) (0) _ fp6) $$ [Hq6 Hp6 HO HtS6 HtV6]
  · isplitr; · iexact HR
    isplitl [Hq6]; · iexact Hq6
    isplitl [Hp6]; · iexact Hp6
    isplitl [HO]; · iexact HO
    isplitl [HtS6]; · iexact HtS6
    iexact HtV6
  iintro ⟨Hcs6, HO⟩
  -- the seven receive waits, and the load of the own row through the share kept
  unfold ownPts
  sl_exec
  -- the seven landed rows are the landing buffer at the landed contents
  unfold recvPay
  ihave Hrcv := (rcv_join m ρ c) $$ [HaV0_pay1 HaV1_pay1 HaV2_pay1 HaV3_pay1 HaV4_pay1 HaV5_pay1 HaV6_pay1]
  · iapply (Entails.of_eq (bigSep_fin7 (fun k : Fin 7 => slotPts c k (recvV m ρ c))).symm)
    isplitl [HaV0_pay1]; · iexact HaV0_pay1
    isplitl [HaV1_pay1]; · iexact HaV1_pay1
    isplitl [HaV2_pay1]; · iexact HaV2_pay1
    isplitl [HaV3_pay1]; · iexact HaV3_pay1
    isplitl [HaV4_pay1]; · iexact HaV4_pay1
    isplitl [HaV5_pay1]; · iexact HaV5_pay1
    iexact HaV6_pay1
  ihave Hrcv := (Entails.of_eq (pts_rcv (F := F) c _)) $$ Hrcv
  -- the loads of the landing buffer and of the output block, the store of the result, the seven send waits
  sl_exec
  -- the output block holds the result
  rw [out_stored m ρ c g1, wp_ret]
  -- the fourteen own cells close: their counters at zero are the device's again
  imod (close_sends m ρ K c) $$ [HaS0 HaS1 HaS2 HaS3 HaS4 HaS5 HaS6] with HzS
  · isplitr; · iexact HR
    iapply (Entails.of_eq (bigSep_fin7 (fun k : Fin 7 => atPos ER (sendCell c k) 1 ∅ 0)).symm)
    isplitl [HaS0]; · iexact HaS0
    isplitl [HaS1]; · iexact HaS1
    isplitl [HaS2]; · iexact HaS2
    isplitl [HaS3]; · iexact HaS3
    isplitl [HaS4]; · iexact HaS4
    isplitl [HaS5]; · iexact HaS5
    iexact HaS6
  imod (close_recvs m ρ K c) $$ [HaV0 HaV1 HaV2 HaV3 HaV4 HaV5 HaV6] with HzV
  · isplitr; · iexact HR
    iapply (Entails.of_eq (bigSep_fin7 (fun k : Fin 7 => atPos ER (recvCell c k) 1 ∅ 0)).symm)
    isplitl [HaV0]; · iexact HaV0
    isplitl [HaV1]; · iexact HaV1
    isplitl [HaV2]; · iexact HaV2
    isplitl [HaV3]; · iexact HaV3
    isplitl [HaV4]; · iexact HaV4
    isplitl [HaV5]; · iexact HaV5
    iexact HaV6
  imodintro
  iapply Hk
  unfold bodyPost Φ₁ Dat.owesAt Pipeline.owesWithin sendPay ownPts
  rw [show (dats m ρ 0 c).owed t₀.succ = 0 from rfl]
  isplitl [Hkeep HaS0_pay1 HaS1_pay1 HaS2_pay1 HaS3_pay1 HaS4_pay1 HaS5_pay1 HaS6_pay1 Hrcv HzS HzV]
  · -- the own row: the share kept and the seven returned are the whole again
    isplitl [Hkeep HaS0_pay1 HaS1_pay1 HaS2_pay1 HaS3_pay1 HaS4_pay1 HaS5_pay1 HaS6_pay1]
    · iapply (own_back (F := F) c (ownV m ρ c))
      unfold ownPts
      isplitl [Hkeep]; · iexact Hkeep
      iapply (Entails.of_eq (bigSep_fin7 (fun k : Fin 7 =>
        ((ownM : Memref sig .tc .vmem S1x512 .f32).view.loc (c : Thread nD τ) ↦[(ownM : Memref sig .tc .vmem S1x512 .f32).view.set]{qTok k} ownV m ρ c : sProp 𝕄))).symm)
      isplitl [HaS0_pay1]; · iexact HaS0_pay1
      isplitl [HaS1_pay1]; · iexact HaS1_pay1
      isplitl [HaS2_pay1]; · iexact HaS2_pay1
      isplitl [HaS3_pay1]; · iexact HaS3_pay1
      isplitl [HaS4_pay1]; · iexact HaS4_pay1
      isplitl [HaS5_pay1]; · iexact HaS5_pay1
      iexact HaS6_pay1
    isplitl [Hrcv]
    · iexists (recvV m ρ c)
      iapply (Entails.of_eq (pts_rcv (F := F) c _).symm); iexact Hrcv
    isplitl [HzS]; · iexact HzS
    iexact HzV
  isplitl [HO]
  · iexists _
    isplitr
    swap
    · iexact HO
    · ipureintro; exact fun _ _ => Or.inl trivial
  isplitl [Hx]
  · iexists _; isplitr; · (ipureintro; rfl)
    iapply (Entails.of_eq (pts_x (F := F) c _).symm); iexact Hx
  iexists _; isplitr; · (ipureintro; rfl)
  iapply (Entails.of_eq (pts_o (F := F) c _).symm); iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV, Hlev⟩, Hs0, Hs1⟩, Ho, Hx, Hout⟩
  iapply (sound_body m ρ K c fun _ => bodyPost m ρ c)
  unfold bodyPre
  isplitr []
  · isplitl [Hg HcB HcV Hlev Hs0 Hs1]
    · isplitl [Hg]; · iexact Hg
      isplitl [HcB]; · iexact HcB
      isplitl [HcV]; · iexact HcV
      isplitl [Hlev]; · iexact Hlev
      isplitl [Hs0]; · iexact Hs0
      iexact Hs1
    isplitl [Ho]; · iexact Ho
    isplitl [Hx] <;> iassumption
  · iintro H; iexact H

end Cert.Kernel.Prf

end
-- ==== Proof.BitsLaunchGhost.lean ====
/-
  The launch's ghost state: the handshake's cells and duty tokens minted, dealt to the devices, and every cell's
  invariant allocated for all devices under one update.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import proofs.«900907_g7700000000000908_dist_max_ax0_shard0_i_m1024_n512_v7x_i8_f32_1_alg».proof.Proof.BitsState
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens -/

theorem kcell_injective : Function.Injective (kcell : Dev nD × Fin 15 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl
def ringCells : Finset (GSem nD τ sig) := Finset.univ.map ⟨kcell, kcell_injective⟩

/-- Semaphore and duty name of an own token: family 0 is the barrier cell's duty k, family 1 the one duty of send
    cell k, family 2 the one duty of receive cell k. -/
abbrev tokKey (jk : Fin 3 × Fin 7) : SemLoc sig × Fin 7 := match jk.1 with
  | 0 => (.reg barS, jk.2) | 1 => (.dma (sendS jk.2), 0) | 2 => (.dma (recvS jk.2), 0)
theorem tokKey_injective : Function.Injective tokKey := by decide

/-- The twenty-one duty tokens of a device's own cells, as minted: (device, family, k). -/
abbrev tokOf (x : Dev nD × Fin 3 × Fin 7) : GSem nD τ sig × ℕ × Fin 7 := (((x.1 : Thread nD τ), (tokKey x.2).1), 0, (tokKey x.2).2)
theorem tokOf_injective : Function.Injective (tokOf : Dev nD × Fin 3 × Fin 7 → GSem nD τ sig × ℕ × Fin 7) := by
  rintro ⟨c, jk⟩ ⟨c', jk'⟩ h
  have h1 : c = c' := congrArg (fun x : GSem nD τ sig × ℕ × Fin 7 => x.1.1.1) h
  subst h1
  have h2 : jk = jk' := tokKey_injective (Prod.ext (congrArg (fun x : GSem nD τ sig × ℕ × Fin 7 => x.1.2) h)
    (congrArg (fun x : GSem nD τ sig × ℕ × Fin 7 => x.2.2) h))
  subst h2; rfl

/-- The minted duty tokens. -/
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device c's own cells: its barrier cell's seven, and the one of each send and receive cell. -/
def toks (c : Dev nD) : sProp 𝕄 :=
  iprop((bigSep Finset.univ fun k : Fin 7 => dutyTok ER (barCell c) 0 k)
    ∗ (bigSep Finset.univ fun k : Fin 7 => dutyTok ER (sendCell c k) 0 (0 : Fin 7))
    ∗ (bigSep Finset.univ fun k : Fin 7 => dutyTok ER (recvCell c k) 0 (0 : Fin 7)))

/-- What the launch element deals device c. -/
def G (c : Dev nD) : sProp 𝕄 :=
  iprop((bigSep Finset.univ fun j : Fin 15 => roundState ER (Rd m ρ) (kcell (c, j)) 0)
    ∗ (bigSep Finset.univ fun j : Fin 15 => iprop(atPos ER (kcell (c, j)) 0 ∅ 0 ∗ reached ER (kcell (c, j)) 0)) ∗ toks c)

/-- What the global step makes of it. -/
def G' (c : Dev nD) : sProp 𝕄 := iprop(∃ K, ghost m ρ K c)

/-! ## Sums over the three token families and over the fifteen cells -/

omit [FloatOps F] in
theorem bigSep_fam3 (Φ : Fin 3 → sProp 𝕄) : bigSep Finset.univ Φ = iprop(Φ 0 ∗ Φ 1 ∗ Φ 2) := bigSep_univ_eq_bigSepL [0, 1, 2] (by decide) (by decide) Φ

theorem iS_injective : Function.Injective iS := by decide
theorem iR_injective : Function.Injective iR := by decide
theorem univ_fin15 : (Finset.univ : Finset (Fin 15)) = insert 0 (Finset.univ.map ⟨iS, iS_injective⟩ ∪ Finset.univ.map ⟨iR, iR_injective⟩) := by decide
theorem univ_fin15_succ : (Finset.univ : Finset (Fin 15)) = insert 0 (Finset.univ.map ⟨Fin.succ, Fin.succ_injective 14⟩) := by decide

omit [FloatOps F] in
/-- A sum over a device's fifteen cells: the barrier cell, the seven send cells, the seven receive cells. -/
theorem bigSep_fin15 (Φ : Fin 15 → sProp 𝕄) :
    bigSep Finset.univ Φ = iprop(Φ 0 ∗ (bigSep Finset.univ fun k : Fin 7 => Φ (iS k)) ∗ bigSep Finset.univ fun k : Fin 7 => Φ (iR k)) := by
  rw [univ_fin15, bigSep_insert (by decide), bigSep_union (by decide), bigSep_map, bigSep_map]; rfl

omit [FloatOps F] in
/-- The same sum: the barrier cell, then the fourteen others in order. -/
theorem bigSep_fin15_succ (Φ : Fin 15 → sProp 𝕄) :
    bigSep Finset.univ Φ = iprop(Φ 0 ∗ bigSep Finset.univ fun i : Fin 14 => Φ i.succ) := by
  rw [univ_fin15_succ, bigSep_insert (by decide), bigSep_map]; rfl

/-! ## Funding -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 15 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_prod, bigSep_fam3]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The global step -/

theorem csem_succ : ∀ i : Fin 14, csem i.succ = osem i := by decide

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The fourteen own semaphores and the barrier semaphore are the counters of the device's fifteen cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 15 => semVal (kcell (c, j)) 0 : sProp 𝕄) := by
  rw [unscopedSems0_eq, bigSep_fin15_succ]
  have e : (bigSep Finset.univ fun i : Fin 14 => (semVal (kcell (c, i.succ)) 0 : sProp 𝕄))
      = Pipeline.ownSems0 (Ix := Unit) (Name := ℕ) (U := UU) (Lvl := ℕ) (Val := Elt F) (τ := τ) osem c := by
    unfold Pipeline.ownSems0
    exact bigSep_congr fun i _ => by show semVal ((c : Thread nD τ), csem i.succ) 0 = _; rw [csem_succ]
  rw [e, kcell_bar]
  iintro ⟨HS, HB⟩
  isplitl [HB] <;> iassumption

/-- Each cell's counter at zero and round state at zero allocate its invariant; the positions, the reached marks and
    the tokens pass through. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 15 => iprop(∃ κ : ℕ, cellInv ER (Rd m ρ) κ (kcell (c, j))))
          ∗ (bigSep Finset.univ fun j : Fin 15 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 15 => semVal (kcell (c, j)) 0) ∗ bigSep Finset.univ fun j : Fin 15 => roundState ER (Rd m ρ) (kcell (c, j)) 0)
      ⊢ (|={Set.univ}=> bigSep Finset.univ fun j : Fin 15 => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 15 → ℕ) (c : Dev nD) : iprop(records m ρ K ∗ linear c) ⊢ G' m ρ c := by
  unfold G' ghost
  iintro H
  iexists K
  iexact H

omit [FloatOps F] in
/-- The tokens dealt around the ring: duty k of a barrier cell, and the one duty of receive cell k, go to the device
    k + 1 places before the cell's owner, whose k-th signal and k-th copy address that owner; the send tokens stay. -/
theorem toks_around : (bigSep Finset.univ fun c : Dev nD => (toks c : sProp 𝕄)) ⊢ bigSep Finset.univ fun c : Dev nD => payToks c := by
  have hB : (bigSep Finset.univ fun c : Dev nD => bigSep Finset.univ fun k : Fin 7 => (dutyTok ER (barCell c) 0 k : sProp 𝕄))
      = bigSep Finset.univ fun c : Dev nD => bigSep Finset.univ fun k : Fin 7 => dutyTok ER (barCell (fwd c k)) 0 k := by
    rw [bigSep_univ_comm, bigSep_univ_comm (fun (c : Dev nD) (k : Fin 7) => (dutyTok ER (barCell (fwd c k)) 0 k : sProp 𝕄))]
    exact bigSep_congr fun k _ => bigSep_univ_equiv (turn k) (fun t : Dev nD => (dutyTok ER (barCell t) 0 k : sProp 𝕄))
  have hR : (bigSep Finset.univ fun c : Dev nD => bigSep Finset.univ fun k : Fin 7 => (dutyTok ER (recvCell c k) 0 (0 : Fin 7) : sProp 𝕄))
      = bigSep Finset.univ fun c : Dev nD => bigSep Finset.univ fun k : Fin 7 => dutyTok ER (recvCell (fwd c k) k) 0 (0 : Fin 7) := by
    rw [bigSep_univ_comm, bigSep_univ_comm (fun (c : Dev nD) (k : Fin 7) => (dutyTok ER (recvCell (fwd c k) k) 0 (0 : Fin 7) : sProp 𝕄))]
    exact bigSep_congr fun k _ => bigSep_univ_equiv (turn k) (fun t : Dev nD => (dutyTok ER (recvCell t k) 0 (0 : Fin 7) : sProp 𝕄))
  unfold toks payToks
  rw [bigSep_sep', bigSep_sep', bigSep_sep', bigSep_sep', hB, hR]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's fifteen positions, and the tokens it pays with, are what stays with it alone. -/
theorem linear_intro (c : Dev nD) :
    iprop((bigSep Finset.univ fun j : Fin 15 => (atPos ER (kcell (c, j)) 0 ∅ 0 : sProp 𝕄)) ∗ payToks c) ⊢ linear c := by
  unfold linear
  rw [bigSep_fin15,
    bigSep_congr (s := Finset.univ) (fun (k : Fin 7) _ => show (atPos ER (kcell (c, iS k)) 0 ∅ 0 : sProp 𝕄) = atPos ER (sendCell c k) 0 ∅ 0 by rw [kcell_send]),
    bigSep_congr (s := Finset.univ) (fun (k : Fin 7) _ => show (atPos ER (kcell (c, iR k)) 0 ∅ 0 : sProp 𝕄) = atPos ER (recvCell c k) 0 ∅ 0 by rw [kcell_recv])]
  iintro ⟨⟨HB, HS, HR⟩, HT⟩
  isplitl [HB]; · iexact HB
  isplitl [HS]; · iexact HS
  isplitl [HR]; · iexact HR
  iexact HT

theorem regroup :
    (bigSep Finset.univ fun c : Dev nD => iprop((bigSep Finset.univ fun j : Fin 15 => iprop(∃ κ : ℕ, cellInv ER (Rd m ρ) κ (kcell (c, j))))
          ∗ (bigSep Finset.univ fun j : Fin 15 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 15 => (atPos ER (kcell (c, j)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Kernel.Prf

end
-- ==== Proof.BitsLaunchRun.lean ====
/-
  The launch: the launch credit, what the launch hands a device's thread and what the thread hands back, the run of
  the program on all eight devices, and what the arrays hold at the end.
-/
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.Kernel.Skeleton
import proofs.«900907_g7700000000000908_dist_max_ax0_shard0_i_m1024_n512_v7x_i8_f32_1_alg».proof.Proof.Gen.Kernel.Launch
import proofs.«900907_g7700000000000908_dist_max_ax0_shard0_i_m1024_n512_v7x_i8_f32_1_alg».proof.Proof.Gen.Kernel.Points
import proofs.«900907_g7700000000000908_dist_max_ax0_shard0_i_m1024_n512_v7x_i8_f32_1_alg».proof.Proof.BitsCells
import proofs.«900907_g7700000000000908_dist_max_ax0_shard0_i_m1024_n512_v7x_i8_f32_1_alg».proof.Proof.BitsSched
import proofs.«900907_g7700000000000908_dist_max_ax0_shard0_i_m1024_n512_v7x_i8_f32_1_alg».proof.Proof.BitsState
import proofs.«900907_g7700000000000908_dist_max_ax0_shard0_i_m1024_n512_v7x_i8_f32_1_alg».proof.Proof.BitsLevels
import proofs.«900907_g7700000000000908_dist_max_ax0_shard0_i_m1024_n512_v7x_i8_f32_1_alg».proof.Proof.BitsBody
import proofs.«900907_g7700000000000908_dist_max_ax0_shard0_i_m1024_n512_v7x_i8_f32_1_alg».proof.Proof.BitsLaunchGhost
import Idealize.ShloMosaic.Lib.Pipeline.Launch
import Idealize.ShloMosaic.Lib.Pipeline.Kit
import Idealize.ShloMosaic.Lib.Tactic

noncomputable section

namespace Cert.Kernel.Prf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the fourteen own semaphores, and the shares -/

theorem ownSemFacts : Pipeline.OwnSemFacts cfg0.spec osem := by decide

theorem share_eq (c : Dev nD) (w : Fin cfg0.W) : (dats m ρ 0 c).share w = fullShare := by unfold Dat.share; split <;> rfl

/-- The first seven of the fourteen own semaphores are the send semaphores, the last seven the receive semaphores. -/
def eS : Fin 7 ↪ Fin 14 := ⟨fun k => ⟨k.val, by have := k.isLt; omega⟩, fun a b h => Fin.ext (by have := congrArg Fin.val h; exact this)⟩
def eR : Fin 7 ↪ Fin 14 := ⟨fun k => ⟨7 + k.val, by have := k.isLt; omega⟩, fun a b h => Fin.ext (by have := congrArg Fin.val h; simp only at this; omega)⟩

theorem univ_fourteen : (Finset.univ : Finset (Fin 14)) = (Finset.univ : Finset (Fin 7)).map eS ∪ (Finset.univ : Finset (Fin 7)).map eR := by decide
theorem disjoint_fourteen : Disjoint ((Finset.univ : Finset (Fin 7)).map eS) ((Finset.univ : Finset (Fin 7)).map eR) := by decide
theorem osem_eS : ∀ k : Fin 7, osem (eS k) = .dma (sendS k) := by decide
theorem osem_eR : ∀ k : Fin 7, osem (eR k) = .dma (recvS k) := by decide

omit [FloatOps F] in
/-- The fourteen own semaphores at zero are the seven send cells and the seven receive cells at zero. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ (bigSep Finset.univ fun k : Fin 7 => semVal (recvCell c k) 0)) := by
  unfold Pipeline.ownSems0
  rw [univ_fourteen, bigSep_union disjoint_fourteen, bigSep_map, bigSep_map]
  simp only [osem_eS, osem_eR]
  rfl

/-! ## The launch credit -/

omit [FloatOps F] in
/-- Every device owing a row's credit on receive cell k of the device k + 1 places on, the launch deals each device
    that credit on its own receive cell k: the payer is the device k + 1 places before it. -/
theorem cred_recv (c : Dev nD) (k : Fin 7) :
    (Pipeline.launchCred (fun d => tallyAt (recvCell (fwd d k) k) () N) c : sProp 𝕄) ⊢ cred (tallyAt (recvCell c k) () N) :=
  Pipeline.launchCred_tallyAt (.dma (recvS k)) (fun d => fwd d k) (fun d => fwd d k.rev) (fun c => fwd_rev_fwd c k) (fun d => fwd_fwd_rev d k) () N c

omit [FloatOps F] in
/-- Likewise one unit on its barrier cell for each of the seven offsets. -/
theorem cred_bar (c : Dev nD) (k : Fin 7) :
    (Pipeline.launchCred (fun d => tallyAt (barCell (fwd d k)) () 1) c : sProp 𝕄) ⊢ cred (tallyAt (barCell c) () 1) :=
  Pipeline.launchCred_tallyAt (.reg barS) (fun d => fwd d k) (fun d => fwd d k.rev) (fun c => fwd_rev_fwd c k) (fun d => fwd_fwd_rev d k) () 1 c

omit [FloatOps F] in
theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
/-- Seven unit credits on one cell are the credit of seven units. -/
theorem seven_units (c : Dev nD) :
    (bigSep Finset.univ fun _ : Fin 7 => (cred (tallyAt (barCell c) () 1) : sProp 𝕄)) ⊢ cred (tallyAt (barCell c) () 7) := by
  rw [← Pipeline.cred_finsetSum, Finset.sum_const, Finset.card_univ, Fintype.card_fin, nsmul_tallyAt]

omit [FloatOps F] in
/-- What the launch deals device c: the seven units of its barrier cell and a row's credit on each receive cell. -/
theorem creds (c : Dev nD) :
    (Pipeline.launchCred O₀ c : sProp 𝕄)
      ⊢ iprop(cred (tallyAt (barCell c) () 7) ∗ bigSep Finset.univ fun k : Fin 7 => cred (tallyAt (recvCell c k) () N)) := by
  rw [show (O₀ : Dev nD → CellTallies nD τ sig Unit)
      = fun d => (∑ k : Fin 7, tallyAt (recvCell (fwd d k) k) () N) + ∑ k : Fin 7, tallyAt (barCell (fwd d k)) () 1 from funext O₀_eq,
    Pipeline.launchCred_add, Pipeline.launchCred_sum, Pipeline.launchCred_sum]
  refine (sep_mono (bigSep_mono fun k _ => cred_recv (F := F) c k)
    ((bigSep_mono fun k _ => cred_bar (F := F) c k).trans (seven_units (F := F) c))).trans ?_
  exact Idealize.SL.BI.sep_comm

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G'
  isplitl
  · isplitl [HG]; · iexact HG
    isplitl [H7]; · iexact H7
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HS, HV⟩
  isplitr; · iempintro
  isplitl [HS HV]
  · isplitl [HS] <;> iassumption
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution terminates without fault, and every final state has each windowed array of each
    device at what the write-backs leave there. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The device's block of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the larger of the own row and the seven landed ones: the one write-back,
    of the whole block, writes what the body left in the result's staging buffer. -/
theorem finalA_out (c : Dev nD) : finalA m ρ c (1 : Fin 2) = outAt m ρ c := by
  unfold finalA
  have h := (dats (F := F) m ρ 0 c).arrAt_succ (1 : Fin 2) t₀
  rw [if_pos (flush0_1 t₀)] at h
  refine h.trans ?_
  exact Memref.write_access_unit_zero_univ (Elt F) main_v1 (funext fun a => Nat.zero_mul _) _ _ _

/-- Every weakly fair execution of the program on the eight devices terminates, nothing faults, and every device ends
    with its result array at the maximum of its own row of column maxima and the seven it received, its block of x
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) := by
  refine (run_main m ρ).mono fun r h c => ⟨?_, ?_⟩
  · exact ((h c (1 : Fin 2)).trans (finalA_out m ρ c))
  · exact ((h c (0 : Fin 2)).trans (finalA_x m ρ c))

/-- The staged block is the device's argument array. -/
theorem xstg_eq (c : Dev nD) : xstg m ρ c = m ((c.tc : Thread nD τ).loc main_arg0) := by
  unfold xstg
  exact Memref.read_access_unit_zero (Elt F) main_arg0 (funext fun a => Nat.zero_mul _) _ _

/-- info: 'Cert.Kernel.Prf.xstg_eq' depends on axioms: [propext, Classical.choice, Quot.sound] -/
#guard_msgs in #print axioms xstg_eq

end Cert.Kernel.Prf

end
-- ==== Proof.Cells.lean ====
/-
  The all-to-all maximum over eight devices: names for the ring offsets, the buffers, the fifteen semaphore cells
  of a device, and the values that travel.

  Device c computes the column maxima of its own 1024 rows (a row vector of 512 entries), tells each of the other
  seven devices, by one unit on that device's barrier semaphore, that it has entered the kernel, waits for seven
  such units, and then copies its row vector into slot k of device (c + k + 1) mod 8 for k = 0 … 6. Slot k of a
  device therefore ends holding the row vector of the device k + 1 places before it, and the maximum of the own
  vector with the seven received ones is the column maximum over all 8192 rows, on every device.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the handshake's with seven duty names -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring offsets -/

/-- The device k + 1 places after c on the ring of eight. -/
def fwd (c : Dev nD) (k : Fin 7) : Dev nD := ⟨(c.val + k.val + 1) % 8, Nat.mod_lt _ (by decide)⟩

/-- Going k + 1 places on and then (6 - k) + 1 places on is a full turn. -/
theorem fwd_fwd_rev (c : Dev nD) (k : Fin 7) : fwd (fwd c k) k.rev = c := by revert c k; decide
theorem fwd_rev_fwd (c : Dev nD) (k : Fin 7) : fwd (fwd c k.rev) k = c := by revert c k; decide
theorem fwd_ne (c : Dev nD) (k : Fin 7) : fwd c k ≠ c := by revert c k; decide
theorem fwd_inj_right (c : Dev nD) {k k' : Fin 7} (h : fwd c k = fwd c k') : k = k' := by revert c k k'; decide

/-- Moving every device k + 1 places on is a permutation of the mesh. -/
def turn (k : Fin 7) : Dev nD ≃ Dev nD := ⟨fun c => fwd c k, fun c => fwd c k.rev, fun c => fwd_fwd_rev c k, fun c => fwd_rev_fwd c k⟩

/-- The printed device chains, decided over the mesh: the k-th signal and the k-th copy both address the device
    k + 1 places on. -/
theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
theorem dev8_eq (c : Dev nD) : (⟨k0_dev8 c, k0_dev8_lt c⟩ : Dev nD) = fwd c 0 := by revert c; decide +kernel
theorem dev9_eq (c : Dev nD) : (⟨k0_dev9 c, k0_dev9_lt c⟩ : Dev nD) = fwd c 1 := by revert c; decide +kernel
theorem dev10_eq (c : Dev nD) : (⟨k0_dev10 c, k0_dev10_lt c⟩ : Dev nD) = fwd c 2 := by revert c; decide +kernel
theorem dev11_eq (c : Dev nD) : (⟨k0_dev11 c, k0_dev11_lt c⟩ : Dev nD) = fwd c 3 := by revert c; decide +kernel
theorem dev12_eq (c : Dev nD) : (⟨k0_dev12 c, k0_dev12_lt c⟩ : Dev nD) = fwd c 4 := by revert c; decide +kernel
theorem dev13_eq (c : Dev nD) : (⟨k0_dev13 c, k0_dev13_lt c⟩ : Dev nD) = fwd c 5 := by revert c; decide +kernel
theorem dev14_eq (c : Dev nD) : (⟨k0_dev14 c, k0_dev14_lt c⟩ : Dev nD) = fwd c 6 := by revert c; decide +kernel

/-! ## The buffers -/

abbrev xM : Memref sig .tc .vmem S1024x512 .f32 := Memref.whole cc0_stg0_0
abbrev oM : Memref sig .tc .vmem S1x512 .f32 := Memref.whole cc0_stg1_0
/-- The device's own row of column maxima: the source of its seven copies. -/
abbrev ownM : Memref sig .tc .vmem S1x512 .f32 := Memref.whole cc0_scratch0
/-- The seven landing rows. -/
abbrev rcvM : Memref sig .tc .vmem S7x1x512 .f32 := Memref.whole cc0_scratch1

theorem slot_inb : ∀ (k : Fin 7) (a : Fin 3), (![k.val, 0, 0] : Fin 3 → Nat) a + S1x1x512.size a ≤ S7x1x512.size a := by decide

/-- Landing row k, as the kernel names it: row k of the landing buffer, its leading unit axis dropped. -/
abbrev slotM (k : Fin 7) : Memref sig .tc .vmem S1x512 .f32 :=
  (rcvM.slice (Rect.unit (s := S7x1x512) ![k.val, 0, 0] S1x1x512.size (slot_inb k)) (fun _ => rfl)).squeeze S1x512 squeezes_S1x1x512_S1x512

/-- The printed spelling of row 3 is this one (the in-bounds evidence is a proof, the offset a numeral). -/
example : slotM 3 = (rcvM.slice (Rect.unit (s := S7x1x512) ![3, 0, 0] S1x1x512.size inb_S7x1x512_S1x1x512_3_0_0) (fun _ => rfl)).squeeze S1x512 squeezes_S1x1x512_S1x512 := rfl

/-! ## The semaphores and their cells -/

/-- The runtime's barrier semaphore of collective id 0 (not scoped to the launch). -/
abbrev barS : Sem sig := (SemArray.scalar (sig.barrier 0 rfl) : Sems sig S_).sem
/-- Send semaphore k is DMA semaphore 2 + k, receive semaphore k is 9 + k. -/
abbrev sendS (k : Fin 7) : DmaSem sig := ⟨2 + k.val, by have := k.isLt; show 2 + k.val < 16; omega⟩
abbrev recvS (k : Fin 7) : DmaSem sig := ⟨9 + k.val, by have := k.isLt; show 9 + k.val < 16; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The kernel's own (scoped) semaphores as the launch indexes them: the seven send, then the seven receive. -/
abbrev osem : Fin 14 → SemLoc sig := fun i => .dma ⟨2 + i.val, by have := i.isLt; show 2 + i.val < 16; omega⟩
/-- All fifteen of a device: the barrier, then the fourteen own. -/
abbrev csem : Fin 15 → SemLoc sig := fun j => if j.val = 0 then .reg barS else .dma ⟨1 + j.val, by have := j.isLt; show 1 + j.val < 16; omega⟩
abbrev kcell (ck : Dev nD × Fin 15) : GSem nD τ sig := ((ck.1 : Thread nD τ), csem ck.2)

/-- Index of send cell k and of receive cell k among the fifteen. -/
abbrev iS (k : Fin 7) : Fin 15 := ⟨1 + k.val, by have := k.isLt; omega⟩
abbrev iR (k : Fin 7) : Fin 15 := ⟨8 + k.val, by have := k.isLt; omega⟩
theorem kcell_bar (c : Dev nD) : kcell (c, 0) = barCell c := rfl
theorem csem_iS : ∀ k : Fin 7, csem (iS k) = .dma (sendS k) := by decide
theorem csem_iR : ∀ k : Fin 7, csem (iR k) = .dma (recvS k) := by decide
theorem kcell_send (c : Dev nD) (k : Fin 7) : kcell (c, iS k) = sendCell c k := by
  show ((c : Thread nD τ), csem (iS k)) = _; rw [csem_iS]
theorem kcell_recv (c : Dev nD) (k : Fin 7) : kcell (c, iR k) = recvCell c k := by
  show ((c : Thread nD τ), csem (iR k)) = _; rw [csem_iR]
theorem csem_injective : Function.Injective csem := by decide

/-- The credit of one row's transfer. -/
abbrev N : ℕ := (ownM : Memref sig .tc .vmem S1x512 .f32).view.dmaCredit
theorem N_pos : 0 < N := View.dmaCredit_pos _ (by decide)

end Cert.KernelIdeal.Prf

end
-- ==== Proof.Sched.lean ====
/-
  The handshake's schedule: per semaphore cell, who pays which duty, how much, and what each landing hands the
  cell's owner.

  Barrier cell of device t, duty k (one unit): paid by the device whose k-th signal addresses t; it hands t that
  device's landing row 6 - k — the row t's (6 - k)-th copy writes — and the knowledge that its receive cell is at
  round 0. Send cell k of device c (one row's credit): paid by c's own k-th copy; it hands back the share of the
  own row the copy read. Receive cell k of device c (one row's credit): paid by the copy of the device k + 1 places
  before c; it hands c its landing row k holding that device's row of maxima.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import Idealize.ShloMosaic.Lib.Transfers
import Idealize.ShloMosaic.Lib.ValueIdx
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold -/

/-- Device c's block of x as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column maxima over its own 1024 rows. -/
def ownV (c : Dev nD) : (cc0_scratch0 : Ref sig .tc).ty.Contents (Elt F) := k0_pay2 (k0_pay1 (xstg m ρ c))

/-- The landing buffer of device c once all seven rows have landed: row k is the row of maxima of the device
    k + 1 places before c. -/
def recvV (c : Dev nD) : (cc0_scratch1 : Ref sig .tc).ty.Contents (Elt F) :=
  fun i => ownV m ρ (fwd c (i 0 : Fin 7).rev) (ValueIdx.ix2 (0 : Fin 1) (i 2 : Fin 512))

/-- The kernel's result on device c: the larger of its own row and the seven landed ones, column by column. -/
def outAt (c : Dev nD) : (cc0_stg1_0 : Ref sig .tc).ty.Contents (Elt F) := k0_pay3 (ownV m ρ c) (recvV m ρ c)

/-! ## Points-to assertions -/

/-- The share of the own row lent to copy k, and the share kept for the body's own load. -/
abbrev qTok (k : Fin 7) : PosShare TreeShare := Transfers.shareTok fullShare 7 k
abbrev qKeep : PosShare TreeShare := Transfers.shareDrop fullShare 7

def slotPts (c : Dev nD) (k : Fin 7) (f : Buf (Elt F) ((slotM k).view.loc (c : Thread nD τ))) : sProp 𝕄 :=
  (slotM k).view.loc (c : Thread nD τ) ↦[(slotM k).view.set]{fullShare} f
def ownPts (c : Dev nD) (q : PosShare TreeShare) (f : Buf (Elt F) ((ownM : Memref sig .tc .vmem S1x512 .f32).view.loc (c : Thread nD τ))) : sProp 𝕄 :=
  (ownM : Memref sig .tc .vmem S1x512 .f32).view.loc (c : Thread nD τ) ↦[(ownM : Memref sig .tc .vmem S1x512 .f32).view.set]{q} f

omit [FloatOps F] in
instance slotPts_storable (c : Dev nD) (k : Fin 7) (f) : BI.Storable (upEmb : UEmb _ 𝕄) (slotPts (F := F) c k f) := by unfold slotPts; infer_instance
omit [FloatOps F] in
instance ownPts_storable (c : Dev nD) (q) (f) : BI.Storable (upEmb : UEmb _ 𝕄) (ownPts (F := F) c q f) := by unfold ownPts; infer_instance

/-! ## The schedule -/

/-- Which of the fourteen own semaphores a DMA cell is: (false, k) for send k, (true, k) for receive k. -/
def xferOf : SemLoc sig → Option (Bool × Fin 7)
  | .dma q => if h : 2 ≤ q.val ∧ q.val < 9 then some (false, ⟨q.val - 2, by omega⟩)
              else if h : 9 ≤ q.val ∧ q.val < 16 then some (true, ⟨q.val - 9, by omega⟩) else none
  | .reg _ => none

theorem xferOf_send : ∀ k : Fin 7, xferOf (.dma (sendS k)) = some (false, k) := by decide
theorem xferOf_recv : ∀ k : Fin 7, xferOf (.dma (recvS k)) = some (true, k) := by decide
theorem xferOf_bar : xferOf (.reg barS) = none := rfl

def barPay (t : Dev nD) (k : Fin 7) : sProp 𝕄 :=
  iprop((∃ f, slotPts (fwd t k.rev) k.rev f) ∗ reached ER (recvCell (fwd t k.rev) k.rev) 0)
def sendPay (c : Dev nD) (k : Fin 7) : sProp 𝕄 := ownPts c (qTok k) (ownV m ρ c)
def recvPay (c : Dev nD) (k : Fin 7) : sProp 𝕄 := slotPts c k (recvV m ρ c)

/-- One round, round 0: a barrier cell has seven unit duties, a send or receive cell the one duty 0 of a row's credit. -/
def Rd : Rounds.Schedule (GSem nD τ sig) (Fin 7) 𝕄 where
  duties g r := if r = 0 ∧ g.1.2 = .tc then (if g.2 = .reg barS then Finset.univ else if (xferOf g.2).isSome then {0} else ∅) else ∅
  unitless _ := False
  amount g _ _ := if g.2 = .reg barS then 1 else N
  payload g _ d :=
    if g.2 = .reg barS then barPay g.1.1 d
    else match xferOf g.2 with
      | some (false, k) => sendPay m ρ g.1.1 k
      | some (true, k) => recvPay m ρ g.1.1 k
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m ρ).payload g r d) := by
  show BI.Storable upEmb (if g.2 = .reg barS then barPay g.1.1 d
    else match xferOf g.2 with
      | some (false, k) => sendPay m ρ g.1.1 k
      | some (true, k) => recvPay m ρ g.1.1 k
      | none => iprop(emp))
  unfold barPay sendPay recvPay
  (repeat' split) <;> infer_instance

section Tables
variable (c : Dev nD) (k : Fin 7)

theorem send_ne_bar : (SemLoc.dma (sendS k) : SemLoc sig) ≠ .reg barS := fun h => by cases h
theorem recv_ne_bar : (SemLoc.dma (recvS k) : SemLoc sig) ≠ .reg barS := fun h => by cases h

theorem duties_bar : (Rd (F := F) m ρ).duties (barCell c) 0 = Finset.univ := by
  dsimp only [Rd]; rw [if_pos ⟨rfl, rfl⟩, if_pos rfl]
theorem duties_send : (Rd (F := F) m ρ).duties (sendCell c k) 0 = {0} := by
  dsimp only [Rd]; rw [if_pos ⟨rfl, rfl⟩, if_neg (send_ne_bar k), xferOf_send]; rfl
theorem duties_recv : (Rd (F := F) m ρ).duties (recvCell c k) 0 = {0} := by
  dsimp only [Rd]; rw [if_pos ⟨rfl, rfl⟩, if_neg (recv_ne_bar k), xferOf_recv]; rfl
theorem duties_later (g : GSem nD τ sig) : ∀ r, 1 ≤ r → (Rd (F := F) m ρ).duties g r = ∅ :=
  fun r hr => by dsimp only [Rd]; rw [if_neg fun h => by omega]

theorem amount_bar (d : Fin 7) : (Rd (F := F) m ρ).amount (barCell c) 0 d = 1 := by dsimp only [Rd]; exact if_pos rfl
theorem amount_send (d : Fin 7) : (Rd (F := F) m ρ).amount (sendCell c k) 0 d = N := by dsimp only [Rd]; exact if_neg (send_ne_bar k)
theorem amount_recv (d : Fin 7) : (Rd (F := F) m ρ).amount (recvCell c k) 0 d = N := by dsimp only [Rd]; exact if_neg (recv_ne_bar k)

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c k) 0 = N := by
  unfold Schedule.expect Schedule.amountOf; rw [duties_send, Finset.sum_singleton, amount_send]
theorem expect_recv : (Rd (F := F) m ρ).expect (recvCell c k) 0 = N := by
  unfold Schedule.expect Schedule.amountOf; rw [duties_recv, Finset.sum_singleton, amount_recv]

theorem payload_bar (d : Fin 7) : (Rd (F := F) m ρ).payload (barCell c) 0 d = barPay c d := by dsimp only [Rd]; rw [if_pos rfl]
theorem payload_send (d : Fin 7) : (Rd (F := F) m ρ).payload (sendCell c k) 0 d = sendPay m ρ c k := by
  dsimp only [Rd]; rw [if_neg (send_ne_bar k)]; simp only [xferOf_send]
theorem payload_recv (d : Fin 7) : (Rd (F := F) m ρ).payload (recvCell c k) 0 d = recvPay m ρ c k := by
  dsimp only [Rd]; rw [if_neg (recv_ne_bar k)]; simp only [xferOf_recv]

/-- The whole of the barrier cell's round: the seven peers' landing rows. -/
theorem rest_bar : bigSep ((Rd (F := F) m ρ).duties (barCell c) 0 \ ∅) (fun d => (Rd (F := F) m ρ).payload (barCell c) 0 d)
    = bigSep Finset.univ (fun d : Fin 7 => barPay (F := F) c d) := by
  rw [Finset.sdiff_empty, duties_bar]; exact bigSep_congr fun d _ => payload_bar m ρ c d
theorem rest_send : bigSep ((Rd (F := F) m ρ).duties (sendCell c k) 0 \ ∅) (fun d => (Rd (F := F) m ρ).payload (sendCell c k) 0 d) = sendPay m ρ c k := by
  rw [Finset.sdiff_empty, duties_send, bigSep_singleton, payload_send]
theorem rest_recv : bigSep ((Rd (F := F) m ρ).duties (recvCell c k) 0 \ ∅) (fun d => (Rd (F := F) m ρ).payload (recvCell c k) 0 d) = recvPay m ρ c k := by
  rw [Finset.sdiff_empty, duties_recv, bigSep_singleton, payload_recv]

end Tables

end Cert.KernelIdeal.Prf

end
-- ==== Proof.State.lean ====
/-
  What a device owes at launch and after each of its signals and copies; the waiting levels; the ghost state a
  device's thread starts from; the pipeline's proof data; and the body's pre- and postcondition.

  A device owes each of the seven others one unit on their barrier cell and one row's credit on the receive cell
  its copy lands on. Barrier cells sit at level 1, receive cells at level 2, every other cell at 0: the only wait
  made while something is still owed is the barrier wait, and all that is owed then are receive credits, above it.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The receive credits of the copies not yet enqueued (copies e, …, 6). -/
def owedRcv (c : Dev nD) (e : ℕ) : CellTallies nD τ sig Unit :=
  ∑ k ∈ Finset.univ.filter (fun k : Fin 7 => e ≤ k.val), tallyAt (recvCell (fwd c k) k) () N
/-- The barrier units of the signals not yet sent (signals a, …, 6). -/
def owedSig (c : Dev nD) (a : ℕ) : CellTallies nD τ sig Unit :=
  ∑ k ∈ Finset.univ.filter (fun k : Fin 7 => a ≤ k.val), tallyAt (barCell (fwd c k)) () 1
def O₀ (c : Dev nD) : CellTallies nD τ sig Unit := owedRcv c 0 + owedSig c 0

theorem filter_peel : ∀ a : Fin 7, Finset.univ.filter (fun k : Fin 7 => a.val ≤ k.val) = insert a (Finset.univ.filter (fun k : Fin 7 => a.val + 1 ≤ k.val)) := by decide
theorem not_mem_filter_succ : ∀ a : Fin 7, a ∉ Finset.univ.filter (fun k : Fin 7 => a.val + 1 ≤ k.val) := by decide
theorem filter_seven : Finset.univ.filter (fun k : Fin 7 => 7 ≤ k.val) = ∅ := by decide
theorem filter_zero : Finset.univ.filter (fun k : Fin 7 => 0 ≤ k.val) = Finset.univ := by decide

theorem owedSig_peel (c : Dev nD) (a : Fin 7) : owedSig c a.val = owedSig c (a.val + 1) + tallyAt (barCell (fwd c a)) () 1 := by
  unfold owedSig; rw [filter_peel a, Finset.sum_insert (not_mem_filter_succ a), add_comm]
theorem owedRcv_peel (c : Dev nD) (e : Fin 7) : owedRcv c e.val = owedRcv c (e.val + 1) + tallyAt (recvCell (fwd c e) e) () N := by
  unfold owedRcv; rw [filter_peel e, Finset.sum_insert (not_mem_filter_succ e), add_comm]
theorem owedSig_seven (c : Dev nD) : owedSig c 7 = 0 := by unfold owedSig; rw [filter_seven, Finset.sum_empty]
theorem owedRcv_seven (c : Dev nD) : owedRcv c 7 = 0 := by unfold owedRcv; rw [filter_seven, Finset.sum_empty]
theorem O₀_eq (c : Dev nD) : O₀ c = (∑ k : Fin 7, tallyAt (recvCell (fwd c k) k) () N) + ∑ k : Fin 7, tallyAt (barCell (fwd c k)) () 1 := by
  unfold O₀ owedRcv owedSig; rw [filter_zero]

/-! ## The levels -/

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match xferOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by
  unfold lv; rw [if_neg (recv_ne_bar k)]; simp only [xferOf_recv]
theorem lv_send (c : Dev nD) (k : Fin 7) : lv (sendCell c k) () = 0 := by
  unfold lv; rw [if_neg (send_ne_bar k)]; simp only [xferOf_send]

/-! ## The ghost state -/

/-- Every cell's invariant under the names the launch allocated them at, and that every cell is at round 0:
    persistent, handed whole to every device. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem inv_at (K : Dev nD × Fin 15 → ℕ) (ck : Dev nD × Fin 15) : records m ρ K ⊢ cellInv ER (Rd m ρ) (K ck) (kcell ck) := by
  unfold records; iintro ⟨HI, -⟩
  iapply (show (bigSep Finset.univ fun ck : Dev nD × Fin 15 => (cellInv ER (Rd m ρ) (K ck) (kcell ck) : sProp 𝕄)) ⊢ cellInv ER (Rd m ρ) (K ck) (kcell ck)
    from bigSep_elim (Finset.mem_univ ck))
  iexact HI
theorem reached_at (K : Dev nD × Fin 15 → ℕ) (ck : Dev nD × Fin 15) : records m ρ K ⊢ reached ER (kcell ck) 0 := by
  unfold records; iintro ⟨-, HR⟩
  iapply (show (bigSep Finset.univ fun ck : Dev nD × Fin 15 => (reached ER (kcell ck) 0 : sProp 𝕄)) ⊢ reached ER (kcell ck) 0
    from bigSep_elim (Finset.mem_univ ck))
  iexact HR

theorem inv_bar (K : Dev nD × Fin 15 → ℕ) (c : Dev nD) : records m ρ K ⊢ cellInv ER (Rd m ρ) (K (c, 0)) (barCell c) := inv_at m ρ K (c, 0)
theorem inv_send (K : Dev nD × Fin 15 → ℕ) (c : Dev nD) (k : Fin 7) : records m ρ K ⊢ cellInv ER (Rd m ρ) (K (c, iS k)) (sendCell c k) := by
  have h := inv_at m ρ K (c, iS k); rw [kcell_send] at h; exact h
theorem inv_recv (K : Dev nD × Fin 15 → ℕ) (c : Dev nD) (k : Fin 7) : records m ρ K ⊢ cellInv ER (Rd m ρ) (K (c, iR k)) (recvCell c k) := by
  have h := inv_at m ρ K (c, iR k); rw [kcell_recv] at h; exact h
theorem reached_bar (K : Dev nD × Fin 15 → ℕ) (c : Dev nD) : records m ρ K ⊢ reached ER (barCell c) 0 := reached_at m ρ K (c, 0)
theorem reached_send (K : Dev nD × Fin 15 → ℕ) (c : Dev nD) (k : Fin 7) : records m ρ K ⊢ reached ER (sendCell c k) 0 := by
  have h := reached_at m ρ K (c, iS k); rw [kcell_send] at h; exact h
theorem reached_recv (K : Dev nD × Fin 15 → ℕ) (c : Dev nD) (k : Fin 7) : records m ρ K ⊢ reached ER (recvCell c k) 0 := by
  have h := reached_at m ρ K (c, iR k); rw [kcell_recv] at h; exact h

/-- The tokens of the duties device c pays: duty k of the barrier cell its k-th signal addresses, the one duty of
    the receive cell its k-th copy lands on, the one duty of its own send cell k. -/
def payToks (c : Dev nD) : sProp 𝕄 :=
  iprop((bigSep Finset.univ fun k : Fin 7 => dutyTok ER (barCell (fwd c k)) 0 k)
    ∗ (bigSep Finset.univ fun k : Fin 7 => dutyTok ER (recvCell (fwd c k) k) 0 (0 : Fin 7))
    ∗ (bigSep Finset.univ fun k : Fin 7 => dutyTok ER (sendCell c k) 0 (0 : Fin 7)))

/-- What stays with device c alone: its position at round 0 of each of its fifteen cells, and the tokens it pays with. -/
def linear (c : Dev nD) : sProp 𝕄 :=
  iprop(atPos ER (barCell c) 0 ∅ 0
    ∗ (bigSep Finset.univ fun k : Fin 7 => atPos ER (sendCell c k) 0 ∅ 0)
    ∗ (bigSep Finset.univ fun k : Fin 7 => atPos ER (recvCell c k) 0 ∅ 0)
    ∗ payToks c)

def ghost (K : Dev nD × Fin 15 → ℕ) (c : Dev nD) : sProp 𝕄 := iprop(records m ρ K ∗ linear c)

/-- What device c's thread starts from: the ghost state at some names; the credit of its barrier's seven units and of
    its seven receive cells; the level facts. -/
def start (c : Dev nD) : sProp 𝕄 :=
  iprop((∃ K, ghost m ρ K c) ∗ cred (tallyAt (barCell c) () 7)
    ∗ (bigSep Finset.univ fun k : Fin 7 => cred (tallyAt (recvCell c k) () N)) ∗ levAts L lv)

/-- Before the body: that, and the two scratch buffers at some contents. -/
def Φ₀ (c : Dev nD) : sProp 𝕄 :=
  iprop(start m ρ c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the two scratch buffers again, and the fourteen own semaphores at zero, their cells closed. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun k : Fin 7 => semVal (sendCell c k) 0)
    ∗ (bigSep Finset.univ fun k : Fin 7 => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem fetch_0 (t : Fin cfg0.N) : (cfg0.win (0 : Fin 2)).fetch t = true := by rw [fin_N t]; rfl

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 15 → ℕ) (c : Dev nD) : sProp 𝕄 :=
  iprop((ghost m ρ K c ∗ cred (tallyAt (barCell c) () 7)
      ∗ (bigSep Finset.univ fun k : Fin 7 => cred (tallyAt (recvCell c k) () N)) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.Prf

end
-- ==== Proof.Levels.lean ====
/-
  The evidence a wait presents: the cell waited on sits strictly below every cell the device still owes.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.State
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A staging cell (DMA semaphore 0 or 1) is neither the barrier cell nor one of the fourteen transfer cells: level 0. -/
theorem lv_stage (c : Dev nD) (q : DmaSem sig) (hq : q.val < 2) : lv ((c : Thread nD τ), .dma q) () = 0 := by
  have hx : xferOf (.dma q : SemLoc sig) = none := by
    unfold xferOf
    dsimp only
    rw [dif_neg (fun h => by omega), dif_neg (fun h => by omega)]
  unfold lv
  dsimp only
  rw [if_neg (fun h => by cases h), hx]

/-- Whatever is owed of the seven receive credits is owed to a receive cell. -/
theorem owedRcv_pos {c : Dev nD} {g : GSem nD τ sig} {u : Unit} (h : 0 < owedRcv c 0 g u) :
    ∃ k : Fin 7, g = recvCell (fwd c k) k := by
  unfold owedRcv at h
  rw [filter_zero] at h
  obtain ⟨k, -, hk⟩ := Pipeline.sum_pos_exists h
  rw [tallyAt_apply] at hk
  by_cases hh : g = recvCell (fwd c k) k ∧ u = ()
  · exact ⟨k, hh.1⟩
  · rw [if_neg hh] at hk; exact absurd hk (Nat.lt_irrefl 0)

/-- Whatever a device owes at launch is owed to a receive cell or to a barrier cell of another device's TensorCore. -/
theorem O₀_pos {c : Dev nD} {g : GSem nD τ sig} {u : Unit} (h : 0 < O₀ c g u) :
    (∃ k : Fin 7, g = recvCell (fwd c k) k) ∨ (∃ k : Fin 7, g = barCell (fwd c k)) := by
  rw [O₀_eq] at h
  rcases Pipeline.add_pos_cases h with h | h
  · obtain ⟨k, -, hk⟩ := Pipeline.sum_pos_exists h
    rw [tallyAt_apply] at hk
    by_cases hh : g = recvCell (fwd c k) k ∧ u = ()
    · exact Or.inl ⟨k, hh.1⟩
    · rw [if_neg hh] at hk; exact absurd hk (Nat.lt_irrefl 0)
  · obtain ⟨k, -, hk⟩ := Pipeline.sum_pos_exists h
    rw [tallyAt_apply] at hk
    by_cases hh : g = barCell (fwd c k) ∧ u = ()
    · exact Or.inr ⟨k, hh.1⟩
    · rw [if_neg hh] at hk; exact absurd hk (Nat.lt_irrefl 0)

omit [FloatOps F] in
/-- A wait of the pipeline on one of its two staging semaphores (DMA semaphores 0 and 1), made while the device owes
    all of its launch dues or nothing: staging cells are at level 0, below barrier and receive cells. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨k, rfl⟩ | ⟨k, rfl⟩ <;> (rw [L_tc]; exact Finset.mem_singleton_self _))
      (fun p hp => by rw [Finset.mem_singleton.mp hp]; exact le_of_eq (lv_stage c q hq))
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier wait a device owes the seven receive credits only: receive cells, above its barrier cell. -/
theorem mayWait_bar (c : Dev nD) :
    (levAts L lv : sProp 𝕄) ⊢ MayWait (c : Thread nD τ) (.reg barS) () (owedRcv c 0) := by
  refine MayOwe.of_cut (L := L) (lev := lv) 1
    (fun p hp => by rw [Finset.mem_singleton.mp hp, L_tc]; exact Finset.mem_singleton_self _)
    (fun g u hg => by obtain ⟨k, rfl⟩ := owedRcv_pos hg; rw [L_tc]; exact Finset.mem_singleton_self _)
    (fun p hp => by rw [Finset.mem_singleton.mp hp]; exact le_of_eq (lv_bar c))
    (fun g u hg => by obtain ⟨k, rfl⟩ := owedRcv_pos hg; rw [lv_recv]; decide)

end Cert.KernelIdeal.Prf

end
-- ==== Proof.Geom.lean ====
/-
  The landing buffer cut into its seven rows and put together again, what a landed row holds, and the own row's
  points-to cut into the share kept and the seven shares lent.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The seven rows of the landing buffer -/

/-- Row k's element set is the unit-stride box at offsets (k, 0, 0) of sizes (1, 1, 512). -/
theorem slot_set (k : Fin 7) :
    (slotM k).view.set = (Rect.unit (s := S7x1x512) ![k.val, 0, 0] S1x1x512.size (slot_inb k)).set := by
  show ((rcvM.view.slice _).reshape _ _).set = _
  rw [View.set_reshape, View.set_slice_whole]

/-- An element of the landing buffer is in row k exactly when its first coordinate is k. -/
theorem mem_slot_set (k : Fin 7) (i : S7x1x512.Idx) : i ∈ (slotM k).view.set ↔ (i 0).val = k.val := by
  rw [slot_set, Rect.mem_set_unit]
  refine ⟨fun h => ?_, fun h a => ?_⟩
  · have h0 := h 0
    change k.val ≤ (i 0).val ∧ (i 0).val < k.val + 1 at h0
    omega
  · match a with
    | ⟨0, _⟩ =>
      change k.val ≤ (i 0).val ∧ (i 0).val < k.val + 1
      omega
    | ⟨1, _⟩ =>
      have h1 : (i 1).val < 1 := (i 1).isLt
      change 0 ≤ (i 1).val ∧ (i 1).val < 0 + 1
      omega
    | ⟨2, _⟩ =>
      have h2 : (i 2).val < 512 := (i 2).isLt
      change 0 ≤ (i 2).val ∧ (i 2).val < 0 + 512
      omega

/-- Different rows share no element. -/
theorem slot_disjoint : ∀ k ∈ (Finset.univ : Finset (Fin 7)), ∀ k' ∈ (Finset.univ : Finset (Fin 7)), k ≠ k' →
    Disjoint (slotM k).view.set (slotM k').view.set := by
  intro k _ k' _ hne
  rw [Finset.disjoint_left]
  intro i hi hi'
  rw [mem_slot_set] at hi hi'
  exact hne (Fin.ext (hi.symm.trans hi'))

/-- The seven rows are the whole buffer. -/
theorem slot_cover : (Finset.univ : Finset S7x1x512.Idx) = Finset.univ.biUnion fun k : Fin 7 => (slotM k).view.set := by
  ext i
  simp only [Finset.mem_univ, Finset.mem_biUnion, true_and, true_iff]
  exact ⟨⟨(i 0).val, (i 0).isLt⟩, (mem_slot_set _ i).mpr rfl⟩

/-- Where row k's view puts its index (a, j): at (k, a, j). -/
theorem slot_emb (k : Fin 7) (x : S1x512.Idx) :
    (slotM k).view.emb x = ValueIdx.ix3 (⟨k.val, k.isLt⟩ : Fin 7) (x 0) (x 1) := by
  show (Rect.unit (s := S7x1x512) ![k.val, 0, 0] S1x1x512.size (slot_inb k)).emb
      (Shape.reshapeEquiv squeezes_S1x1x512_S1x512.numel_eq x) = _
  rw [Shape.reshapeEquiv_cons_one]
  funext a
  apply Fin.ext
  rw [Rect.emb_apply]
  match a with
  | ⟨0, _⟩ => show k.val + 1 * 0 = k.val; omega
  | ⟨1, _⟩ => show 0 + 1 * (x 0).val = (x 0).val; omega
  | ⟨2, _⟩ => show 0 + 1 * (x 1).val = (x 1).val; omega

/-- The whole landing buffer at some contents is its seven rows, each at some contents. -/
theorem rcv_split (c : Dev nD) :
    (iprop(∃ f : Buf (Elt F) ((c : Thread nD τ).loc cc0_scratch1), ((c : Thread nD τ).loc cc0_scratch1) ↦{fullShare} f) : sProp 𝕄)
      ⊢ bigSep Finset.univ fun k : Fin 7 => iprop(∃ f, slotPts (F := F) c k f) := by
  refine exists_elim fun f => ?_
  refine (Entails.of_eq ?_).trans (bigSep_mono fun k _ => exists_intro (Φ := fun f => slotPts (F := F) c k f) f)
  unfold slotPts
  exact (congrArg (fun S => (((c : Thread nD τ).loc cc0_scratch1) ↦[S]{fullShare} f : sProp 𝕄)) slot_cover).trans
    (pointsTo_biUnion (ℓ := (c : Thread nD τ).loc cc0_scratch1) Finset.univ (fun k : Fin 7 => (slotM k).view.set) slot_disjoint)

/-- The seven rows, each holding its part of the landed contents, are the whole landing buffer at them. -/
theorem rcv_join (c : Dev nD) :
    (bigSep Finset.univ fun k : Fin 7 => slotPts c k (recvV m ρ c) : sProp 𝕄)
      ⊢ (((c : Thread nD τ).loc cc0_scratch1) ↦{fullShare} recvV m ρ c) := by
  refine Entails.of_eq ?_
  unfold slotPts
  exact (pointsTo_biUnion (ℓ := (c : Thread nD τ).loc cc0_scratch1) Finset.univ (fun k : Fin 7 => (slotM k).view.set) slot_disjoint).symm.trans
    (congrArg (fun S => (((c : Thread nD τ).loc cc0_scratch1) ↦[S]{fullShare} recvV m ρ c : sProp 𝕄)) slot_cover).symm

/-- Row k of device t after the copy of the device s = fwd t (6 - k) has landed on it, whatever it held before: the
    row's elements hold s's row of maxima, which is what the landed contents say there. -/
theorem landed_slot (t s : Dev nD) (k : Fin 7) (hs : s = fwd t k.rev) (fd : Buf (Elt F) ((slotM k).view.loc (t : Thread nD τ))) :
    ((slotM k).view.loc (t : Thread nD τ) ↦[(slotM k).view.set]{fullShare}
        ((slotM k).view.write (Elt F) fd ((ownM : Memref sig .tc .vmem S1x512 .f32).view.read (Elt F) (ownV m ρ s)) Finset.univ) : sProp 𝕄)
      ⊢ recvPay m ρ t k := by
  unfold recvPay slotPts
  refine Entails.of_eq (pointsTo_congr fun i hi => ?_)
  obtain ⟨x, rfl⟩ := View.exists_emb_of_mem_set _ hi
  rw [View.write_emb_of_mem _ _ (Finset.mem_univ x)]
  have hx : x = ValueIdx.ix2 (0 : Fin 1) (x 1) := by
    funext a
    match a with
    | ⟨0, _⟩ =>
      have h0 : (x 0).val < 1 := (x 0).isLt
      exact Fin.ext (show (x 0).val = 0 by omega)
    | ⟨1, _⟩ => rfl
  subst hs
  unfold recvV
  generalize ownV m ρ = G
  rw [slot_emb, View.read_apply, cast_cast, cast_eq]
  show G (fwd t k.rev) x = G (fwd t k.rev) (ValueIdx.ix2 (0 : Fin 1) (x 1))
  exact congrArg (G (fwd t k.rev)) hx

/-- The own row, whole: the share kept for the body's load and the seven shares lent to the copies. -/
theorem own_split (c : Dev nD) (f : Buf (Elt F) ((c : Thread nD τ).loc cc0_scratch0)) :
    ((((c : Thread nD τ).loc cc0_scratch0) ↦{fullShare} f) : sProp 𝕄)
      ⊣⊢ iprop(ownPts c qKeep f ∗ bigSep Finset.univ fun k : Fin 7 => ownPts c (qTok k) f) := by
  unfold ownPts
  rw [View.set_whole]
  exact Transfers.pointsTo_toks fullShare 7

end Cert.KernelIdeal.Prf

end
-- ==== Proof.Steps.lean ====
/-
  Single steps of a device's thread and the bookkeeping between them: the k-th copy, what the barrier wait hands
  over read as the seven peers' landing rows, the own row as stored, its split into the share kept and the seven
  lent, and the receive credits still owed written out one by one.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.State
import proofs.«900907_g7700000000000908_dist_max_ax0_shard0_i_m1024_n512_v7x_i8_f32_1_alg».proof.Proof.Levels
import proofs.«900907_g7700000000000908_dist_max_ax0_shard0_i_m1024_n512_v7x_i8_f32_1_alg».proof.Proof.Geom
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Reindexing a family over the seven offsets by k ↦ 6 - k. -/
theorem bigSep_rev (Φ : Fin 7 → sProp 𝕄) : bigSep Finset.univ (fun k : Fin 7 => Φ k.rev) = bigSep Finset.univ Φ :=
  (bigSep_univ_equiv Fin.revPerm Φ).symm

/-- What the k-th signal hands over, seen from the signaller: its own landing row 6 - k, and that its receive cell
    6 - k is at round 0. -/
theorem payload_bar_out (c : Dev nD) (k : Fin 7) :
    (Rd (F := F) m ρ).payload (barCell (fwd c k)) 0 k = iprop((∃ f, slotPts c k.rev f) ∗ reached ER (recvCell c k.rev) 0) := by
  rw [payload_bar]; unfold barPay; rw [fwd_fwd_rev]

/-- The whole of the barrier cell's round, read by the row each payload carries: for every j the landing row j of the
    device j + 1 places on, at some contents. -/
theorem bar_rows (c : Dev nD) :
    (bigSep Finset.univ (fun d : Fin 7 => (Rd (F := F) m ρ).payload (barCell c) 0 d) : sProp 𝕄)
      ⊢ bigSep Finset.univ fun j : Fin 7 => iprop(∃ f, slotPts (F := F) (fwd c j) j f) := by
  rw [show (fun d : Fin 7 => (Rd (F := F) m ρ).payload (barCell c) 0 d) = fun d : Fin 7 => barPay (F := F) c d from
    funext fun d => payload_bar m ρ c d]
  rw [← bigSep_rev (fun j : Fin 7 => iprop(∃ f, slotPts (F := F) (fwd c j) j f))]
  exact bigSep_mono fun d _ => by
    unfold barPay
    exact sep_elim_left (P := iprop(∃ f, slotPts (F := F) (fwd c d.rev) d.rev f)) (Q := reached ER (recvCell (fwd c d.rev) d.rev) 0)

/-! ## The buffers through their memrefs' views -/

omit [FloatOps F] in
theorem pts_x (c : Dev nD) (f : Buf (Elt F) ((c : Thread nD τ).loc cc0_stg0_0)) :
    ((((c : Thread nD τ).loc cc0_stg0_0) ↦{fullShare} f) : sProp 𝕄)
      = ((xM : Memref sig .tc .vmem S1024x512 .f32).view.loc (c : Thread nD τ) ↦[(xM : Memref sig .tc .vmem S1024x512 .f32).view.set]{fullShare} f) := by
  rw [View.set_whole]
omit [FloatOps F] in
theorem pts_o (c : Dev nD) (f : Buf (Elt F) ((c : Thread nD τ).loc cc0_stg1_0)) :
    ((((c : Thread nD τ).loc cc0_stg1_0) ↦{fullShare} f) : sProp 𝕄)
      = ((oM : Memref sig .tc .vmem S1x512 .f32).view.loc (c : Thread nD τ) ↦[(oM : Memref sig .tc .vmem S1x512 .f32).view.set]{fullShare} f) := by
  rw [View.set_whole]
omit [FloatOps F] in
theorem pts_own (c : Dev nD) (f : Buf (Elt F) ((c : Thread nD τ).loc cc0_scratch0)) :
    ((((c : Thread nD τ).loc cc0_scratch0) ↦{fullShare} f) : sProp 𝕄) = ownPts c fullShare f := by
  unfold ownPts; rw [View.set_whole]
omit [FloatOps F] in
theorem pts_rcv (c : Dev nD) (f : Buf (Elt F) ((c : Thread nD τ).loc cc0_scratch1)) :
    ((((c : Thread nD τ).loc cc0_scratch1) ↦{fullShare} f) : sProp 𝕄)
      = ((rcvM : Memref sig .tc .vmem S7x1x512 .f32).view.loc (c : Thread nD τ) ↦[(rcvM : Memref sig .tc .vmem S7x1x512 .f32).view.set]{fullShare} f) := by
  rw [View.set_whole]

omit [FloatOps F] in
/-- The own row, whole, is the share kept and the seven shares lent. -/
theorem own_shares (c : Dev nD) (f : Buf (Elt F) ((ownM : Memref sig .tc .vmem S1x512 .f32).view.loc (c : Thread nD τ))) :
    (ownPts c fullShare f : sProp 𝕄) ⊣⊢ iprop(ownPts c qKeep f ∗ bigSep Finset.univ fun k : Fin 7 => ownPts c (qTok k) f) := by
  unfold ownPts
  exact Transfers.pointsTo_toks fullShare 7

omit [FloatOps F] in
/-- The same with the whole row spelt through its memref's view, as a run of the body leaves it. -/
theorem own_shares' (c : Dev nD) (f : Buf (Elt F) ((ownM : Memref sig .tc .vmem S1x512 .f32).view.loc (c : Thread nD τ))) :
    (((ownM : Memref sig .tc .vmem S1x512 .f32).view.loc (c : Thread nD τ) ↦[(ownM : Memref sig .tc .vmem S1x512 .f32).view.set]{fullShare} f) : sProp 𝕄)
      ⊣⊢ iprop(ownPts c qKeep f ∗ bigSep Finset.univ fun k : Fin 7 => ownPts c (qTok k) f) := own_shares c f

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

set_option maxRecDepth 65536 in
/-- The own row after the store of the column maxima of the staged block, whatever it held before. -/
theorem own_stored (c : Dev nD) (fo : Buf (Elt F) ((c : Thread nD τ).loc cc0_scratch0)) :
    (ownM : Memref sig .tc .vmem S1x512 .f32).view.writes (Elt F) fo
      [⟨Rect.unit (s := S1x512) ![0, 0] S1x512.size inb_S1x512_S1x512_0_0,
        k0_pay2 (k0_pay1 (View.readAt (Elt F) (xM : Memref sig .tc .vmem S1024x512 .f32).view (Rect.unit (s := S1024x512) ![0, 0] S1024x512.size inb_S1024x512_S1024x512_0_0).toLoadRect (xstg m ρ c)))⟩]
      = ownV m ρ c := by
  have h1 : View.readAt (Elt F) (xM : Memref sig .tc .vmem S1024x512 .f32).view (Rect.unit (s := S1024x512) ![0, 0] S1024x512.size inb_S1024x512_S1024x512_0_0).toLoadRect (xstg m ρ c) = xstg m ρ c :=
    Memref.readAt_unit_zero (Elt F) cc0_stg0_0 hz2 _ (xstg m ρ c)
  rw [h1]
  unfold ownV
  rw [View.writes_singleton]
  exact Memref.write_access_unit_zero_univ (Elt F) cc0_scratch0 hz2 _ fo _

set_option maxRecDepth 65536 in
/-- The output block after the store of the larger of the own row and the seven landed ones, whatever it held before. -/
theorem out_stored (c : Dev nD) (g1 : Buf (Elt F) ((c : Thread nD τ).loc cc0_stg1_0)) :
    (oM : Memref sig .tc .vmem S1x512 .f32).view.writes (Elt F) g1
      [⟨Rect.unit (s := S1x512) ![0, 0] S1x512.size inb_S1x512_S1x512_0_0,
        k0_pay3
          (View.readAt (Elt F) (ownM : Memref sig .tc .vmem S1x512 .f32).view (Rect.unit (s := S1x512) ![0, 0] S1x512.size inb_S1x512_S1x512_0_0).toLoadRect (ownV m ρ c))
          (View.readAt (Elt F) (rcvM : Memref sig .tc .vmem S7x1x512 .f32).view (Rect.unit (s := S7x1x512) ![0, 0, 0] S7x1x512.size inb_S7x1x512_S7x1x512_0_0_0).toLoadRect (recvV m ρ c))⟩]
      = outAt m ρ c := by
  have h1 : View.readAt (Elt F) (ownM : Memref sig .tc .vmem S1x512 .f32).view (Rect.unit (s := S1x512) ![0, 0] S1x512.size inb_S1x512_S1x512_0_0).toLoadRect (ownV m ρ c) = ownV m ρ c :=
    Memref.readAt_unit_zero (Elt F) cc0_scratch0 hz2 _ (ownV m ρ c)
  have h2 : View.readAt (Elt F) (rcvM : Memref sig .tc .vmem S7x1x512 .f32).view (Rect.unit (s := S7x1x512) ![0, 0, 0] S7x1x512.size inb_S7x1x512_S7x1x512_0_0_0).toLoadRect (recvV m ρ c) = recvV m ρ c :=
    Memref.readAt_unit_zero (Elt F) cc0_scratch1 hz3 _ (recvV m ρ c)
  rw [h1, h2]
  unfold outAt
  rw [View.writes_singleton]
  exact Memref.write_access_unit_zero_univ (Elt F) cc0_stg1_0 hz2 _ g1 _

/-! ## The receive credits still owed, one by one -/

theorem owedRcv_all (c : Dev nD) :
    owedRcv c 0 = 0 + tallyAt (recvCell (fwd c 6) 6) () N + tallyAt (recvCell (fwd c 5) 5) () N + tallyAt (recvCell (fwd c 4) 4) () N
      + tallyAt (recvCell (fwd c 3) 3) () N + tallyAt (recvCell (fwd c 2) 2) () N + tallyAt (recvCell (fwd c 1) 1) () N
      + tallyAt (recvCell (fwd c 0) 0) () N := by
  rw [show owedRcv c 0 = owedRcv c 1 + tallyAt (recvCell (fwd c 0) 0) () N from owedRcv_peel c 0,
    show owedRcv c 1 = owedRcv c 2 + tallyAt (recvCell (fwd c 1) 1) () N from owedRcv_peel c 1,
    show owedRcv c 2 = owedRcv c 3 + tallyAt (recvCell (fwd c 2) 2) () N from owedRcv_peel c 2,
    show owedRcv c 3 = owedRcv c 4 + tallyAt (recvCell (fwd c 3) 3) () N from owedRcv_peel c 3,
    show owedRcv c 4 = owedRcv c 5 + tallyAt (recvCell (fwd c 4) 4) () N from owedRcv_peel c 4,
    show owedRcv c 5 = owedRcv c 6 + tallyAt (recvCell (fwd c 5) 5) () N from owedRcv_peel c 5,
    show owedRcv c 6 = owedRcv c 7 + tallyAt (recvCell (fwd c 6) 6) () N from owedRcv_peel c 6, owedRcv_seven]

theorem owedSig_all (c : Dev nD) :
    owedSig c 0 = tallyAt (barCell (fwd c 6)) () 1 + tallyAt (barCell (fwd c 5)) () 1 + tallyAt (barCell (fwd c 4)) () 1
      + tallyAt (barCell (fwd c 3)) () 1 + tallyAt (barCell (fwd c 2)) () 1 + tallyAt (barCell (fwd c 1)) () 1 + tallyAt (barCell (fwd c 0)) () 1 := by
  rw [show owedSig c 0 = owedSig c 1 + tallyAt (barCell (fwd c 0)) () 1 from owedSig_peel c 0,
    show owedSig c 1 = owedSig c 2 + tallyAt (barCell (fwd c 1)) () 1 from owedSig_peel c 1,
    show owedSig c 2 = owedSig c 3 + tallyAt (barCell (fwd c 2)) () 1 from owedSig_peel c 2,
    show owedSig c 3 = owedSig c 4 + tallyAt (barCell (fwd c 3)) () 1 from owedSig_peel c 3,
    show owedSig c 4 = owedSig c 5 + tallyAt (barCell (fwd c 4)) () 1 from owedSig_peel c 4,
    show owedSig c 5 = owedSig c 6 + tallyAt (barCell (fwd c 5)) () 1 from owedSig_peel c 5,
    show owedSig c 6 = owedSig c 7 + tallyAt (barCell (fwd c 6)) () 1 from owedSig_peel c 6, owedSig_seven, zero_add]

/-! ## The k-th copy -/

/-- The copy of the own row into landing row k of the device k + 1 places on: it lends the k-th share of the own row
    to the send cell, hands the receive cell of the target its row holding the own row's contents, and takes the
    row's credit off what the device owes. -/
theorem step_send (K : Dev nD × Fin 15 → ℕ) (c : Dev nD) (k : Fin 7) (n : Dev nD) (hn : n = fwd c k) (O : CellTallies nD τ sig Unit) (W : Waits sig Unit)
    {hsc : (slotM k : Memref sig (Dev.tc n : Thread nD τ).2.kind .vmem S1x512 .f32).view.ref.isScScratch = false}
    {hsrc : (ownM : Memref sig .tc .vmem S1x512 .f32).view.WordExact} {hdst : (slotM k : Memref sig .tc .vmem S1x512 .f32).view.WordExact}
    {hsem : DmaTarget.Typed .vmem (.dma (recvS k)) (.remote (Dev.tc n : Thread nD τ) (slotM k : Memref sig .tc .vmem S1x512 .f32) (.dma (sendS k)) hsc)}
    {α : Type} {Q : α → sProp 𝕄} {kont : PUnit → Prog (TpuEff nD τ sig (Elt F) Λ₀ .tc) α}
    (fn : Buf (Elt F) ((slotM k).view.loc (fwd c k : Thread nD τ))) :
    iprop(records m ρ K ∗ ownPts c (qTok k) (ownV m ρ c) ∗ slotPts (fwd c k) k fn
        ∗ owes (c : Thread nD τ) (O + tallyAt (recvCell (fwd c k) k) () N) W
        ∗ dutyTok ER (sendCell c k) 0 (0 : Fin 7) ∗ dutyTok ER (recvCell (fwd c k) k) 0 (0 : Fin 7))
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma ownM (.remote (Dev.tc n : Thread nD τ) (slotM k) (.dma (sendS k)) hsc) (.dma (recvS k)) hsrc hdst hsem) kont) Q) := by
  subst hn
  iintro ⟨#HR, Hown, Hslot, HO, HtS, HtV⟩
  unfold ownPts slotPts
  iapply (Rounds.wp_send_pointsTo 𝒱₀ ER (Rd m ρ) (c : Thread nD τ) none (κ₁ := K (c, iS k)) (κ₂ := K (fwd c k, iR k))
    (r₁ := 0) (r₂ := 0) (d₁ := (0 : Fin 7)) (d₂ := (0 : Fin 7)) (fd := fn) (q := qTok k) (fs := ownV m ρ c)
    (by rw [duties_send]; exact Finset.mem_singleton_self _) (by rw [duties_recv]; exact Finset.mem_singleton_self _)
    () () N rfl (amount_send m ρ c k 0) (amount_recv m ρ (fwd c k) k 0) O rfl (W := W)
    (by rw [payload_send]; unfold sendPay ownPts; exact BI.Entails.refl _)
    (by rw [payload_recv]; exact landed_slot m ρ (fwd c k) c k (fwd_fwd_rev c k).symm fn))
  isplitr; · iapply (inv_send m ρ K c k); iexact HR
  isplitr; · iapply (inv_recv m ρ K (fwd c k) k); iexact HR
  isplitl [Hown]; · iexact Hown
  isplitl [Hslot]; · iexact Hslot
  isplitl [HO]; · iexact HO
  isplitl [HtS]; · iexact HtS
  isplitr; · iapply (reached_send m ρ K c k); iexact HR
  isplitl [HtV]; · iexact HtV
  iapply (reached_recv m ρ K (fwd c k) k); iexact HR

end Cert.KernelIdeal.Prf

end
-- ==== Proof.Finish.lean ====
/-
  The end of a device's thread: its fourteen own cells, each one round past its only duty, closed with their counters
  at zero, and the own row's eight shares put back together.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.State
import proofs.«900907_g7700000000000908_dist_max_ax0_shard0_i_m1024_n512_v7x_i8_f32_1_alg».proof.Proof.Levels
import proofs.«900907_g7700000000000908_dist_max_ax0_shard0_i_m1024_n512_v7x_i8_f32_1_alg».proof.Proof.Geom
import proofs.«900907_g7700000000000908_dist_max_ax0_shard0_i_m1024_n512_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A send cell has no duty from round 1 on: its owner, at round 1 having taken nothing of it, closes it and keeps the
    counter at zero. -/
theorem close_send (K : Dev nD × Fin 15 → ℕ) (c : Dev nD) (k : Fin 7) :
    iprop(records m ρ K ∗ atPos ER (sendCell c k) 1 ∅ 0) ⊢ |={Set.univ}=> semVal (sendCell c k) 0 := by
  iintro ⟨#HR, Hat⟩
  iapply (Rounds.cell_close ER (Rd m ρ) (κ := K (c, iS k)) (Set.mem_univ _) (fun h => h) (R := 1) (duties_later m ρ _))
  isplitr
  · iapply (inv_send m ρ K c k); iexact HR
  · iexact Hat

/-- Likewise a receive cell. -/
theorem close_recv (K : Dev nD × Fin 15 → ℕ) (c : Dev nD) (k : Fin 7) :
    iprop(records m ρ K ∗ atPos ER (recvCell c k) 1 ∅ 0) ⊢ |={Set.univ}=> semVal (recvCell c k) 0 := by
  iintro ⟨#HR, Hat⟩
  iapply (Rounds.cell_close ER (Rd m ρ) (κ := K (c, iR k)) (Set.mem_univ _) (fun h => h) (R := 1) (duties_later m ρ _))
  isplitr
  · iapply (inv_recv m ρ K c k); iexact HR
  · iexact Hat

/-- The seven send cells at once: the records, being persistent, go to each. -/
theorem close_sends (K : Dev nD × Fin 15 → ℕ) (c : Dev nD) :
    iprop(records m ρ K ∗ bigSep Finset.univ fun k : Fin 7 => atPos ER (sendCell c k) 1 ∅ 0)
      ⊢ |={Set.univ}=> bigSep Finset.univ fun k : Fin 7 => semVal (sendCell c k) 0 :=
  ((sep_mono_left (BI.bigSep_of_persistent Finset.univ (records m ρ K))).trans
    (by rw [← bigSep_sep']; exact bigSep_mono fun k _ => close_send m ρ K c k)).trans (bigSep_fupd _ _)

/-- The seven receive cells at once. -/
theorem close_recvs (K : Dev nD × Fin 15 → ℕ) (c : Dev nD) :
    iprop(records m ρ K ∗ bigSep Finset.univ fun k : Fin 7 => atPos ER (recvCell c k) 1 ∅ 0)
      ⊢ |={Set.univ}=> bigSep Finset.univ fun k : Fin 7 => semVal (recvCell c k) 0 :=
  ((sep_mono_left (BI.bigSep_of_persistent Finset.univ (records m ρ K))).trans
    (by rw [← bigSep_sep']; exact bigSep_mono fun k _ => close_recv m ρ K c k)).trans (bigSep_fupd _ _)

/-- The share kept and the seven shares lent, all at one contents, are the own row whole again. -/
theorem own_back (c : Dev nD) (f : Buf (Elt F) ((ownM : Memref sig .tc .vmem S1x512 .f32).view.loc (c : Thread nD τ))) :
    iprop(ownPts c qKeep f ∗ bigSep Finset.univ fun k : Fin 7 => ownPts c (qTok k) f)
      ⊢ iprop(∃ f' : Buf (Elt F) ((c : Thread nD τ).loc cc0_scratch0), ((c : Thread nD τ).loc cc0_scratch0) ↦{fullShare} f') := by
  refine (own_shares c f).2.trans ?_
  refine (Entails.of_eq (pts_own c f).symm).trans ?_
  exact exists_intro (Φ := fun f' : Buf (Elt F) ((c : Thread nD τ).loc cc0_scratch0) => (((c : Thread nD τ).loc cc0_scratch0) ↦{fullShare} f' : sProp 𝕄)) f

end Cert.KernelIdeal.Prf

end
-- ==== Proof.Body.lean ====
/-
  One device's thread through the kernel body.

  The thread signals the seven other devices' barrier cells, handing each the landing row that device's copy will
  write; stores its row of column maxima; waits for seven units on its own barrier cell and so holds, for every k,
  landing row k of the device k + 1 places on; copies its row there, lending one share of it to each copy; waits its
  seven receive cells and so holds its landing buffer with row k the row of maxima of the device k + 1 places before;
  stores the larger of its own row and the seven; waits its seven send cells and has its row whole again. All it
  owes is paid by then, its fourteen own cells close at zero, and its two scratch buffers go back.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.State
import proofs.«900907_g7700000000000908_dist_max_ax0_shard0_i_m1024_n512_v7x_i8_f32_1_alg».proof.Proof.Levels
import proofs.«900907_g7700000000000908_dist_max_ax0_shard0_i_m1024_n512_v7x_i8_f32_1_alg».proof.Proof.Geom
import proofs.«900907_g7700000000000908_dist_max_ax0_shard0_i_m1024_n512_v7x_i8_f32_1_alg».proof.Proof.Steps
import proofs.«900907_g7700000000000908_dist_max_ax0_shard0_i_m1024_n512_v7x_i8_f32_1_alg».proof.Proof.Finish
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
attribute [local sl_rounds] duties_bar duties_send duties_recv amount_bar amount_send amount_recv expect_bar expect_send expect_recv
  payload_bar_out payload_send payload_recv
attribute [local sl_canon] dev1_eq dev2_eq dev3_eq dev4_eq dev5_eq dev6_eq dev7_eq dev8_eq dev9_eq dev10_eq dev11_eq dev12_eq dev13_eq dev14_eq

set_option maxHeartbeats 6400000 in
set_option maxRecDepth 65536 in
/-- The body from its precondition to its postcondition, the continuation kept abstract. -/
theorem sound_body (K : Dev nD × Fin 15 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyPre ghost linear payToks
  iintro ⟨⟨⟨⟨#HR, HaB, HaS, HaV, HtB, HtV, HtS⟩, HcB, HcV, #Hlev, ⟨%fo, Hown⟩, ⟨%fr, Hrcv⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave HtB' := (Entails.of_eq (bigSep_fin7 _)) $$ HtB
  icases HtB' with ⟨HtB0, HtB1, HtB2, HtB3, HtB4, HtB5, HtB6⟩
  ihave HtV' := (Entails.of_eq (bigSep_fin7 _)) $$ HtV
  icases HtV' with ⟨HtV0, HtV1, HtV2, HtV3, HtV4, HtV5, HtV6⟩
  ihave HtS' := (Entails.of_eq (bigSep_fin7 _)) $$ HtS
  icases HtS' with ⟨HtS0, HtS1, HtS2, HtS3, HtS4, HtS5, HtS6⟩
  ihave HaS' := (Entails.of_eq (bigSep_fin7 _)) $$ HaS
  icases HaS' with ⟨HaS0, HaS1, HaS2, HaS3, HaS4, HaS5, HaS6⟩
  ihave HaV' := (Entails.of_eq (bigSep_fin7 _)) $$ HaV
  icases HaV' with ⟨HaV0, HaV1, HaV2, HaV3, HaV4, HaV5, HaV6⟩
  ihave HcV' := (Entails.of_eq (bigSep_fin7 _)) $$ HcV
  icases HcV' with ⟨HcV0, HcV1, HcV2, HcV3, HcV4, HcV5, HcV6⟩
  ihave Hsl := (rcv_split (F := F) c) $$ [Hrcv]
  · iexists fr; iexact Hrcv
  ihave Hsl' := (Entails.of_eq (bigSep_fin7 _)) $$ Hsl
  icases Hsl' with ⟨Hs0, Hs1, Hs2, Hs3, Hs4, Hs5, Hs6⟩
  ihave #HIbar := (inv_bar m ρ K c) $$ HR
  ihave #HIb0 := (inv_bar m ρ K (fwd c 0)) $$ HR
  ihave #Hrb0 := (reached_bar m ρ K (fwd c 0)) $$ HR
  ihave #Hrv0 := (reached_recv m ρ K c 0) $$ HR
  ihave #HIp0 := (inv_recv m ρ K (fwd c 0) 0) $$ HR
  ihave #Hrp0 := (reached_recv m ρ K (fwd c 0) 0) $$ HR
  ihave #HIs0 := (inv_send m ρ K c 0) $$ HR
  ihave #Hrs0 := (reached_send m ρ K c 0) $$ HR
  ihave #HIr0 := (inv_recv m ρ K c 0) $$ HR
  ihave #HIb1 := (inv_bar m ρ K (fwd c 1)) $$ HR
  ihave #Hrb1 := (reached_bar m ρ K (fwd c 1)) $$ HR
  ihave #Hrv1 := (reached_recv m ρ K c 1) $$ HR
  ihave #HIp1 := (inv_recv m ρ K (fwd c 1) 1) $$ HR
  ihave #Hrp1 := (reached_recv m ρ K (fwd c 1) 1) $$ HR
  ihave #HIs1 := (inv_send m ρ K c 1) $$ HR
  ihave #Hrs1 := (reached_send m ρ K c 1) $$ HR
  ihave #HIr1 := (inv_recv m ρ K c 1) $$ HR
  ihave #HIb2 := (inv_bar m ρ K (fwd c 2)) $$ HR
  ihave #Hrb2 := (reached_bar m ρ K (fwd c 2)) $$ HR
  ihave #Hrv2 := (reached_recv m ρ K c 2) $$ HR
  ihave #HIp2 := (inv_recv m ρ K (fwd c 2) 2) $$ HR
  ihave #Hrp2 := (reached_recv m ρ K (fwd c 2) 2) $$ HR
  ihave #HIs2 := (inv_send m ρ K c 2) $$ HR
  ihave #Hrs2 := (reached_send m ρ K c 2) $$ HR
  ihave #HIr2 := (inv_recv m ρ K c 2) $$ HR
  ihave #HIb3 := (inv_bar m ρ K (fwd c 3)) $$ HR
  ihave #Hrb3 := (reached_bar m ρ K (fwd c 3)) $$ HR
  ihave #Hrv3 := (reached_recv m ρ K c 3) $$ HR
  ihave #HIp3 := (inv_recv m ρ K (fwd c 3) 3) $$ HR
  ihave #Hrp3 := (reached_recv m ρ K (fwd c 3) 3) $$ HR
  ihave #HIs3 := (inv_send m ρ K c 3) $$ HR
  ihave #Hrs3 := (reached_send m ρ K c 3) $$ HR
  ihave #HIr3 := (inv_recv m ρ K c 3) $$ HR
  ihave #HIb4 := (inv_bar m ρ K (fwd c 4)) $$ HR
  ihave #Hrb4 := (reached_bar m ρ K (fwd c 4)) $$ HR
  ihave #Hrv4 := (reached_recv m ρ K c 4) $$ HR
  ihave #HIp4 := (inv_recv m ρ K (fwd c 4) 4) $$ HR
  ihave #Hrp4 := (reached_recv m ρ K (fwd c 4) 4) $$ HR
  ihave #HIs4 := (inv_send m ρ K c 4) $$ HR
  ihave #Hrs4 := (reached_send m ρ K c 4) $$ HR
  ihave #HIr4 := (inv_recv m ρ K c 4) $$ HR
  ihave #HIb5 := (inv_bar m ρ K (fwd c 5)) $$ HR
  ihave #Hrb5 := (reached_bar m ρ K (fwd c 5)) $$ HR
  ihave #Hrv5 := (reached_recv m ρ K c 5) $$ HR
  ihave #HIp5 := (inv_recv m ρ K (fwd c 5) 5) $$ HR
  ihave #Hrp5 := (reached_recv m ρ K (fwd c 5) 5) $$ HR
  ihave #HIs5 := (inv_send m ρ K c 5) $$ HR
  ihave #Hrs5 := (reached_send m ρ K c 5) $$ HR
  ihave #HIr5 := (inv_recv m ρ K c 5) $$ HR
  ihave #HIb6 := (inv_bar m ρ K (fwd c 6)) $$ HR
  ihave #Hrb6 := (reached_bar m ρ K (fwd c 6)) $$ HR
  ihave #Hrv6 := (reached_recv m ρ K c 6) $$ HR
  ihave #HIp6 := (inv_recv m ρ K (fwd c 6) 6) $$ HR
  ihave #Hrp6 := (reached_recv m ρ K (fwd c 6) 6) $$ HR
  ihave #HIs6 := (inv_send m ρ K c 6) $$ HR
  ihave #Hrs6 := (reached_send m ρ K c 6) $$ HR
  ihave #HIr6 := (inv_recv m ρ K c 6) $$ HR

  ihave Hx := (Entails.of_eq (pts_x (F := F) c _)) $$ Hx
  ihave Hout := (Entails.of_eq (pts_o (F := F) c _)) $$ Hout
  ihave Hown := (Entails.of_eq (pts_own (F := F) c _)) $$ Hown
  unfold ownPts
  have hmw := mayWait_bar (F := F) c
  unfold O₀
  rw [owedSig_all c]
  sl_exec

  -- the own row as stored is the row of column maxima
  rw [own_stored m ρ c fo]
  -- its share kept and the seven lent
  ihave Hsh := ((own_shares' (F := F) c _).1) $$ Hown
  icases Hsh with ⟨Hkeep, Htoks⟩
  ihave Htoks' := (Entails.of_eq (bigSep_fin7 _)) $$ Htoks
  icases Htoks' with ⟨Hq0, Hq1, Hq2, Hq3, Hq4, Hq5, Hq6⟩
  -- the peers' landing rows the barrier round handed over
  ihave Hrows := (bar_rows m ρ c) $$ HaB_pay1
  ihave Hrows' := (Entails.of_eq (bigSep_fin7 _)) $$ Hrows
  icases Hrows' with ⟨⟨%fp0, Hp0⟩, ⟨%fp1, Hp1⟩, ⟨%fp2, Hp2⟩, ⟨%fp3, Hp3⟩, ⟨%fp4, Hp4⟩, ⟨%fp5, Hp5⟩, ⟨%fp6, Hp6⟩⟩
  rw [owedRcv_all c]
  -- copy 0
  iapply (step_send m ρ K c 0 _ (dev8_eq c) (0 + tallyAt (recvCell (fwd c 6) 6) () N + tallyAt (recvCell (fwd c 5) 5) () N + tallyAt (recvCell (fwd c 4) 4) () N + tallyAt (recvCell (fwd c 3) 3) () N + tallyAt (recvCell (fwd c 2) 2) () N + tallyAt (recvCell (fwd c 1) 1) () N) _ fp0) $$ [Hq0 Hp0 HO HtS0 HtV0]
  · isplitr; · iexact HR
    isplitl [Hq0]; · iexact Hq0
    isplitl [Hp0]; · iexact Hp0
    isplitl [HO]; · iexact HO
    isplitl [HtS0]; · iexact HtS0
    iexact HtV0
  iintro ⟨Hcs0, HO⟩
  -- copy 1
  iapply (step_send m ρ K c 1 _ (dev9_eq c) (0 + tallyAt (recvCell (fwd c 6) 6) () N + tallyAt (recvCell (fwd c 5) 5) () N + tallyAt (recvCell (fwd c 4) 4) () N + tallyAt (recvCell (fwd c 3) 3) () N + tallyAt (recvCell (fwd c 2) 2) () N) _ fp1) $$ [Hq1 Hp1 HO HtS1 HtV1]
  · isplitr; · iexact HR
    isplitl [Hq1]; · iexact Hq1
    isplitl [Hp1]; · iexact Hp1
    isplitl [HO]; · iexact HO
    isplitl [HtS1]; · iexact HtS1
    iexact HtV1
  iintro ⟨Hcs1, HO⟩
  -- copy 2
  iapply (step_send m ρ K c 2 _ (dev10_eq c) (0 + tallyAt (recvCell (fwd c 6) 6) () N + tallyAt (recvCell (fwd c 5) 5) () N + tallyAt (recvCell (fwd c 4) 4) () N + tallyAt (recvCell (fwd c 3) 3) () N) _ fp2) $$ [Hq2 Hp2 HO HtS2 HtV2]
  · isplitr; · iexact HR
    isplitl [Hq2]; · iexact Hq2
    isplitl [Hp2]; · iexact Hp2
    isplitl [HO]; · iexact HO
    isplitl [HtS2]; · iexact HtS2
    iexact HtV2
  iintro ⟨Hcs2, HO⟩
  -- copy 3
  iapply (step_send m ρ K c 3 _ (dev11_eq c) (0 + tallyAt (recvCell (fwd c 6) 6) () N + tallyAt (recvCell (fwd c 5) 5) () N + tallyAt (recvCell (fwd c 4) 4) () N) _ fp3) $$ [Hq3 Hp3 HO HtS3 HtV3]
  · isplitr; · iexact HR
    isplitl [Hq3]; · iexact Hq3
    isplitl [Hp3]; · iexact Hp3
    isplitl [HO]; · iexact HO
    isplitl [HtS3]; · iexact HtS3
    iexact HtV3
  iintro ⟨Hcs3, HO⟩
  -- copy 4
  iapply (step_send m ρ K c 4 _ (dev12_eq c) (0 + tallyAt (recvCell (fwd c 6) 6) () N + tallyAt (recvCell (fwd c 5) 5) () N) _ fp4) $$ [Hq4 Hp4 HO HtS4 HtV4]
  · isplitr; · iexact HR
    isplitl [Hq4]; · iexact Hq4
    isplitl [Hp4]; · iexact Hp4
    isplitl [HO]; · iexact HO
    isplitl [HtS4]; · iexact HtS4
    iexact HtV4
  iintro ⟨Hcs4, HO⟩
  -- copy 5
  iapply (step_send m ρ K c 5 _ (dev13_eq c) (0 + tallyAt (recvCell (fwd c 6) 6) () N) _ fp5) $$ [Hq5 Hp5 HO HtS5 HtV5]
  · isplitr; · iexact HR
    isplitl [Hq5]; · iexact Hq5
    isplitl [Hp5]; · iexact Hp5
    isplitl [HO]; · iexact HO
    isplitl [HtS5]; · iexact HtS5
    iexact HtV5
  iintro ⟨Hcs5, HO⟩
  -- copy 6
  iapply (step_send m ρ K c 6 _ (dev14_eq c) (0) _ fp6) $$ [Hq6 Hp6 HO HtS6 HtV6]
  · isplitr; · iexact HR
    isplitl [Hq6]; · iexact Hq6
    isplitl [Hp6]; · iexact Hp6
    isplitl [HO]; · iexact HO
    isplitl [HtS6]; · iexact HtS6
    iexact HtV6
  iintro ⟨Hcs6, HO⟩
  -- the seven receive waits, and the load of the own row through the share kept
  unfold ownPts
  sl_exec
  -- the seven landed rows are the landing buffer at the landed contents
  unfold recvPay
  ihave Hrcv := (rcv_join m ρ c) $$ [HaV0_pay1 HaV1_pay1 HaV2_pay1 HaV3_pay1 HaV4_pay1 HaV5_pay1 HaV6_pay1]
  · iapply (Entails.of_eq (bigSep_fin7 (fun k : Fin 7 => slotPts c k (recvV m ρ c))).symm)
    isplitl [HaV0_pay1]; · iexact HaV0_pay1
    isplitl [HaV1_pay1]; · iexact HaV1_pay1
    isplitl [HaV2_pay1]; · iexact HaV2_pay1
    isplitl [HaV3_pay1]; · iexact HaV3_pay1
    isplitl [HaV4_pay1]; · iexact HaV4_pay1
    isplitl [HaV5_pay1]; · iexact HaV5_pay1
    iexact HaV6_pay1
  ihave Hrcv := (Entails.of_eq (pts_rcv (F := F) c _)) $$ Hrcv
  -- the loads of the landing buffer and of the output block, the store of the result, the seven send waits
  sl_exec
  -- the output block holds the result
  rw [out_stored m ρ c g1, wp_ret]
  -- the fourteen own cells close: their counters at zero are the device's again
  imod (close_sends m ρ K c) $$ [HaS0 HaS1 HaS2 HaS3 HaS4 HaS5 HaS6] with HzS
  · isplitr; · iexact HR
    iapply (Entails.of_eq (bigSep_fin7 (fun k : Fin 7 => atPos ER (sendCell c k) 1 ∅ 0)).symm)
    isplitl [HaS0]; · iexact HaS0
    isplitl [HaS1]; · iexact HaS1
    isplitl [HaS2]; · iexact HaS2
    isplitl [HaS3]; · iexact HaS3
    isplitl [HaS4]; · iexact HaS4
    isplitl [HaS5]; · iexact HaS5
    iexact HaS6
  imod (close_recvs m ρ K c) $$ [HaV0 HaV1 HaV2 HaV3 HaV4 HaV5 HaV6] with HzV
  · isplitr; · iexact HR
    iapply (Entails.of_eq (bigSep_fin7 (fun k : Fin 7 => atPos ER (recvCell c k) 1 ∅ 0)).symm)
    isplitl [HaV0]; · iexact HaV0
    isplitl [HaV1]; · iexact HaV1
    isplitl [HaV2]; · iexact HaV2
    isplitl [HaV3]; · iexact HaV3
    isplitl [HaV4]; · iexact HaV4
    isplitl [HaV5]; · iexact HaV5
    iexact HaV6
  imodintro
  iapply Hk
  unfold bodyPost Φ₁ Dat.owesAt Pipeline.owesWithin sendPay ownPts
  rw [show (dats m ρ 0 c).owed t₀.succ = 0 from rfl]
  isplitl [Hkeep HaS0_pay1 HaS1_pay1 HaS2_pay1 HaS3_pay1 HaS4_pay1 HaS5_pay1 HaS6_pay1 Hrcv HzS HzV]
  · -- the own row: the share kept and the seven returned are the whole again
    isplitl [Hkeep HaS0_pay1 HaS1_pay1 HaS2_pay1 HaS3_pay1 HaS4_pay1 HaS5_pay1 HaS6_pay1]
    · iapply (own_back (F := F) c (ownV m ρ c))
      unfold ownPts
      isplitl [Hkeep]; · iexact Hkeep
      iapply (Entails.of_eq (bigSep_fin7 (fun k : Fin 7 =>
        ((ownM : Memref sig .tc .vmem S1x512 .f32).view.loc (c : Thread nD τ) ↦[(ownM : Memref sig .tc .vmem S1x512 .f32).view.set]{qTok k} ownV m ρ c : sProp 𝕄))).symm)
      isplitl [HaS0_pay1]; · iexact HaS0_pay1
      isplitl [HaS1_pay1]; · iexact HaS1_pay1
      isplitl [HaS2_pay1]; · iexact HaS2_pay1
      isplitl [HaS3_pay1]; · iexact HaS3_pay1
      isplitl [HaS4_pay1]; · iexact HaS4_pay1
      isplitl [HaS5_pay1]; · iexact HaS5_pay1
      iexact HaS6_pay1
    isplitl [Hrcv]
    · iexists (recvV m ρ c)
      iapply (Entails.of_eq (pts_rcv (F := F) c _).symm); iexact Hrcv
    isplitl [HzS]; · iexact HzS
    iexact HzV
  isplitl [HO]
  · iexists _
    isplitr
    swap
    · iexact HO
    · ipureintro; exact fun _ _ => Or.inl trivial
  isplitl [Hx]
  · iexists _; isplitr; · (ipureintro; rfl)
    iapply (Entails.of_eq (pts_x (F := F) c _).symm); iexact Hx
  iexists _; isplitr; · (ipureintro; rfl)
  iapply (Entails.of_eq (pts_o (F := F) c _).symm); iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV, Hlev⟩, Hs0, Hs1⟩, Ho, Hx, Hout⟩
  iapply (sound_body m ρ K c fun _ => bodyPost m ρ c)
  unfold bodyPre
  isplitr []
  · isplitl [Hg HcB HcV Hlev Hs0 Hs1]
    · isplitl [Hg]; · iexact Hg
      isplitl [HcB]; · iexact HcB
      isplitl [HcV]; · iexact HcV
      isplitl [Hlev]; · iexact Hlev
      isplitl [Hs0]; · iexact Hs0
      iexact Hs1
    isplitl [Ho]; · iexact Ho
    isplitl [Hx] <;> iassumption
  · iintro H; iexact H

end Cert.KernelIdeal.Prf

end
-- ==== Proof.LaunchGhost.lean ====
/-
  The launch's ghost state: the handshake's cells and duty tokens minted, dealt to the devices, and every cell's
  invariant allocated for all devices under one update.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.State
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the minted tokens -/

theorem kcell_injective : Function.Injective (kcell : Dev nD × Fin 15 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl
def ringCells : Finset (GSem nD τ sig) := Finset.univ.map ⟨kcell, kcell_injective⟩

/-- Semaphore and duty name of an own token: family 0 is the barrier cell's duty k, family 1 the one duty of send
    cell k, family 2 the one duty of receive cell k. -/
abbrev tokKey (jk : Fin 3 × Fin 7) : SemLoc sig × Fin 7 := match jk.1 with
  | 0 => (.reg barS, jk.2) | 1 => (.dma (sendS jk.2), 0) | 2 => (.dma (recvS jk.2), 0)
theorem tokKey_injective : Function.Injective tokKey := by decide

/-- The twenty-one duty tokens of a device's own cells, as minted: (device, family, k). -/
abbrev tokOf (x : Dev nD × Fin 3 × Fin 7) : GSem nD τ sig × ℕ × Fin 7 := (((x.1 : Thread nD τ), (tokKey x.2).1), 0, (tokKey x.2).2)
theorem tokOf_injective : Function.Injective (tokOf : Dev nD × Fin 3 × Fin 7 → GSem nD τ sig × ℕ × Fin 7) := by
  rintro ⟨c, jk⟩ ⟨c', jk'⟩ h
  have h1 : c = c' := congrArg (fun x : GSem nD τ sig × ℕ × Fin 7 => x.1.1.1) h
  subst h1
  have h2 : jk = jk' := tokKey_injective (Prod.ext (congrArg (fun x : GSem nD τ sig × ℕ × Fin 7 => x.1.2) h)
    (congrArg (fun x : GSem nD τ sig × ℕ × Fin 7 => x.2.2) h))
  subst h2; rfl

/-- The minted duty tokens. -/
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device c's own cells: its barrier cell's seven, and the one of each send and receive cell. -/
def toks (c : Dev nD) : sProp 𝕄 :=
  iprop((bigSep Finset.univ fun k : Fin 7 => dutyTok ER (barCell c) 0 k)
    ∗ (bigSep Finset.univ fun k : Fin 7 => dutyTok ER (sendCell c k) 0 (0 : Fin 7))
    ∗ (bigSep Finset.univ fun k : Fin 7 => dutyTok ER (recvCell c k) 0 (0 : Fin 7)))

/-- What the launch element deals device c. -/
def G (c : Dev nD) : sProp 𝕄 :=
  iprop((bigSep Finset.univ fun j : Fin 15 => roundState ER (Rd m ρ) (kcell (c, j)) 0)
    ∗ (bigSep Finset.univ fun j : Fin 15 => iprop(atPos ER (kcell (c, j)) 0 ∅ 0 ∗ reached ER (kcell (c, j)) 0)) ∗ toks c)

/-- What the global step makes of it. -/
def G' (c : Dev nD) : sProp 𝕄 := iprop(∃ K, ghost m ρ K c)

/-! ## Sums over the three token families and over the fifteen cells -/

omit [FloatOps F] in
theorem bigSep_fam3 (Φ : Fin 3 → sProp 𝕄) : bigSep Finset.univ Φ = iprop(Φ 0 ∗ Φ 1 ∗ Φ 2) := bigSep_univ_eq_bigSepL [0, 1, 2] (by decide) (by decide) Φ

theorem iS_injective : Function.Injective iS := by decide
theorem iR_injective : Function.Injective iR := by decide
theorem univ_fin15 : (Finset.univ : Finset (Fin 15)) = insert 0 (Finset.univ.map ⟨iS, iS_injective⟩ ∪ Finset.univ.map ⟨iR, iR_injective⟩) := by decide
theorem univ_fin15_succ : (Finset.univ : Finset (Fin 15)) = insert 0 (Finset.univ.map ⟨Fin.succ, Fin.succ_injective 14⟩) := by decide

omit [FloatOps F] in
/-- A sum over a device's fifteen cells: the barrier cell, the seven send cells, the seven receive cells. -/
theorem bigSep_fin15 (Φ : Fin 15 → sProp 𝕄) :
    bigSep Finset.univ Φ = iprop(Φ 0 ∗ (bigSep Finset.univ fun k : Fin 7 => Φ (iS k)) ∗ bigSep Finset.univ fun k : Fin 7 => Φ (iR k)) := by
  rw [univ_fin15, bigSep_insert (by decide), bigSep_union (by decide), bigSep_map, bigSep_map]; rfl

omit [FloatOps F] in
/-- The same sum: the barrier cell, then the fourteen others in order. -/
theorem bigSep_fin15_succ (Φ : Fin 15 → sProp 𝕄) :
    bigSep Finset.univ Φ = iprop(Φ 0 ∗ bigSep Finset.univ fun i : Fin 14 => Φ i.succ) := by
  rw [univ_fin15_succ, bigSep_insert (by decide), bigSep_map]; rfl

/-! ## Funding -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : Fin 15 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_prod, bigSep_fam3]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The global step -/

theorem csem_succ : ∀ i : Fin 14, csem i.succ = osem i := by decide

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The fourteen own semaphores and the barrier semaphore are the counters of the device's fifteen cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 15 => semVal (kcell (c, j)) 0 : sProp 𝕄) := by
  rw [unscopedSems0_eq, bigSep_fin15_succ]
  have e : (bigSep Finset.univ fun i : Fin 14 => (semVal (kcell (c, i.succ)) 0 : sProp 𝕄))
      = Pipeline.ownSems0 (Ix := Unit) (Name := ℕ) (U := UU) (Lvl := ℕ) (Val := Elt F) (τ := τ) osem c := by
    unfold Pipeline.ownSems0
    exact bigSep_congr fun i _ => by show semVal ((c : Thread nD τ), csem i.succ) 0 = _; rw [csem_succ]
  rw [e, kcell_bar]
  iintro ⟨HS, HB⟩
  isplitl [HB] <;> iassumption

/-- Each cell's counter at zero and round state at zero allocate its invariant; the positions, the reached marks and
    the tokens pass through. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 15 => iprop(∃ κ : ℕ, cellInv ER (Rd m ρ) κ (kcell (c, j))))
          ∗ (bigSep Finset.univ fun j : Fin 15 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 15 => semVal (kcell (c, j)) 0) ∗ bigSep Finset.univ fun j : Fin 15 => roundState ER (Rd m ρ) (kcell (c, j)) 0)
      ⊢ (|={Set.univ}=> bigSep Finset.univ fun j : Fin 15 => iprop(∃ κ : ℕ, cellInv ER (Rd m ρ) κ (kcell (c, j))) : sProp 𝕄) from by
        rw [← bigSep_sep']
        exact (bigSep_mono fun j _ => (Rounds.body_intro ER (Rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 15 → ℕ) (c : Dev nD) : iprop(records m ρ K ∗ linear c) ⊢ G' m ρ c := by
  unfold G' ghost
  iintro H
  iexists K
  iexact H

omit [FloatOps F] in
/-- The tokens dealt around the ring: duty k of a barrier cell, and the one duty of receive cell k, go to the device
    k + 1 places before the cell's owner, whose k-th signal and k-th copy address that owner; the send tokens stay. -/
theorem toks_around : (bigSep Finset.univ fun c : Dev nD => (toks c : sProp 𝕄)) ⊢ bigSep Finset.univ fun c : Dev nD => payToks c := by
  have hB : (bigSep Finset.univ fun c : Dev nD => bigSep Finset.univ fun k : Fin 7 => (dutyTok ER (barCell c) 0 k : sProp 𝕄))
      = bigSep Finset.univ fun c : Dev nD => bigSep Finset.univ fun k : Fin 7 => dutyTok ER (barCell (fwd c k)) 0 k := by
    rw [bigSep_univ_comm, bigSep_univ_comm (fun (c : Dev nD) (k : Fin 7) => (dutyTok ER (barCell (fwd c k)) 0 k : sProp 𝕄))]
    exact bigSep_congr fun k _ => bigSep_univ_equiv (turn k) (fun t : Dev nD => (dutyTok ER (barCell t) 0 k : sProp 𝕄))
  have hR : (bigSep Finset.univ fun c : Dev nD => bigSep Finset.univ fun k : Fin 7 => (dutyTok ER (recvCell c k) 0 (0 : Fin 7) : sProp 𝕄))
      = bigSep Finset.univ fun c : Dev nD => bigSep Finset.univ fun k : Fin 7 => dutyTok ER (recvCell (fwd c k) k) 0 (0 : Fin 7) := by
    rw [bigSep_univ_comm, bigSep_univ_comm (fun (c : Dev nD) (k : Fin 7) => (dutyTok ER (recvCell (fwd c k) k) 0 (0 : Fin 7) : sProp 𝕄))]
    exact bigSep_congr fun k _ => bigSep_univ_equiv (turn k) (fun t : Dev nD => (dutyTok ER (recvCell t k) 0 (0 : Fin 7) : sProp 𝕄))
  unfold toks payToks
  rw [bigSep_sep', bigSep_sep', bigSep_sep', bigSep_sep', hB, hR]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's fifteen positions, and the tokens it pays with, are what stays with it alone. -/
theorem linear_intro (c : Dev nD) :
    iprop((bigSep Finset.univ fun j : Fin 15 => (atPos ER (kcell (c, j)) 0 ∅ 0 : sProp 𝕄)) ∗ payToks c) ⊢ linear c := by
  unfold linear
  rw [bigSep_fin15,
    bigSep_congr (s := Finset.univ) (fun (k : Fin 7) _ => show (atPos ER (kcell (c, iS k)) 0 ∅ 0 : sProp 𝕄) = atPos ER (sendCell c k) 0 ∅ 0 by rw [kcell_send]),
    bigSep_congr (s := Finset.univ) (fun (k : Fin 7) _ => show (atPos ER (kcell (c, iR k)) 0 ∅ 0 : sProp 𝕄) = atPos ER (recvCell c k) 0 ∅ 0 by rw [kcell_recv])]
  iintro ⟨⟨HB, HS, HR⟩, HT⟩
  isplitl [HB]; · iexact HB
  isplitl [HS]; · iexact HS
  isplitl [HR]; · iexact HR
  iexact HT

theorem regroup :
    (bigSep Finset.univ fun c : Dev nD => iprop((bigSep Finset.univ fun j : Fin 15 => iprop(∃ κ : ℕ, cellInv ER (Rd m ρ) κ (kcell (c, j))))
          ∗ (bigSep Finset.univ fun j : Fin 15 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 15 => (atPos ER (kcell (c, j)) 0 ∅ 0 : sProp 𝕄)) payToks).symm).trans
      (bigSep_mono fun c _ => linear_intro (F := F) c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Prf

end
-- ==== Proof.LaunchRun.lean ====
/-
  The launch: the launch credit, what the launch hands a device's thread and what the thread hands back, the run of
  the program on all eight devices, and what the arrays hold at the end.
-/
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.KernelIdeal.Launch
import proofs.«900907_g7700000000000908_dist_max_ax0_shard0_i_m1024_n512_v7x_i8_f32_1_alg».proof.Proof.Gen.KernelIdeal.Points
import proofs.«900907_g7700000000000908_dist_max_ax0_shard0_i_m1024_n512_v7x_i8_f32_1_alg».proof.Proof.Cells
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.State
import proofs.«900907_g7700000000000908_dist_max_ax0_shard0_i_m1024_n512_v7x_i8_f32_1_alg».proof.Proof.Levels
import proofs.«900907_g7700000000000908_dist_max_ax0_shard0_i_m1024_n512_v7x_i8_f32_1_alg».proof.Proof.Body
import proofs.«900907_g7700000000000908_dist_max_ax0_shard0_i_m1024_n512_v7x_i8_f32_1_alg».proof.Proof.LaunchGhost
import Idealize.ShloMosaic.Lib.Pipeline.Launch
import Idealize.ShloMosaic.Lib.Pipeline.Kit
import Idealize.ShloMosaic.Lib.Tactic

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the fourteen own semaphores, and the shares -/

theorem ownSemFacts : Pipeline.OwnSemFacts cfg0.spec osem := by decide

theorem share_eq (c : Dev nD) (w : Fin cfg0.W) : (dats m ρ 0 c).share w = fullShare := by unfold Dat.share; split <;> rfl

/-- The first seven of the fourteen own semaphores are the send semaphores, the last seven the receive semaphores. -/
def eS : Fin 7 ↪ Fin 14 := ⟨fun k => ⟨k.val, by have := k.isLt; omega⟩, fun a b h => Fin.ext (by have := congrArg Fin.val h; exact this)⟩
def eR : Fin 7 ↪ Fin 14 := ⟨fun k => ⟨7 + k.val, by have := k.isLt; omega⟩, fun a b h => Fin.ext (by have := congrArg Fin.val h; simp only at this; omega)⟩

theorem univ_fourteen : (Finset.univ : Finset (Fin 14)) = (Finset.univ : Finset (Fin 7)).map eS ∪ (Finset.univ : Finset (Fin 7)).map eR := by decide
theorem disjoint_fourteen : Disjoint ((Finset.univ : Finset (Fin 7)).map eS) ((Finset.univ : Finset (Fin 7)).map eR) := by decide
theorem osem_eS : ∀ k : Fin 7, osem (eS k) = .dma (sendS k) := by decide
theorem osem_eR : ∀ k : Fin 7, osem (eR k) = .dma (recvS k) := by decide

omit [FloatOps F] in
/-- The fourteen own semaphores at zero are the seven send cells and the seven receive cells at zero. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ (bigSep Finset.univ fun k : Fin 7 => semVal (recvCell c k) 0)) := by
  unfold Pipeline.ownSems0
  rw [univ_fourteen, bigSep_union disjoint_fourteen, bigSep_map, bigSep_map]
  simp only [osem_eS, osem_eR]
  rfl

/-! ## The launch credit -/

omit [FloatOps F] in
/-- Every device owing a row's credit on receive cell k of the device k + 1 places on, the launch deals each device
    that credit on its own receive cell k: the payer is the device k + 1 places before it. -/
theorem cred_recv (c : Dev nD) (k : Fin 7) :
    (Pipeline.launchCred (fun d => tallyAt (recvCell (fwd d k) k) () N) c : sProp 𝕄) ⊢ cred (tallyAt (recvCell c k) () N) :=
  Pipeline.launchCred_tallyAt (.dma (recvS k)) (fun d => fwd d k) (fun d => fwd d k.rev) (fun c => fwd_rev_fwd c k) (fun d => fwd_fwd_rev d k) () N c

omit [FloatOps F] in
/-- Likewise one unit on its barrier cell for each of the seven offsets. -/
theorem cred_bar (c : Dev nD) (k : Fin 7) :
    (Pipeline.launchCred (fun d => tallyAt (barCell (fwd d k)) () 1) c : sProp 𝕄) ⊢ cred (tallyAt (barCell c) () 1) :=
  Pipeline.launchCred_tallyAt (.reg barS) (fun d => fwd d k) (fun d => fwd d k.rev) (fun c => fwd_rev_fwd c k) (fun d => fwd_fwd_rev d k) () 1 c

omit [FloatOps F] in
theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
/-- Seven unit credits on one cell are the credit of seven units. -/
theorem seven_units (c : Dev nD) :
    (bigSep Finset.univ fun _ : Fin 7 => (cred (tallyAt (barCell c) () 1) : sProp 𝕄)) ⊢ cred (tallyAt (barCell c) () 7) := by
  rw [← Pipeline.cred_finsetSum, Finset.sum_const, Finset.card_univ, Fintype.card_fin, nsmul_tallyAt]

omit [FloatOps F] in
/-- What the launch deals device c: the seven units of its barrier cell and a row's credit on each receive cell. -/
theorem creds (c : Dev nD) :
    (Pipeline.launchCred O₀ c : sProp 𝕄)
      ⊢ iprop(cred (tallyAt (barCell c) () 7) ∗ bigSep Finset.univ fun k : Fin 7 => cred (tallyAt (recvCell c k) () N)) := by
  rw [show (O₀ : Dev nD → CellTallies nD τ sig Unit)
      = fun d => (∑ k : Fin 7, tallyAt (recvCell (fwd d k) k) () N) + ∑ k : Fin 7, tallyAt (barCell (fwd d k)) () 1 from funext O₀_eq,
    Pipeline.launchCred_add, Pipeline.launchCred_sum, Pipeline.launchCred_sum]
  refine (sep_mono (bigSep_mono fun k _ => cred_recv (F := F) c k)
    ((bigSep_mono fun k _ => cred_bar (F := F) c k).trans (seven_units (F := F) c))).trans ?_
  exact Idealize.SL.BI.sep_comm

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G'
  isplitl
  · isplitl [HG]; · iexact HG
    isplitl [H7]; · iexact H7
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HS, HV⟩
  isplitr; · iempintro
  isplitl [HS HV]
  · isplitl [HS] <;> iassumption
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution terminates without fault, and every final state has each windowed array of each
    device at what the write-backs leave there. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The device's block of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the larger of the own row and the seven landed ones: the one write-back,
    of the whole block, writes what the body left in the result's staging buffer. -/
theorem finalA_out (c : Dev nD) : finalA m ρ c (1 : Fin 2) = outAt m ρ c := by
  unfold finalA
  have h := (dats (F := F) m ρ 0 c).arrAt_succ (1 : Fin 2) t₀
  rw [if_pos (flush0_1 t₀)] at h
  refine h.trans ?_
  exact Memref.write_access_unit_zero_univ (Elt F) main_v1 (funext fun a => Nat.zero_mul _) _ _ _

/-- Every weakly fair execution of the program on the eight devices terminates, nothing faults, and every device ends
    with its result array at the maximum of its own row of column maxima and the seven it received, its block of x
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) := by
  refine (run_main m ρ).mono fun r h c => ⟨?_, ?_⟩
  · exact ((h c (1 : Fin 2)).trans (finalA_out m ρ c))
  · exact ((h c (0 : Fin 2)).trans (finalA_x m ρ c))

/-- The staged block is the device's argument array. -/
theorem xstg_eq (c : Dev nD) : xstg m ρ c = m ((c.tc : Thread nD τ).loc main_arg0) := by
  unfold xstg
  exact Memref.read_access_unit_zero (Elt F) main_arg0 (funext fun a => Nat.zero_mul _) _ _

/-- info: 'Cert.KernelIdeal.Prf.xstg_eq' depends on axioms: [propext, Classical.choice, Quot.sound] -/
#guard_msgs in #print axioms xstg_eq

end Cert.KernelIdeal.Prf

end
-- ==== Proof.Value.lean ====
/-
  The value of the all-to-all maximum, at the ideal float values (the extended reals, every operation exact).

  Device c holds rows 1024 c … 1024 c + 1023 of x. Its own row vector is, column by column, the maximum of those
  rows; landing row k holds the row vector of the device fwd c (6 - k); and the kernel's result is the larger of
  the own vector and the maximum over the seven landing rows. The seven devices fwd c (6 - k), k = 0 … 6, are the
  seven devices other than c, so the eight blocks of 1024 rows cover all 8192 rows, and the result is the column
  maximum over every row: the reference's reduce, broadcast to one row.

  A maximum is carried by its universal property: a fold of max from -∞ over a finite family is below z exactly
  when every member is. Both sides are therefore below the same bounds, hence equal.
-/
import proofs.«900907_g7700000000000908_dist_max_ax0_shard0_i_m1024_n512_v7x_i8_f32_1_alg».proof.Proof.Gen.KernelIdeal.Skeleton
import proofs.«900907_g7700000000000908_dist_max_ax0_shard0_i_m1024_n512_v7x_i8_f32_1_alg».proof.Proof.Gen.ReferenceIdeal.Read
import proofs.«900907_g7700000000000908_dist_max_ax0_shard0_i_m1024_n512_v7x_i8_f32_1_alg».proof.Proof.Cells
import Idealize.ShloMosaic.Lib.ValueIdx
import Idealize.ShloMosaic.Lib.ValueLayout
import Idealize.ShloMosaic.Lib.Layout
import Idealize.ShloMosaic.Lib.Pipeline.Value
import Idealize.ShloMosaic.PureOps.Ideal.Laws
import Idealize.ShloMosaic.PureOps.Reduce

noncomputable section

namespace Cert.KernelIdeal.ValueLeg

open Idealize.ShloMosaic Cert.KernelIdeal Cert.KernelIdeal.Gen Cert.KernelIdeal.Prf
open Idealize.ShloMosaic.ValueIdx

/-- The accumulator of both reductions, the f32 pattern of -∞, is the least extended real. -/
theorem ninf_eq_bot : (FloatOps.ofBits .f32 0xFF800000#32 : Ideal .f32) = (⊥ : EReal) := by
  show Ideal.ofBits .f32 0xFF800000#32 = ⊥
  simp [Ideal.ofBits, Ideal.ieee]

/-- The universal property of a maximum from -∞: it is below z exactly when every member is. -/
theorem fold_max_bot_le_iff {ι : Type} (s : Finset ι) (f : ι → EReal) (z : EReal) :
    s.fold max (⊥ : EReal) f ≤ z ↔ ∀ k ∈ s, f k ≤ z := by
  rw [Finset.fold_max_le]; exact ⟨fun h => h.2, fun h => ⟨bot_le, h⟩⟩

/-- Over column j of an array of n rows, the index with row r inserted is (r, j). -/
theorem lift_rows {n : Nat} (h : Shape.Reduces ⟨2, ![n, 512]⟩ [0] ⟨1, ![512]⟩) (j : Fin 512) (r : Fin n) :
    h.lift (ix1 j) r = ix2 r j := by
  funext a
  match a with
  | ⟨0, _⟩ => exact Fin.ext rfl
  | ⟨1, _⟩ => exact Fin.ext rfl

/-- Over entry (u, j) of a row vector, the index of the landing buffer with landing row k inserted is (k, u, j). -/
theorem lift_slots (h : Shape.Reduces ⟨3, ![7, 1, 512]⟩ [0] ⟨2, ![1, 512]⟩) (u : Fin 1) (j : Fin 512) (k : Fin 7) :
    h.lift (ix2 u j) k = ix3 k u j := by
  funext a
  match a with
  | ⟨0, _⟩ => exact Fin.ext rfl
  | ⟨1, _⟩ => exact Fin.ext rfl
  | ⟨2, _⟩ => exact Fin.ext rfl

/-- A device's own row vector at column j: the maximum over its 1024 rows. -/
theorem own_apply (B : FVec Ideal S1024x512 .f32) (u : Fin 1) (j : Fin 512) :
    k0_pay2 (F := Ideal) (k0_pay1 B) (ix2 u j) = Finset.univ.fold max (⊥ : EReal) (fun r : Fin 1024 => B (ix2 r j)) := by
  unfold k0_pay2 k0_pay1
  refine (congrFun (shapeCast_self _ shapeCasts_S1x512_S1x512) (ix2 u j)).trans ?_
  refine (shapeCast_a_1a_apply _ shapeCasts_S512_S1x512 u j).trans ?_
  refine (Ideal.multiReduction_maximumf_single _ _ reduces_S1024x512_S512 _ _ (ix1 j)).trans ?_
  have hf : ((shapeCast S1024x512 B shapeCasts_S1024x512_S1024x512) ∘ reduces_S1024x512_S512.lift (ix1 j))
      = fun r : Fin 1024 => B (ix2 r j) := by
    funext r
    show shapeCast S1024x512 B shapeCasts_S1024x512_S1024x512 (reduces_S1024x512_S512.lift (ix1 j) r) = B (ix2 r j)
    rw [shapeCast_self]
    exact congrArg B (lift_rows reduces_S1024x512_S512 j r)
  exact congrArg₂ (fun a f => Finset.fold max a f (Finset.univ : Finset (Fin 1024))) ninf_eq_bot hf

/-- The larger of a row vector and the maximum over the seven landing rows, at column j. -/
theorem out_apply (a : FVec Ideal S1x512 .f32) (R : FVec Ideal S7x1x512 .f32) (u : Fin 1) (j : Fin 512) :
    k0_pay3 (F := Ideal) a R (ix2 u j) = max (a (ix2 u j)) (Finset.univ.fold max (⊥ : EReal) (fun k : Fin 7 => R (ix3 k u j))) := by
  unfold k0_pay3
  refine (maximumf_apply _ _ _).trans ?_
  refine congrArg (max (a (ix2 u j))) ?_
  refine (Ideal.multiReduction_maximumf_single _ _ reduces_S7x1x512_S1x512 _ _ (ix2 u j)).trans ?_
  have hf : (R ∘ reduces_S7x1x512_S1x512.lift (ix2 u j)) = fun k : Fin 7 => R (ix3 k u j) := by
    funext k
    exact congrArg R (lift_slots reduces_S7x1x512_S1x512 u j k)
  exact congrArg₂ (fun a f => Finset.fold max a f (Finset.univ : Finset (Fin 7))) ninf_eq_bot hf

/-- The reference's reduce drops the row axis of the whole array. -/
theorem reduces_ref : Shape.Reduces Cert.ReferenceIdeal.S8192x512 [0] Cert.ReferenceIdeal.S512 := by decide

/-- The reference at column j: the maximum over all 8192 rows. -/
theorem ref_apply (X : (⟨Cert.ReferenceIdeal.S8192x512, .f32⟩ : BufTy).Contents (Elt Ideal)) (u : Fin 1) (j : Fin 512) :
    Cert.ReferenceIdeal.Read.val_main_v1 (F := Ideal) X (ix2 u j)
      = Finset.univ.fold max (⊥ : EReal) (fun r : Fin 8192 => X (ix2 r j)) := by
  refine (Cert.ReferenceIdeal.Read.val_main_v1_apply X (ix2 u j)).trans ?_
  unfold Cert.ReferenceIdeal.Read.val_main_v0
  have hi : Cert.ReferenceIdeal.Read.idx_main_v1 (ix2 u j) = ix1 j := by
    funext a
    match a with
    | ⟨0, _⟩ => rfl
  rw [hi]
  refine (Host.reduce_eq_fold_single (FloatOps.maximumf (F := Ideal) (φ := .f32)) X _ _ reduces_ref _ (ix1 j)).trans ?_
  have hf : (X ∘ reduces_ref.lift (ix1 j)) = fun r : Fin 8192 => X (ix2 r j) := by
    funext r
    exact congrArg X (lift_rows reduces_ref j r)
  exact congrArg₂ (fun a f => Finset.fold max a f (Finset.univ : Finset (Fin 8192))) ninf_eq_bot hf

/-- Row r of block d lies inside the whole array. -/
theorem row_lt (d : Fin 8) (r : Fin 1024) : d.val * 1024 + r.val < 8192 := by
  have := d.isLt; have := r.isLt; omega

/-- Row r of block d is row 1024 d + r of the whole, column by column. -/
theorem block_entry (X : (⟨2, ![8192, 512]⟩ : Shape).Idx → EReal) (d : Fin 8) (r : Fin 1024) (j : Fin 512)
    (h : Layout.Tiles ⟨2, ![1024, 512]⟩ ⟨2, ![8192, 512]⟩ 0 8) :
    Layout.block ⟨2, ![1024, 512]⟩ ⟨2, ![8192, 512]⟩ 0 8 d X h (ix2 r j) = X (ix2 ⟨d.val * 1024 + r.val, row_lt d r⟩ j) := by
  refine congrArg X ?_
  funext a
  match a with
  | ⟨0, _⟩ => exact Fin.ext rfl
  | ⟨1, _⟩ => exact Fin.ext rfl

/-- The seven devices fwd c (6 - k) are all the devices other than c. -/
theorem others : ∀ c d : Dev nD, d ≠ c → ∃ k : Fin 7, fwd c k.rev = d := by decide

/-- A property of all 8192 rows holds when it holds on the rows of block c and on the rows of the seven blocks
    fwd c (6 - k), and conversely. -/
theorem forall_rows_iff (c : Dev nD) (P : Fin 8192 → Prop) :
    (∀ R, P R) ↔ (∀ r : Fin 1024, P ⟨c.val * 1024 + r.val, row_lt c r⟩)
      ∧ ∀ (k : Fin 7) (r : Fin 1024), P ⟨(fwd c k.rev).val * 1024 + r.val, row_lt (fwd c k.rev) r⟩ := by
  constructor
  · intro h; exact ⟨fun r => h _, fun k r => h _⟩
  · rintro ⟨h1, h2⟩ R
    have hd : R.val / 1024 < 8 := by have := R.isLt; omega
    have hr : R.val % 1024 < 1024 := Nat.mod_lt _ (by decide)
    have hR : ∀ d : Fin 8, d.val = R.val / 1024 → R = ⟨d.val * 1024 + (⟨R.val % 1024, hr⟩ : Fin 1024).val, row_lt d ⟨R.val % 1024, hr⟩⟩ := by
      intro d hd'; apply Fin.ext; show R.val = d.val * 1024 + R.val % 1024; rw [hd']; omega
    by_cases hc : (⟨R.val / 1024, hd⟩ : Dev nD) = c
    · rw [hR c (by rw [← hc])]; exact h1 _
    · obtain ⟨k, hk⟩ := others c ⟨R.val / 1024, hd⟩ hc
      rw [hR (fwd c k.rev) (by rw [hk])]; exact h2 k _

/-- On every device the kernel's result is the reference's: with device d's block being block d of x, the larger
    of device c's own row vector and the seven row vectors landed from the devices fwd c (6 - k) is the column
    maximum over all 8192 rows, laid out as one row. -/
theorem out_eq_ref (X : (⟨Cert.ReferenceIdeal.S8192x512, .f32⟩ : BufTy).Contents (Elt Ideal)) (blk : Dev nD → FVec Ideal S1024x512 .f32)
    (hblk : ∀ c : Dev nD, blk c = Layout.block ⟨2, ![1024, 512]⟩ ⟨2, ![8192, 512]⟩ 0 8 c X) (c : Dev nD) :
    k0_pay3 (F := Ideal) (k0_pay2 (F := Ideal) (k0_pay1 (blk c))) (fun i => k0_pay2 (F := Ideal) (k0_pay1 (blk (Prf.fwd c (i 0 : Fin 7).rev))) (ValueIdx.ix2 (0 : Fin 1) (i 2 : Fin 512)))
      = Cert.ReferenceIdeal.Read.val_main_v1 (F := Ideal) X := by
  funext i
  obtain ⟨u, j, rfl⟩ : ∃ (u : Fin 1) (j : Fin 512), i = ix2 u j := ⟨i 0, i 1, eq_ix2 i⟩
  have hb : ∀ (d : Dev nD) (r : Fin 1024), blk d (ix2 r j) = X (ix2 ⟨d.val * 1024 + r.val, row_lt d r⟩ j) :=
    fun d r => (congrFun (hblk d) (ix2 r j)).trans (block_entry X d r j _)
  have hL : k0_pay3 (F := Ideal) (k0_pay2 (F := Ideal) (k0_pay1 (blk c))) (fun i => k0_pay2 (F := Ideal) (k0_pay1 (blk (Prf.fwd c (i 0 : Fin 7).rev))) (ValueIdx.ix2 (0 : Fin 1) (i 2 : Fin 512))) (ix2 u j)
      = max (Finset.univ.fold max (⊥ : EReal) (fun r : Fin 1024 => blk c (ix2 r j)))
          (Finset.univ.fold max (⊥ : EReal) (fun k : Fin 7 => Finset.univ.fold max (⊥ : EReal) (fun r : Fin 1024 => blk (fwd c k.rev) (ix2 r j)))) := by
    refine (out_apply _ _ u j).trans ?_
    exact congrArg₂ max (own_apply (blk c) u j)
      (congrArg (fun f => Finset.fold max (⊥ : EReal) f (Finset.univ : Finset (Fin 7))) (funext fun k => own_apply (blk (fwd c k.rev)) 0 j))
  refine hL.trans ((?_ : _ = _).trans (ref_apply X u j).symm)
  apply eq_of_forall_ge_iff
  intro z
  rw [max_le_iff, fold_max_bot_le_iff, fold_max_bot_le_iff, fold_max_bot_le_iff]
  simp only [fold_max_bot_le_iff, Finset.mem_univ, forall_true_left, hb]
  exact (forall_rows_iff c (fun R => X (ix2 R j) ≤ z)).symm

end Cert.KernelIdeal.ValueLeg

end
-- ==== Proof.Assemble.lean ====
/-
  The claims put together, at the ideal float values: the idealized kernel and the idealized reference both run and
  leave their arguments as they were; the idealization rewrote no operation; and, from memories where device c's
  argument holds rows 1024 c … 1024 c + 1023 of the reference's array, the kernel's result on every device is the
  reference's result, the column maximum over all 8192 rows laid out as one row.
-/
import proofs.«900907_g7700000000000908_dist_max_ax0_shard0_i_m1024_n512_v7x_i8_f32_1_alg».proof.Defs
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.ReferenceIdeal
import proofs.«900907_g7700000000000908_dist_max_ax0_shard0_i_m1024_n512_v7x_i8_f32_1_alg».proof.Proof.Gen.Pre_finite_inputs_Kernel
import proofs.«900907_g7700000000000908_dist_max_ax0_shard0_i_m1024_n512_v7x_i8_f32_1_alg».proof.Proof.Gen.Pre_finite_inputs_ReferenceIdeal
import proofs.«900907_g7700000000000908_dist_max_ax0_shard0_i_m1024_n512_v7x_i8_f32_1_alg».proof.Proof.Gen.ReferenceIdeal.Run
import proofs.«900907_g7700000000000908_dist_max_ax0_shard0_i_m1024_n512_v7x_i8_f32_1_alg».proof.Proof.Gen.ReferenceIdeal.Read
import proofs.«900907_g7700000000000908_dist_max_ax0_shard0_i_m1024_n512_v7x_i8_f32_1_alg».proof.Proof.Sched
import proofs.«900907_g7700000000000908_dist_max_ax0_shard0_i_m1024_n512_v7x_i8_f32_1_alg».proof.Proof.LaunchRun
import proofs.«900907_g7700000000000908_dist_max_ax0_shard0_i_m1024_n512_v7x_i8_f32_1_alg».proof.Proof.Value

noncomputable section

namespace Cert.Proof.Parts

open Idealize.ShloMosaic Idealize.ShloMosaic.TcCoe Idealize.SL.Sem

/-! ## The kernel's result is the reference's value -/

section Value

open Cert.KernelIdeal Cert.KernelIdeal.Gen

variable (m : (ℓ : Loc nD τ sig) → Buf (Elt Ideal) ℓ) (ρ : Dev nD → PrngReg)

/-- A device's own row vector is the column maxima of its argument array. -/
theorem ownV_eq (d : Dev nD) :
    Prf.ownV m ρ d = k0_pay2 (F := Ideal) (k0_pay1 (m ((d.tc : Thread nD τ).loc main_arg0))) := by
  unfold Prf.ownV
  rw [Prf.xstg_eq]

/-- The landed contents of device c: landing row k holds the row vector of the device fwd c (6 - k). -/
theorem recvV_eq (c : Dev nD) :
    Prf.recvV m ρ c = fun i => k0_pay2 (F := Ideal) (k0_pay1 (m (((Prf.fwd c (i 0 : Fin 7).rev).tc : Thread nD τ).loc main_arg0)))
      (ValueIdx.ix2 (0 : Fin 1) (i 2 : Fin 512)) := by
  funext i
  unfold Prf.recvV
  exact congrFun (ownV_eq m ρ (Prf.fwd c (i 0 : Fin 7).rev)) (ValueIdx.ix2 (0 : Fin 1) (i 2 : Fin 512))

/-- With device d's argument being block d of the whole array X, the kernel's result on every device is the
    reference's value of X. -/
theorem outAt_eq_ref (X : (⟨Cert.ReferenceIdeal.S8192x512, .f32⟩ : BufTy).Contents (Elt Ideal))
    (hagree : ∀ d : Dev nD, m ((d.tc : Thread nD τ).loc main_arg0) = Layout.block ⟨2, ![1024, 512]⟩ ⟨2, ![8192, 512]⟩ 0 8 d X)
    (c : Dev nD) :
    Prf.outAt m ρ c = Cert.ReferenceIdeal.Read.val_main_v1 (F := Ideal) X := by
  unfold Prf.outAt
  rw [ownV_eq, recvV_eq]
  exact Cert.KernelIdeal.ValueLeg.out_eq_ref X (fun d => m ((d.tc : Thread nD τ).loc main_arg0)) hagree c

end Value

/-! ## The claims -/

/-- The idealized kernel runs and leaves each device's argument array as it was. -/
theorem frame_pi : Cert.frame_KernelIdeal := fun m ρ _ =>
  (θ_run Cert.KernelIdeal.defs _ _).mono (fun _ h c => (h c).2) (Cert.KernelIdeal.Prf.run (F := Ideal) m ρ)

/-- The idealized reference runs and leaves its argument array as it was. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs run, their arguments unchanged; the reference's result is its value of the whole array, and every
    device's result of the kernel is that same value. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Prf.run (F := Ideal) m ρ)
    exact outAt_eq_ref m ρ _ hagree c
  · refine (θ_run Cert.ReferenceIdeal.defs _ _).mono (fun _ h => ⟨(h 0).1.trans ?_, (h 0).2⟩)
      (Cert.ReferenceIdeal.Value.run (F := Ideal) m' ρ')
    exact Cert.ReferenceIdeal.Read.val_main_v1_eq _

end Cert.Proof.Parts

end
-- ==== Proof.lean ====
/-
  The certificate's claim: the column maximum over eight devices against jnp.max over the whole array.

  The kernel, on each of eight devices, takes the column maxima of its own 1024 rows, exchanges the resulting row
  with the seven other devices (an entry handshake on the barrier semaphore, then seven addressed copies, each
  with its own send and receive semaphore), and keeps the larger of its own row and the seven received, column by
  column. Each of its two printed forms runs to the end without a fault and leaves its block of x unchanged (the
  two frames: one proof, generic in the float instance, instantiated at words and at extended reals); the
  reference's frame is its generated run; nothing was rewritten between the two printed forms; and at the ideal
  instance every device's result is the reference's, because the eight blocks cover all 8192 rows and a maximum of
  maxima over a cover is the maximum over the whole, with -inf neutral and no finiteness needed.
-/
import proofs.«900907_g7700000000000908_dist_max_ax0_shard0_i_m1024_n512_v7x_i8_f32_1_alg».proof.Defs
import proofs.«900907_g7700000000000908_dist_max_ax0_shard0_i_m1024_n512_v7x_i8_f32_1_alg».proof.Proof.Gen.Kernel
import proofs.«900907_g7700000000000908_dist_max_ax0_shard0_i_m1024_n512_v7x_i8_f32_1_alg».proof.Proof.Gen.KernelIdeal
import proofs.«900907_g7700000000000908_dist_max_ax0_shard0_i_m1024_n512_v7x_i8_f32_1_alg».proof.Proof.Gen.ReferenceIdeal
import proofs.«900907_g7700000000000908_dist_max_ax0_shard0_i_m1024_n512_v7x_i8_f32_1_alg».proof.Proof.Gen.Pre_finite_inputs_Kernel
import proofs.«900907_g7700000000000908_dist_max_ax0_shard0_i_m1024_n512_v7x_i8_f32_1_alg».proof.Proof.Gen.Pre_finite_inputs_ReferenceIdeal
import proofs.«900907_g7700000000000908_dist_max_ax0_shard0_i_m1024_n512_v7x_i8_f32_1_alg».proof.Proof.BitsLaunchRun
import proofs.«900907_g7700000000000908_dist_max_ax0_shard0_i_m1024_n512_v7x_i8_f32_1_alg».proof.Proof.Assemble

noncomputable section

namespace Cert.Proof

open Idealize.ShloMosaic Idealize.SL.Sem

/-- The word-level program's frame: its run with the result dropped. -/
theorem frame_p : @Cert.frame_Kernel Cert.Kernel.Gen.facts Cert.Pre_finite_inputs_Kernel.Gen.facts := fun m ρ _ =>
  (θ_run (Cert.Kernel.defs (F := Bits)) _ _).mono (fun _ h c => (h c).2) (Cert.Kernel.Prf.run (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, Cert.Proof.Parts.frame_pi, Cert.Proof.Parts.frame_ri, Cert.Proof.Parts.preserves, Cert.Proof.Parts.algebraic⟩

end Cert.Proof

end
